-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S8192x512 : Shape := ⟨2, ![8192, 512]⟩
abbrev S4096 : Shape := ⟨1, ![4096]⟩
abbrev S512x4096 : Shape := ⟨2, ![512, 4096]⟩
abbrev S512 : Shape := ⟨1, ![512]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4096 : S_.BroadcastsInDim S4096 (![] : Fin 0 → Fin S4096.rank)
  reducesTo_S4096_S_d0 : S4096.ReducesTo [0] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4096 .f32) (main_arg5 : FVec F S512x4096 .f32) (main_arg6 : FVec F S512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2048x4096 .f32) (main_arg1 : FVec F S2048x4096 .f32) (main_arg2 : FVec F S8192x512 .f32) (main_arg3 : FVec F S4096 .f32) (main_arg4 : FVec F S4096 .f32) (main_arg5 : FVec F S512x4096 .f32) (main_arg6 : FVec F S512 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S2048x4096 : Shape := ⟨2, ![2048, 4096]⟩
abbrev S8192x512 : Shape := ⟨2, ![8192, 512]⟩
abbrev S4096 : Shape := ⟨1, ![4096]⟩
abbrev S512x4096 : Shape := ⟨2, ![512, 4096]⟩
abbrev S512 : Shape := ⟨1, ![512]⟩
abbrev S1x4096 : Shape := ⟨2, ![1, 4096]⟩
abbrev S_ : Shape := ⟨0, ![]⟩
abbrev S1x512 : Shape := ⟨2, ![1, 512]⟩
abbrev S4096x512 : Shape := ⟨2, ![4096, 512]⟩
abbrev S2048x512 : Shape := ⟨2, ![2048, 512]⟩
abbrev S2048x1 : Shape := ⟨2, ![2048, 1]⟩
abbrev S256x4096 : Shape := ⟨2, ![256, 4096]⟩
abbrev S256x512 : Shape := ⟨2, ![256, 512]⟩
abbrev S256x1 : Shape := ⟨2, ![256, 1]⟩
abbrev S256 : Shape := ⟨1, ![256]⟩
abbrev S1024x512 : Shape := ⟨2, ![1024, 512]⟩
abbrev S1024 : Shape := ⟨1, ![1024]⟩
abbrev S1024x1 : Shape := ⟨2, ![1024, 1]⟩
abbrev S2048x8192 : Shape := ⟨2, ![2048, 8192]⟩
abbrev S256x1024 : Shape := ⟨2, ![256, 1024]⟩
abbrev S512x1024 : Shape := ⟨2, ![512, 1024]⟩
abbrev S16777216x1 : Shape := ⟨2, ![16777216, 1]⟩
abbrev S2048 : Shape := ⟨1, ![2048]⟩
abbrev S16777216 : Shape := ⟨1, ![16777216]⟩

abbrev nBuf : Space → Nat
  | .hbm => 31
  | .vmem => 30
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S8192x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x512, .f32⟩
  | .hbm, ⟨20, _⟩ => ⟨S4096x512, .f32⟩
  | .hbm, ⟨21, _⟩ => ⟨S4096x512, .bf16⟩
  | .hbm, ⟨22, _⟩ => ⟨S2048x512, .f32⟩
  | .hbm, ⟨23, _⟩ => ⟨S2048x1, .f32⟩
  | .hbm, ⟨24, _⟩ => ⟨S8192x512, .bf16⟩
  | .hbm, ⟨25, _⟩ => ⟨S2048x8192, .f32⟩
  | .hbm, ⟨26, _⟩ => ⟨S16777216x1, .f32⟩
  | .hbm, ⟨27, _⟩ => ⟨S2048, .f32⟩
  | .hbm, ⟨28, _⟩ => ⟨S2048x8192, .f32⟩
  | .hbm, ⟨29, _⟩ => ⟨S16777216, .f32⟩
  | .hbm, ⟨30, _⟩ => ⟨S16777216x1, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S4096x512, .bf16⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x1, .f32⟩
  | .local _ .vmem, ⟨19, _⟩ => ⟨S256x1, .f32⟩
  | .local _ .vmem, ⟨20, _⟩ => ⟨S1024x512, .f32⟩
  | .local _ .vmem, ⟨21, _⟩ => ⟨S1024x512, .f32⟩
  | .local _ .vmem, ⟨22, _⟩ => ⟨S1024x512, .bf16⟩
  | .local _ .vmem, ⟨23, _⟩ => ⟨S1024x512, .bf16⟩
  | .local _ .vmem, ⟨24, _⟩ => ⟨S256x512, .f32⟩
  | .local _ .vmem, ⟨25, _⟩ => ⟨S256x512, .f32⟩
  | .local _ .vmem, ⟨26, _⟩ => ⟨S1024x512, .bf16⟩
  | .local _ .vmem, ⟨27, _⟩ => ⟨S1024x512, .bf16⟩
  | .local _ .vmem, ⟨28, _⟩ => ⟨S256x1024, .f32⟩
  | .local _ .vmem, ⟨29, _⟩ => ⟨S256x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  bcast_S_S1x4096 : S_.BroadcastsInDim S1x4096 (![] : Fin 0 → Fin S1x4096.rank)
  shapeCasts_S512_S1x512 : S512.ShapeCasts S1x512
  transposes_S512x4096_S4096x512_1_0 : S512x4096.Transposes [1, 0] S4096x512
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  reduces_S256x4096_S256 : S256x4096.Reduces [1] S256
  broadcasts_S256x1_S256x4096 : S256x1.Broadcasts S256x4096
  inb_S256x1_S256x1_0_0 : ∀ a, (![0, 0] : Fin 2 → Nat) a + S256x1.size a ≤ S256x1.size a
  h_S256x1 : 0 < S256x1.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S256x512_S256x512 : S256x512.ShapeCasts S256x512
  shapeCasts_S1024x512_S1024x512 : S1024x512.ShapeCasts S1024x512
  transposes_S1024x512_p1_0_S512x1024 : S1024x512.Transposes [1, 0] S512x1024
  inb_S256x1024_S256x1024_0_0 : ∀ a, (![0, 0] : Fin 2 → Nat) a + S256x1024.size a ≤ S256x1024.size a
  h_S256x1024 : 0 < S256x1024.numel
  shapeCasts_S2048x8192_S16777216x1 : S2048x8192.ShapeCasts S16777216x1
  shapeCasts_S2048x1_S2048 : S2048x1.ShapeCasts S2048
  bcast_S2048_S2048x8192_0 : S2048.BroadcastsInDim S2048x8192 (![0] : Fin 1 → Fin S2048x8192.rank)
  shapeCasts_S2048x8192_S16777216 : S2048x8192.ShapeCasts S16777216
  shapeCasts_S16777216_S16777216x1 : S16777216.ShapeCasts S16777216x1
  dot_S256x4096_S4096x512_S256x512_1_0_0_1_n_n_wf : DotDims.WF S256x4096 S4096x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S2048x4096.size a
  hwx1_0 : ∀ i : grid1.Coords, EltTy.bits .f32 = 32 ∨ (Rect.block (s := S2048x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S2048x4096.size a
  hwx1_1 : ∀ i : grid1.Coords, EltTy.bits .f32 = 32 ∨ (Rect.block (s := S2048x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x512.size a ≤ S4096x512.size a
  hwx1_6 : ∀ i : grid1.Coords, EltTy.bits .bf16 = 32 ∨ (Rect.block (s := S4096x512) S4096x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S2048x512.size a
  hwx1_8 : ∀ i : grid1.Coords, EltTy.bits .f32 = 32 ∨ (Rect.block (s := S2048x512) S256x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S2048x1.size a
  hwx1_9 : ∀ i : grid1.Coords, EltTy.bits .f32 = 32 ∨ (Rect.block (s := S2048x1) S256x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x512.size a ≤ S2048x512.size a
  hwx3_0 : ∀ i : grid3.Coords, EltTy.bits .f32 = 32 ∨ (Rect.block (s := S2048x512) S256x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S2048x8192.size a
  hwx3_2 : ∀ i : grid3.Coords, EltTy.bits .f32 = 32 ∨ (Rect.block (s := S2048x8192) S256x1024.size (cc3_transform_2 i) (hinb3_2 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x4096.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S4096x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_0) S256x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_1) S256x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x512.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v12_0) S256x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S256x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2048x4096 : Shape := ⟨2, ![2048, 4096]⟩
abbrev S8192x512 : Shape := ⟨2, ![8192, 512]⟩
abbrev S4096 : Shape := ⟨1, ![4096]⟩
abbrev S512x4096 : Shape := ⟨2, ![512, 4096]⟩
abbrev S512 : Shape := ⟨1, ![512]⟩
abbrev S_ : Shape := ⟨0, ![]⟩
abbrev S1x4096 : Shape := ⟨2, ![1, 4096]⟩
abbrev S4096x512 : Shape := ⟨2, ![4096, 512]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S8192 : Shape := ⟨1, ![8192]⟩
abbrev S8192x1 : Shape := ⟨2, ![8192, 1]⟩
abbrev S512x8192 : Shape := ⟨2, ![512, 8192]⟩
abbrev S2048x8192 : Shape := ⟨2, ![2048, 8192]⟩
abbrev S16777216x1 : Shape := ⟨2, ![16777216, 1]⟩
abbrev S16777216 : Shape := ⟨1, ![16777216]⟩

abbrev nBuf : Space → Nat
  | .hbm => 92
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S8192x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S1x4096, .f32⟩
  | .hbm, ⟨33, _⟩ => ⟨S2048x4096, .f32⟩
  | .hbm, ⟨34, _⟩ => ⟨S2048x4096, .f32⟩
  | .hbm, ⟨35, _⟩ => ⟨S4096x512, .f32⟩
  | .hbm, ⟨36, _⟩ => ⟨S2048x512, .f32⟩
  | .hbm, ⟨37, _⟩ => ⟨S1x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x4096, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x4096, .f32⟩
  | .hbm, ⟨62, _⟩ => ⟨S2048x4096, .f32⟩
  | .hbm, ⟨63, _⟩ => ⟨S2048x4096, .f32⟩
  | .hbm, ⟨64, _⟩ => ⟨S_, .f32⟩
  | .hbm, ⟨65, _⟩ => ⟨S2048, .f32⟩
  | .hbm, ⟨66, _⟩ => ⟨S2048x512, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x512, .f32⟩
  | .hbm, ⟨75, _⟩ => ⟨S2048x512, .f32⟩
  | .hbm, ⟨76, _⟩ => ⟨S8192x512, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x512, .f32⟩
  | .hbm, ⟨85, _⟩ => ⟨S8192x512, .f32⟩
  | .hbm, ⟨86, _⟩ => ⟨S512x8192, .f32⟩
  | .hbm, ⟨87, _⟩ => ⟨S2048x8192, .f32⟩
  | .hbm, ⟨88, _⟩ => ⟨S16777216x1, .f32⟩
  | .hbm, ⟨89, _⟩ => ⟨S2048x8192, .f32⟩
  | .hbm, ⟨90, _⟩ => ⟨S16777216, .f32⟩
  | .hbm, ⟨91, _⟩ => ⟨S16777216x1, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  reducesTo_S2048x4096_S4096_d0 : S2048x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S512x4096_S4096x512_1_0 : S512x4096.Transposes [1, 0] S4096x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  reducesTo_S2048x4096_S2048_d1 : S2048x4096.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x4096_0_1 : S2048x1.BroadcastsInDim S2048x4096 (![0, 1] : Fin 2 → Fin S2048x4096.rank)
  reducesTo_S2048x512_S2048_d1 : S2048x512.ReducesTo [1] S2048
  bcast_S2048x1_S2048x512_0_1 : S2048x1.BroadcastsInDim S2048x512 (![0, 1] : Fin 2 → Fin S2048x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  shapeCasts_S2048x8192_S16777216x1 : S2048x8192.ShapeCasts S16777216x1
  bcast_S2048_S2048x8192_0 : S2048.BroadcastsInDim S2048x8192 (![0] : Fin 1 → Fin S2048x8192.rank)
  shapeCasts_S2048x8192_S16777216 : S2048x8192.ShapeCasts S16777216
  shapeCasts_S16777216_S16777216x1 : S16777216.ShapeCasts S16777216x1
  dot_S2048x4096_S4096x512_S2048x512_1_0_0_1_n_n_wf : DotDims.WF S2048x4096 S4096x512 S2048x512 [1] [0] [0] [1] [] []
  dot_S2048x512_S512x8192_S2048x8192_1_0_0_1_n_n_wf : DotDims.WF S2048x512 S512x8192 S2048x8192 [1] [0] [0] [1] [] []

variable [Facts₀]

def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf
def dot_S2048x512_S512x8192_S2048x8192_1_0_0_1_n_n : DotDims S2048x512 S512x8192 S2048x8192 where
  lhsContracting := [1]
  rhsContracting := [0]
  lhsNonContracting := [0]
  rhsNonContracting := [1]
  lhsBatch := []
  rhsBatch := []
  wf := dot_S2048x512_S512x8192_S2048x8192_1_0_0_1_n_n_wf

class Facts : Prop extends Facts₀ where

variable [Facts]
-- ==== Proof.K.Reg0.lean ====
/-
  The first launch: per-feature sums over a batch of 2048 rows of 4096 features, 512 rows at a grid point, four points.
  Two scratch rows carry the running sum and the running sum of squares from point to point: the first point zeroes
  them, every point adds its block's lane sums (of the entries, of their squares) into them and copies the two rows into
  the two output blocks, which are written back after the last point. Stated at any contents `V` of the core's buffers at
  the launch's entry: the block of each window at a point, the running sums by recursion on the point, the body's run in
  its two cases (first point, later point), the invariant that names the scratch rows' contents between points, and the
  record the launch theorem takes (the input array as found, the input block kept, the output blocks at the running sums,
  nothing owed).
-/
import proofs.«111281_j10213432230334_1_alg».proof.Proof.Gen.Kernel.Launch
import proofs.«111281_j10213432230334_1_alg».proof.Proof.Gen.Kernel.Skeleton
import proofs.«111281_j10213432230334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Whole-shape rectangles -/

/-- The whole 512 x 4096 block as one rectangle, and a whole row of 4096 features. -/
abbrev rAll0 : Rect S512x4096 := Rect.unit (s := S512x4096) ![0, 0] S512x4096.size inb_S512x4096_S512x4096_0_0
abbrev rRow0 : Rect S1x4096 := Rect.unit (s := S1x4096) ![0, 0] S1x4096.size inb_S1x4096_S1x4096_0_0

theorem zeros2 (a : Fin 2) : (![0, 0] : Fin 2 → Nat) a = 0 :=
  match a with | ⟨0, _⟩ => rfl | ⟨1, _⟩ => rfl

/-- An index pushed through the unit-stride rectangle that starts at the origin and has the shape's own extents is itself. -/
theorem idx_origin {S : Shape} {off : Fin S.rank → Nat} (h : ∀ a, off a = 0) (inb : ∀ a, off a + S.size a ≤ S.size a)
    (x : S.Idx) : (Rect.unit off S.size inb).idx x = x := by
  funext a; apply Fin.ext
  show off a + 1 * (x a : Nat) = x a
  rw [h a]; omega

/-- So a load through it reads the contents, -/
theorem ld_origin {S : Shape} {e : EltTy} {off : Fin S.rank → Nat} (h : ∀ a, off a = 0) (inb : ∀ a, off a + S.size a ≤ S.size a)
    (X : S.Idx → Elt F e) : View.ld X (Rect.unit off S.size inb) = X :=
  funext fun x => congrArg X (idx_origin h inb x)

/-- it holds every index, -/
theorem mem_origin {S : Shape} {off : Fin S.rank → Nat} (h : ∀ a, off a = 0) (inb : ∀ a, off a + S.size a ≤ S.size a)
    (y : S.Idx) : y ∈ (Rect.unit off S.size inb).set :=
  Rect.mem_set_unit.mpr fun a => by rw [h a]; exact ⟨Nat.zero_le _, by have := (y a).isLt; omega⟩

/-- and a store through it, made last, leaves the stored vector whatever was stored before. -/
theorem canon_origin {S : Shape} {e : EltTy} {off : Fin S.rank → Nat} (h : ∀ a, off a = 0) (inb : ∀ a, off a + S.size a ≤ S.size a)
    (w : S.Idx → Elt F e) (L : List (View.Piece (Elt F) S e)) :
    View.canon ((⟨Rect.unit off S.size inb, w⟩ : View.Piece (Elt F) S e) :: L) = w := by
  funext y
  have e := View.canon_cons_emb (Val := Elt F) (Rect.unit off S.size inb) w L y
  rw [show (Rect.unit off S.size inb).emb y = y from idx_origin h inb y] at e
  exact e

/-- What a buffer reads after stores the last of which put `w` through the whole-shape rectangle: `w`. -/
theorem read_store_origin {κ : Kind} {sp : Space} {S : Shape} {e : EltTy} (v : View sig κ sp S e) (f : v.ty.Contents (Elt F))
    {off : Fin S.rank → Nat} (h : ∀ a, off a = 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons_self, mem_origin h inb y⟩).trans (canon_origin h inb w L)

/-- What a load through the whole-shape rectangle reads after such stores: `w`. -/
theorem readCov_origin {κ : Kind} {sp : Space} {S : Shape} {e : EltTy} (v : View sig κ sp S e)
    {off : Fin S.rank → Nat} (h : ∀ a, off a = 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld v _ (Rect.unit off S.size inb) fun y => ⟨_, List.mem_cons_self, mem_origin h inb y⟩).trans
    ((congrArg (fun X => View.ld X (Rect.unit off S.size inb)) (canon_origin h inb w L)).trans (ld_origin h inb w))

/-! ## The body on whole buffers -/

/-- The branch's condition: the first grid coordinate is zero. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At a later point: the scratch rows hold the running sums `s`, `q`; the body adds the block's lane sums into them and
    copies the two rows into the output blocks. -/
theorem sound_kernel0_B (c : Dev nD) (E : Set ℕ) (i : grid0.Coords) (hc : ¬ cond0 i)
    (arg1 : Memref sig .tc .vmem S512x4096 .f32) (harg1 : arg1.IsWhole)
    (arg2 : Memref sig .tc .vmem S1x4096 .f32) (harg2 : arg2.IsWhole)
    (arg3 : Memref sig .tc .vmem S1x4096 .f32) (harg3 : arg3.IsWhole)
    (arg4 : Memref sig .tc .vmem S1x4096 .f32) (harg4 : arg4.IsWhole)
    (arg5 : Memref sig .tc .vmem S1x4096 .f32) (harg5 : arg5.IsWhole)
    (x0 : Vec F S512x4096 .f32) (s q : Vec F S1x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare q
        ∗ (iprop(owns (c : Thread nD τ) arg1 fullShare x0 ∗ owns (c : Thread nD τ) arg2 fullShare (k0_pay3 x0 s) ∗ owns (c : Thread nD τ) arg3 fullShare (k0_pay4 x0 q)
            ∗ owns (c : Thread nD τ) arg4 fullShare (k0_pay3 x0 s) ∗ owns (c : Thread nD τ) arg5 fullShare (k0_pay4 x0 q)) -∗ K ⟨⟩))
      ⊢ wp frame (wpE (defs₀ (F := F)) Variants.none c none) E (cc0__bn_reduce_kernel i arg1 harg1 arg2 harg2 arg3 harg3 arg4 harg4 arg5 harg5) K := by
  simp only [cc0__bn_reduce_kernel_eq_skeleton]; unfold cc0__bn_reduce_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_store_origin _ _ zeros2, readCov_origin _ zeros2, View.readAt_eq_ld, View.readAt_eq_ld, ld_origin zeros2, ld_origin zeros2]
  isplitl [H2]
  · iexists _; isplitr
    swap; · iexact H2
    ipureintro
    sl_unfold_run_names
    rw [read_store_origin _ _ zeros2, readCov_origin _ zeros2, View.readAt_eq_ld, View.readAt_eq_ld, ld_origin zeros2, ld_origin zeros2]
  isplitl [H3]
  · iexists _; isplitr
    swap; · iexact H3
    ipureintro
    sl_unfold_run_names
    rw [read_store_origin _ _ zeros2, View.readAt_eq_ld, View.readAt_eq_ld, ld_origin zeros2, ld_origin zeros2]
  · iexists _; isplitr
    swap; · iexact H4
    ipureintro
    sl_unfold_run_names
    rw [read_store_origin _ _ zeros2, View.readAt_eq_ld, View.readAt_eq_ld, ld_origin zeros2, ld_origin zeros2]

set_option maxHeartbeats 1000000 in
/-- At the first point: whatever the scratch rows hold, the body first stores the zero rows into them, then proceeds as
    at a later point. -/
theorem sound_kernel0_A (c : Dev nD) (E : Set ℕ) (i : grid0.Coords) (hc : cond0 i)
    (arg1 : Memref sig .tc .vmem S512x4096 .f32) (harg1 : arg1.IsWhole)
    (arg2 : Memref sig .tc .vmem S1x4096 .f32) (harg2 : arg2.IsWhole)
    (arg3 : Memref sig .tc .vmem S1x4096 .f32) (harg3 : arg3.IsWhole)
    (arg4 : Memref sig .tc .vmem S1x4096 .f32) (harg4 : arg4.IsWhole)
    (arg5 : Memref sig .tc .vmem S1x4096 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k0_pay3 x0 k0_pay1) ∗ owns (c : Thread nD τ) arg3 fullShare (k0_pay4 x0 k0_pay2)
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__bn_reduce_kernel i arg1 harg1 arg2 harg2 arg3 harg3 arg4 harg4 arg5 harg5) K := by
  simp only [cc0__bn_reduce_kernel_eq_skeleton]; unfold cc0__bn_reduce_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_store_origin _ _ zeros2, readCov_origin _ zeros2, readCov_origin _ zeros2, View.readAt_eq_ld, ld_origin zeros2]
  isplitl [H2]
  · iexists _; isplitr
    swap; · iexact H2
    ipureintro
    sl_unfold_run_names
    rw [read_store_origin _ _ zeros2, readCov_origin _ zeros2, readCov_origin _ zeros2, View.readAt_eq_ld, ld_origin zeros2]
  isplitl [H3]
  · iexists _; isplitr
    swap; · iexact H3
    ipureintro
    sl_unfold_run_names
    rw [read_store_origin _ _ zeros2, readCov_origin _ zeros2, View.readAt_eq_ld, ld_origin zeros2]
  · iexists _; isplitr
    swap; · iexact H4
    ipureintro
    sl_unfold_run_names
    rw [read_store_origin _ _ zeros2, readCov_origin _ zeros2, View.readAt_eq_ld, ld_origin zeros2]

/-! ## The running sums, point by point -/

/-- The running per-feature sum after the first `n` points: the zero row, then each point's block added lane by lane. -/
def accS (c : Dev nD) : Nat → Vec F S1x4096 .f32
  | 0 => k0_pay1
  | n + 1 => if h : n < cfg0.N then k0_pay3 (iblk0 V c 0 ⟨n, h⟩) (accS c n) else accS c n

/-- The running per-feature sum of squares after the first `n` points. -/
def accQ (c : Dev nD) : Nat → Vec F S1x4096 .f32
  | 0 => k0_pay2
  | n + 1 => if h : n < cfg0.N then k0_pay4 (iblk0 V c 0 ⟨n, h⟩) (accQ c n) else accQ c n

theorem accS_zero (c : Dev nD) : accS V c 0 = k0_pay1 := rfl
theorem accQ_zero (c : Dev nD) : accQ V c 0 = k0_pay2 := rfl

theorem accS_succ (c : Dev nD) (t : Fin cfg0.N) : accS V c (t.val + 1) = k0_pay3 (iblk0 V c 0 t) (accS V c t.val) := by
  rw [accS, dif_pos t.isLt]

theorem accQ_succ (c : Dev nD) (t : Fin cfg0.N) : accQ V c (t.val + 1) = k0_pay4 (iblk0 V c 0 t) (accQ V c t.val) := by
  rw [accQ, dif_pos t.isLt]

/-! ## The invariant -/

/-- The two scratch rows the body carries from point to point. -/
abbrev scr0_0 : Memref sig .tc .vmem S1x4096 .f32 := Memref.whole cc0_scratch0
abbrev scr0_1 : Memref sig .tc .vmem S1x4096 .f32 := Memref.whole cc0_scratch1

/-- Before the first point: what the launch hands over (the generator register, every scoped buffer at anything).
    Before a later point `n`: the two scratch rows at the running sums after `n` points, the other scoped buffers and
    the generator register as they come. -/
def Phi0 (c : Dev nD) : Nat → sProp 𝕄
  | 0 => iprop((∃ r, prngReg c r) ∗ Pipeline.scopedRest (Ix := Unit) (Name := ℕ) (U := UR sig nD τ) (Lvl := ℕ) spec0 c)
  | n + 1 => iprop(owns (c : Thread nD τ) scr0_0 fullShare (accS V c (n + 1)) ∗ owns (c : Thread nD τ) scr0_1 fullShare (accQ V c (n + 1))
      ∗ Pipeline.scopedRestBut (Ix := Unit) (Name := ℕ) (U := UR sig nD τ) (Lvl := ℕ) spec0 c [cc0_scratch0, cc0_scratch1]
      ∗ (∃ r, prngReg c r))

theorem Phi0_zero (c : Dev nD) :
    Phi0 V c 0 = iprop((∃ r, prngReg c r) ∗ Pipeline.scopedRest (Ix := Unit) (Name := ℕ) (U := UR sig nD τ) (Lvl := ℕ) spec0 c) := rfl

theorem Phi0_pos (c : Dev nD) (n : ℕ) (hn : n ≠ 0) :
    Phi0 V c n = iprop(owns (c : Thread nD τ) scr0_0 fullShare (accS V c n) ∗ owns (c : Thread nD τ) scr0_1 fullShare (accQ V c n)
      ∗ Pipeline.scopedRestBut (Ix := Unit) (Name := ℕ) (U := UR sig nD τ) (Lvl := ℕ) spec0 c [cc0_scratch0, cc0_scratch1]
      ∗ (∃ r, prngReg c r)) := by
  cases n with
  | zero => exact absurd rfl hn
  | succ n => rfl

/-- What the launch hands over, with the two scratch rows set apart as memrefs owned at some contents. -/
theorem entry0_eq (c : Dev nD) :
    (iprop((∃ r, prngReg c r) ∗ Pipeline.scopedRest (Ix := Unit) (Name := ℕ) (U := UR sig nD τ) (Lvl := ℕ) spec0 c) : sProp 𝕄)
      = iprop((∃ r, prngReg c r) ∗ ((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) spec0 c [cc0_scratch0, cc0_scratch1]) := by
  rw [scopedRest0_split]; simp only [scr0_0, scr0_1, owns_whole]; try rfl

/-! ## The record -/

/-- The launch's record on core `c`: the arrays as found; after the body at point `t` the input block in place and the
    two output blocks at the running sums after `t + 1` points; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accS V c (t.val + 1)
    | ⟨2, _⟩ => accQ V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accS V c (t.val + 1) := by dsimp only [dat0]
theorem after0_2 (c : Dev nD) (t : Fin cfg0.N) : (dat0 V c).after 2 t = accQ V c (t.val + 1) := by dsimp only [dat0]

theorem Phi0_castSucc (c : Dev nD) (t : Fin cfg0.N) : (dat0 V c).Φ t.castSucc = Phi0 V c t.val := by
  dsimp only [dat0]; simp only [Fin.coe_castSucc]

/-- The input window is fetched at every point, so its current buffer holds its block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

theorem hin0 (c : Dev nD) :
    (iprop((∃ r, prngReg c r) ∗ Pipeline.scopedRest (Ix := Unit) (Name := ℕ) (U := UR sig nD τ) (Lvl := ℕ) spec0 c) : sProp 𝕄)
      ⊢ (dat0 V c).Φ 0 := by
  rw [show (dat0 V c).Φ 0 = Phi0 V c 0 from rfl]
  exact Idealize.SL.BI.Entails.refl _

theorem hout0 (c : Dev nD) :
    (dat0 V c).Φ (Fin.last cfg0.N)
      ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Phi0 V c cfg0.N from rfl,
    Phi0_pos V c _ (by rw [show cfg0.N = 4 from N_0]; decide), entry0_eq]
  iintro ⟨HS, HQ, HR, Hg⟩
  isplitl [Hg]; · iexact Hg
  isplitl [HS HQ]
  · isplitl [HS]
    · iexists _; iexact HS
    · iexists _; iexact HQ
  iexact HR

/-! ## The body's obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first point the invariant hands the scratch rows over at anything and the body zeroes
    them; at a later point it hands them over at the running sums. Either way they come back at the sums one point on,
    and the output blocks hold copies of them; what the output blocks held before is never read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = Phi0 V c (t.val + 1) from rfl,
    show (dat0 V c).owesAt () t.succ = (dat0 V c).owesAt () t.castSucc from rfl,
    after0_0, after0_1, after0_2, Phi0_castSucc, Phi0_pos V c (t.val + 1) (Nat.succ_ne_zero _), accS_succ, accQ_succ]
  by_cases hz : t.val = 0
  · rw [show Phi0 V c t.val = Phi0 V c 0 from by rw [hz], show accS V c t.val = k0_pay1 from by rw [hz]; rfl,
      show accQ V c t.val = k0_pay2 from by rw [hz]; rfl, Phi0_zero, entry0_eq]
    iintro ⟨⟨Hg, ⟨⟨%s, HS⟩, ⟨%q, HQ⟩⟩, HR⟩, Ho, ⟨%d0, H0⟩, ⟨%d1, H1⟩, ⟨%d2, H2⟩⟩
    iapply (sound_kernel0_A c Set.univ _ ((hcond0 t).mpr hz) _ _ _ _ _ _ _ _ _ _ (iblk0 V c 0 t) _)
    isplitl [H0]; · iexact H0
    isplitl [H1]; · iexists _; iexact H1
    isplitl [H2]; · iexists _; iexact H2
    isplitl [HS]; · iexists _; iexact HS
    isplitl [HQ]; · iexists _; iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · rw [Phi0_pos V c t.val hz]
    iintro ⟨⟨HS, HQ, HR, Hg⟩, Ho, ⟨%d0, H0⟩, ⟨%d1, H1⟩, ⟨%d2, H2⟩⟩
    iapply (sound_kernel0_B c Set.univ _ (fun h => hz ((hcond0 t).mp h)) _ _ _ _ _ _ _ _ _ _ (iblk0 V c 0 t) (accS V c t.val) (accQ V c t.val) _)
    isplitl [H0]; · iexact H0
    isplitl [H1]; · iexists _; iexact H1
    isplitl [H2]; · iexists _; iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2

/-- The body's obligation to the launch theorem, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second launch: 256 rows of the batch at a grid point, eight points. At a point the body normalises the block of
  the first batch with the four rows of statistics and affine coefficients, multiplies by the 4096 x 512 weight matrix,
  adds the bias row, clips at zero and divides each row by its floored length (the 256 x 512 output block); and takes,
  row by row, the cosine of the normalised block with the block of the second batch (the 256 x 1 output block). Stated
  at any contents `V` of the core's buffers at the launch's entry: the block of each window at a point, what the body
  leaves in the two output blocks (one whole-block store each), the body's run, and the record the launch theorem takes
  (the arrays as found, the eight input blocks kept, the two output blocks written, nothing owed).
-/
import proofs.«111281_j10213432230334_1_alg».proof.Proof.Gen.Kernel.Launch
import proofs.«111281_j10213432230334_1_alg».proof.Proof.Gen.Kernel.Skeleton
import proofs.«111281_j10213432230334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first batch's window holds its block at every point, for any record whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second batch's window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row of means is brought in at the first point only and its block index never moves: at every point the window still holds the whole row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row of variances likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The row of scale coefficients likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The row of shift coefficients likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, brought in once, is the whole matrix at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row, brought in once, is the whole row at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole 256 x 4096 block as one rectangle. -/
abbrev rA1 : Rect S256x4096 := Rect.unit (s := S256x4096) ![0, 0] S256x4096.size inb_S256x4096_S256x4096_0_0
/-- A whole row of 4096. -/
abbrev rR1 : Rect S1x4096 := Rect.unit (s := S1x4096) ![0, 0] S1x4096.size inb_S1x4096_S1x4096_0_0
/-- The whole 4096 x 512 matrix. -/
abbrev rW1 : Rect S4096x512 := Rect.unit (s := S4096x512) ![0, 0] S4096x512.size inb_S4096x512_S4096x512_0_0
/-- The whole row of 512. -/
abbrev rB1 : Rect S1x512 := Rect.unit (s := S1x512) ![0, 0] S1x512.size inb_S1x512_S1x512_0_0
/-- The whole 256 x 512 output block. -/
abbrev rE1 : Rect S256x512 := Rect.unit (s := S256x512) ![0, 0] S256x512.size inb_S256x512_S256x512_0_0
/-- The whole 256 x 1 output block. -/
abbrev rC1 : Rect S256x1 := Rect.unit (s := S256x1) ![0, 0] S256x1.size inb_S256x1_S256x1_0_0

/-- The 256 x 512 output block after the body: one store, of the unit rows computed from the first batch's block,
    the four rows, the matrix and the bias. -/
def out1_8 (x0 : Vec F S256x4096 .f32) (x2 x3 x4 x5 : Vec F S1x4096 .f32) (x6 : Vec F S4096x512 .bf16) (x7 : Vec F S1x512 .f32) : Vec F S256x512 .f32 :=
  View.canon [⟨rE1, k1_pay3 (View.ld x0 rA1) (View.ld x2 rR1) (View.ld x3 rR1) (View.ld x4 rR1) (View.ld x5 rR1) (View.ld x6 rW1) (View.ld x7 rB1)⟩]

/-- The 256 x 1 output block after the body: one store, of the row cosines of the normalised first block with the
    second batch's block. -/
def out1_9 (x0 x1 : Vec F S256x4096 .f32) (x2 x3 x4 x5 : Vec F S1x4096 .f32) : Vec F S256x1 .f32 :=
  View.canon [⟨rC1, k1_pay1 (k1_pay2 (View.ld x0 rA1) (View.ld x2 rR1) (View.ld x3 rR1) (View.ld x4 rR1) (View.ld x5 rR1)) (View.ld x1 rA1)⟩]

/-- The one store covers the 256 x 512 block. -/
theorem cover1_8 (p0 : Vec F S256x512 .f32) (y : S256x512.Idx) :
    ∃ pc ∈ ([⟨rE1, p0⟩] : List (View.Piece (Elt F) S256x512 .f32)), y ∈ pc.1.set :=
  View.cover_of_tiled [⟨rE1, p0⟩] S256x512.size (by rfl) y

/-- The one store covers the 256 x 1 block. -/
theorem cover1_9 (p0 : Vec F S256x1 .f32) (y : S256x1.Idx) :
    ∃ pc ∈ ([⟨rC1, p0⟩] : List (View.Piece (Elt F) S256x1 .f32)), y ∈ pc.1.set :=
  View.cover_of_tiled [⟨rC1, p0⟩] S256x1.size (by rfl) y

set_option maxHeartbeats 1000000 in
/-- The body on whole buffers: the eight inputs' contents stay, the two outputs' become `out1_8` and `out1_9` of them. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S4096x512 .bf16) (harg7 : arg7.IsWhole) (arg8 : Memref sig .tc .vmem S1x512 .f32) (harg8 : arg8.IsWhole)
    (arg9 : Memref sig .tc .vmem S256x512 .f32) (harg9 : arg9.IsWhole) (arg10 : Memref sig .tc .vmem S256x1 .f32) (harg10 : arg10.IsWhole)
    (x0 x1 : Vec F S256x4096 .f32) (x2 x3 x4 x5 : Vec F S1x4096 .f32) (x6 : Vec F S4096x512 .bf16) (x7 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x2 x3 x4 x5 x6 x7)
            ∗ owns (c : Thread nD τ) arg10 fullShare (out1_9 x0 x1 x2 x3 x4 x5)) -∗ K ⟨⟩))
      ⊢ wp frame (wpE (defs₀ (F := F)) Variants.none c none) E
          (cc1__linear_relu_pe_kernel i arg1 harg1 arg2 harg2 arg3 harg3 arg4 harg4 arg5 harg5 arg6 harg6 arg7 harg7 arg8 harg8 arg9 harg9 arg10 harg10) K := by
  simp only [cc1__linear_relu_pe_kernel_eq_skeleton]; unfold cc1__linear_relu_pe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-- The launch's record on core `c`: the arrays as found; after the body the eight input blocks in place and the two
    output blocks at `out1_8` and `out1_9` of them; the scoped buffers and the generator register ride along untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the eight input windows hold their blocks, so the run on whole buffers applies; the scoped
    buffers, the generator register and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation to the launch theorem, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third launch: every row of a bank of 8192 vectors of 512 coordinates divided by its floored length, 1024 rows at a
  grid point, eight points. Stated at any contents `V` of the core's buffers at the launch's entry: the block of each
  window at a point, what the body leaves in the output block (one whole-block store of the scaled rows of the input
  block), the body's run, and the record the launch theorem takes (the input array as found, the input block kept, the
  output block written, nothing owed).
-/
import proofs.«111281_j10213432230334_1_alg».proof.Proof.Gen.Kernel.Launch
import proofs.«111281_j10213432230334_1_alg».proof.Proof.Gen.Kernel.Skeleton
import proofs.«111281_j10213432230334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, for any record whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 x 512 block as one rectangle. -/
abbrev rAll2 : Rect S1024x512 := Rect.unit (s := S1024x512) ![0, 0] S1024x512.size inb_S1024x512_S1024x512_0_0

/-- The output block after the body: one store of the scaled rows of the input block. -/
def out2_1 (x0 : Vec F S1024x512 .f32) : Vec F S1024x512 .bf16 :=
  View.canon [⟨rAll2, k2_pay1 (View.ld x0 rAll2)⟩]

/-- The one store covers the block. -/
theorem cover2_1 (p0 : Vec F S1024x512 .bf16) (y : S1024x512.Idx) :
    ∃ pc ∈ ([⟨rAll2, p0⟩] : List (View.Piece (Elt F) S1024x512 .bf16)), y ∈ pc.1.set :=
  View.cover_of_tiled [⟨rAll2, p0⟩] S1024x512.size (by rfl) y

set_option maxHeartbeats 1000000 in
/-- The body on whole buffers: the input's contents stay, the output's become `out2_1` of them. -/
theorem sound_kernel2 (c : Dev nD) (E : Set ℕ) (i : grid2.Coords) (arg1 : Memref sig .tc .vmem S1024x512 .f32) (harg1 : arg1.IsWhole) (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__norm_kernel i arg1 harg1 arg2 harg2) K := by
  simp only [cc2__norm_kernel_eq_skeleton]; unfold cc2__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The launch's record on core `c`: the arrays as found; after the body the input block in place and the output
    block at `out2_1` of it; the scoped buffers and the generator register ride along untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's obligation to the launch theorem, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  The fourth launch: a 2048 x 8192 array of inner products, filled block by block over a grid of eight row blocks by
  eight column blocks. At a point the body holds a block of 256 rows of the left array and a block of 1024 rows of the
  right array (both with 512 coordinates) and writes the 256 x 1024 block of their inner products in one whole-block
  store. Stated at any contents `V` of the core's buffers at the launch's entry: the block of each window at a point,
  what the body leaves in the output block, the body's run, and the record the launch theorem takes (the arrays as
  found, the two input blocks kept, the output block written, nothing owed).
-/
import proofs.«111281_j10213432230334_1_alg».proof.Proof.Gen.Kernel.Launch
import proofs.«111281_j10213432230334_1_alg».proof.Proof.Gen.Kernel.Skeleton
import proofs.«111281_j10213432230334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left window's current buffer holds its block at every point (also at the points where the row block did not
    move and nothing was fetched), for any record whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right window's current buffer holds its block at every point, under the same two hypotheses. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 256 x 512 block as one rectangle. -/
abbrev rAll3_0 : Rect S256x512 := Rect.unit (s := S256x512) ![0, 0] S256x512.size inb_S256x512_S256x512_0_0

/-- The whole 1024 x 512 block as one rectangle. -/
abbrev rAll3_1 : Rect S1024x512 := Rect.unit (s := S1024x512) ![0, 0] S1024x512.size inb_S1024x512_S1024x512_0_0

/-- The whole 256 x 1024 block as one rectangle. -/
abbrev rAll3_2 : Rect S256x1024 := Rect.unit (s := S256x1024) ![0, 0] S256x1024.size inb_S256x1024_S256x1024_0_0

/-- The output block after the body: one store of the inner products of the rows of the two input blocks. -/
def out3_2 (x0 : Vec F S256x512 .f32) (x1 : Vec F S1024x512 .bf16) : Vec F S256x1024 .f32 :=
  View.canon [⟨rAll3_2, k3_pay1 (View.ld x0 rAll3_0) (View.ld x1 rAll3_1)⟩]

/-- The one store covers the block. -/
theorem cover3_2 (p0 : Vec F S256x1024 .f32) (y : S256x1024.Idx) :
    ∃ pc ∈ ([⟨rAll3_2, p0⟩] : List (View.Piece (Elt F) S256x1024 .f32)), y ∈ pc.1.set :=
  View.cover_of_tiled [⟨rAll3_2, p0⟩] S256x1024.size (by rfl) y

set_option maxHeartbeats 1000000 in
/-- The body on whole buffers: the inputs' contents stay, the output's become `out3_2` of them. -/
theorem sound_kernel3 (c : Dev nD) (E : Set ℕ) (i : grid3.Coords) (arg2 : Memref sig .tc .vmem S256x512 .f32) (harg2 : arg2.IsWhole)
    (arg3 : Memref sig .tc .vmem S1024x512 .bf16) (harg3 : arg3.IsWhole) (arg4 : Memref sig .tc .vmem S256x1024 .f32) (harg4 : arg4.IsWhole)
    (x0 : Vec F S256x512 .f32) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__cosine_kernel i arg2 harg2 arg3 harg3 arg4 harg4) K := by
  simp only [cc3__cosine_kernel_eq_skeleton]; unfold cc3__cosine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The launch's record on core `c`: the arrays as found; after the body the two input blocks in place and the
    output block at `out3_2` of them; the scoped buffers and the generator register ride along untouched; nothing
    owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the launch theorem, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole program as one run. Between two items of the program the core's unscoped buffers hold known contents: the
  launch memory; after the first launch its two output rows at what its write-back leaves; after the host arithmetic
  those operations' results; after each later launch its output array at what its write-backs leave; after the closing
  reshapes their results. Each launch enters from the contents before it and leaves the contents after it, and the
  launch theorem for a list of host stretches and kernel launches gives: every weakly fair execution terminates, and
  at the end every unscoped buffer holds the last of these contents.
-/
import proofs.«111281_j10213432230334_1_alg».proof.Proof.K.Reg0
import proofs.«111281_j10213432230334_1_alg».proof.Proof.K.Reg1
import proofs.«111281_j10213432230334_1_alg».proof.Proof.K.Reg2
import proofs.«111281_j10213432230334_1_alg».proof.Proof.K.Reg3
import proofs.«111281_j10213432230334_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At launch 0's exit: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host arithmetic between the first and the second launch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At launch 1's exit: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At launch 2's exit: its windows' arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At launch 3's exit: its windows' arrays at what the write-backs leave, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the core's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the closing reshapes. -/
abbrev W6 : Dev nD → Valuation τ sig (Elt F) := fun c => StableHlo.after hostOps4 (W5 m ρ c)

/-! ## The records' family and what rides beside the buffers -/

abbrev adm : (p : Fin 4) → (pcfgs (F := F) p).Adm := fun p => (cfgs p).toPCfg_adm
/-- Every launch's record, each at its own entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- LAUNCH 0 as a segment: entered with every unscoped buffer at `W0`, left with them at `W1`. Its windows' arrays
    are split out of the unscoped buffers at entry and put back at what the write-backs leave at exit; the generator
    register goes into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (hin0 (V0 m ρ) c)
    isplitl [Hp]; · iexact Hp
    iexact Hr
  hout c := by
    rw [Pipeline.ownSems0_none, show (pdats m ρ 0 c).Φ (Fin.last _) = (dat0 (V0 m ρ) c).Φ (Fin.last cfg0.N) from rfl]
    iintro Hphi
    ihave H := (hout0 (V0 m ρ) c) $$ Hphi
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered with every unscoped buffer at `W2`, left with them at `W3`. Its windows' arrays
    are split out of the unscoped buffers at entry and put back at what the write-backs leave at exit; the generator
    register goes into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered with every unscoped buffer at `W3`, left with them at `W4`. Its windows' arrays
    are split out of the unscoped buffers at entry and put back at what the write-backs leave at exit; the generator
    register goes into the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 as a segment: entered with every unscoped buffer at `W4`, left with them at `W5`. Its windows' arrays
    are split out of the unscoped buffers at entry and put back at what the write-backs leave at exit; the generator
    register goes into the launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, and at the end every
    unscoped buffer of every core holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show (iprop(StableHlo.held (c : Thread nD τ) (Pipeline.ucRefs τ sig) (StableHlo.after hostOps4 (W5 m ρ c)) ∗ R c) : sProp 𝕄)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Fold.lean ====
/-
  Walks back through the contents between the program's items. Each of the seven argument arrays ends as launched: no
  host operation writes one, and a launch that reads one through an input window leaves the array as it found it; so
  the run's post, read at the arguments, is the launch memory. The two result arrays, the intermediate arrays the
  launches exchange and the rows the host arithmetic makes are named as terms of the contents before them.
-/
import proofs.«111281_j10213432230334_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step back, for a reference the item does not write -/

/-- The closing reshapes write none of the references outside their five results. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
/-- The host arithmetic writes none of the references outside its thirteen results. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

/-! ## The arguments end as launched -/

/-- The first batch: read through an input window by the first and the second launch, written by nothing. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_of m ρ c main_arg0 (by decide))
    _ = W4 m ρ c (Proc.devRef .tc main_arg0) := (W5_of_ne m ρ c main_arg0 (by decide))
    _ = W3 m ρ c (Proc.devRef .tc main_arg0) := (W4_of_ne m ρ c main_arg0 (by decide))
    _ = W2 m ρ c (Proc.devRef .tc main_arg0) := ((W3_arr m ρ c 0).trans (((dat1 (V2 m ρ) c).arrAt_in 0 rfl _).trans (A_eq1 (V2 m ρ) c 0)))
    _ = W1 m ρ c (Proc.devRef .tc main_arg0) := (W2_of m ρ c main_arg0 (by decide))
    _ = W0 m ρ c (Proc.devRef .tc main_arg0) := ((W1_arr m ρ c 0).trans (((dat0 (V0 m ρ) c).arrAt_in 0 rfl _).trans (A_eq0 (V0 m ρ) c 0)))
    _ = m ((c : Thread nD τ).loc main_arg0) := rfl

/-- The second batch: read through an input window by the second launch, written by nothing. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_of m ρ c main_arg1 (by decide))
    _ = W4 m ρ c (Proc.devRef .tc main_arg1) := (W5_of_ne m ρ c main_arg1 (by decide))
    _ = W3 m ρ c (Proc.devRef .tc main_arg1) := (W4_of_ne m ρ c main_arg1 (by decide))
    _ = W2 m ρ c (Proc.devRef .tc main_arg1) := ((W3_arr m ρ c 1).trans (((dat1 (V2 m ρ) c).arrAt_in 1 rfl _).trans (A_eq1 (V2 m ρ) c 1)))
    _ = W1 m ρ c (Proc.devRef .tc main_arg1) := (W2_of m ρ c main_arg1 (by decide))
    _ = W0 m ρ c (Proc.devRef .tc main_arg1) := (W1_of_ne m ρ c main_arg1 (by decide))
    _ = m ((c : Thread nD τ).loc main_arg1) := rfl

/-- The bank: read through an input window by the third launch, written by nothing. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := (W6_of m ρ c main_arg2 (by decide))
    _ = W4 m ρ c (Proc.devRef .tc main_arg2) := (W5_of_ne m ρ c main_arg2 (by decide))
    _ = W3 m ρ c (Proc.devRef .tc main_arg2) := ((W4_arr m ρ c 0).trans (((dat2 (V3 m ρ) c).arrAt_in 0 rfl _).trans (A_eq2 (V3 m ρ) c 0)))
    _ = W2 m ρ c (Proc.devRef .tc main_arg2) := (W3_of_ne m ρ c main_arg2 (by decide))
    _ = W1 m ρ c (Proc.devRef .tc main_arg2) := (W2_of m ρ c main_arg2 (by decide))
    _ = W0 m ρ c (Proc.devRef .tc main_arg2) := (W1_of_ne m ρ c main_arg2 (by decide))
    _ = m ((c : Thread nD τ).loc main_arg2) := rfl

/-- The scale coefficients: no window's array, written by nothing. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_of m ρ c main_arg3 (by decide))
    _ = W4 m ρ c (Proc.devRef .tc main_arg3) := (W5_of_ne m ρ c main_arg3 (by decide))
    _ = W3 m ρ c (Proc.devRef .tc main_arg3) := (W4_of_ne m ρ c main_arg3 (by decide))
    _ = W2 m ρ c (Proc.devRef .tc main_arg3) := (W3_of_ne m ρ c main_arg3 (by decide))
    _ = W1 m ρ c (Proc.devRef .tc main_arg3) := (W2_of m ρ c main_arg3 (by decide))
    _ = W0 m ρ c (Proc.devRef .tc main_arg3) := (W1_of_ne m ρ c main_arg3 (by decide))
    _ = m ((c : Thread nD τ).loc main_arg3) := rfl

/-- The shift coefficients: no window's array, written by nothing. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_of m ρ c main_arg4 (by decide))
    _ = W4 m ρ c (Proc.devRef .tc main_arg4) := (W5_of_ne m ρ c main_arg4 (by decide))
    _ = W3 m ρ c (Proc.devRef .tc main_arg4) := (W4_of_ne m ρ c main_arg4 (by decide))
    _ = W2 m ρ c (Proc.devRef .tc main_arg4) := (W3_of_ne m ρ c main_arg4 (by decide))
    _ = W1 m ρ c (Proc.devRef .tc main_arg4) := (W2_of m ρ c main_arg4 (by decide))
    _ = W0 m ρ c (Proc.devRef .tc main_arg4) := (W1_of_ne m ρ c main_arg4 (by decide))
    _ = m ((c : Thread nD τ).loc main_arg4) := rfl

/-- The weight matrix: no window's array, written by nothing. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_of m ρ c main_arg5 (by decide))
    _ = W4 m ρ c (Proc.devRef .tc main_arg5) := (W5_of_ne m ρ c main_arg5 (by decide))
    _ = W3 m ρ c (Proc.devRef .tc main_arg5) := (W4_of_ne m ρ c main_arg5 (by decide))
    _ = W2 m ρ c (Proc.devRef .tc main_arg5) := (W3_of_ne m ρ c main_arg5 (by decide))
    _ = W1 m ρ c (Proc.devRef .tc main_arg5) := (W2_of m ρ c main_arg5 (by decide))
    _ = W0 m ρ c (Proc.devRef .tc main_arg5) := (W1_of_ne m ρ c main_arg5 (by decide))
    _ = m ((c : Thread nD τ).loc main_arg5) := rfl

/-- The bias: no window's array, written by nothing. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_of m ρ c main_arg6 (by decide))
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (W3_of_ne m ρ c main_arg6 (by decide))
    _ = W1 m ρ c (Proc.devRef .tc main_arg6) := (W2_of m ρ c main_arg6 (by decide))
    _ = W0 m ρ c (Proc.devRef .tc main_arg6) := (W1_of_ne m ρ c main_arg6 (by decide))
    _ = m ((c : Thread nD τ).loc main_arg6) := rfl

/-! ## The frame -/

/-- Every weakly fair execution of the program from memory `m` with zero counters terminates, and at the end each of
    the seven argument arrays of every core holds what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-! ## The results and the arrays the launches exchange -/

/-- The fourth launch's output array, as its write-backs leave it. -/
theorem W5_v14 (c : Dev nD) : W5 m ρ c (Proc.devRef .tc main_v14) = (dat3 (V4 m ρ) c).arrAt 2 cfg3.N :=
  W5_arr m ρ c 2

/-- The column of cosines, as the second launch's write-backs leave it: the later launches do not touch it. -/
theorem W5_v12_1 (c : Dev nD) : W5 m ρ c (Proc.devRef .tc main_v12_1) = (dat1 (V2 m ρ) c).arrAt 9 cfg1.N :=
  (W5_of_ne m ρ c main_v12_1 (by decide)).trans ((W4_of_ne m ρ c main_v12_1 (by decide)).trans (W3_arr m ρ c 9))

/-- The unit embeddings the fourth launch reads: what the second launch's write-backs leave. -/
theorem V4_v12_0 (c : Dev nD) : V4 m ρ c main_v12_0 = (dat1 (V2 m ρ) c).arrAt 8 cfg1.N :=
  (W4_of_ne m ρ c main_v12_0 (by decide)).trans (W3_arr m ρ c 8)

/-- The unit bank the fourth launch reads: what the third launch's write-backs leave. -/
theorem V4_v13 (c : Dev nD) : V4 m ρ c main_v13 = (dat2 (V3 m ρ) c).arrAt 1 cfg2.N :=
  W4_arr m ρ c 1

/-- The bank as the third launch finds it: as launched. -/
theorem V3_arg2 (c : Dev nD) : V3 m ρ c main_arg2 = m ((c : Thread nD τ).loc main_arg2) :=
  (W3_of_ne m ρ c main_arg2 (by decide)).trans ((W2_of m ρ c main_arg2 (by decide)).trans ((W1_of_ne m ρ c main_arg2 (by decide)).trans rfl))

/-- The first batch as the second launch finds it: as launched. -/
theorem V2_arg0 (c : Dev nD) : V2 m ρ c main_arg0 = m ((c : Thread nD τ).loc main_arg0) :=
  (W2_of m ρ c main_arg0 (by decide)).trans (((W1_arr m ρ c 0).trans (((dat0 (V0 m ρ) c).arrAt_in 0 rfl _).trans (A_eq0 (V0 m ρ) c 0))).trans rfl)

/-- The second batch as the second launch finds it: as launched. -/
theorem V2_arg1 (c : Dev nD) : V2 m ρ c main_arg1 = m ((c : Thread nD τ).loc main_arg1) :=
  (W2_of m ρ c main_arg1 (by decide)).trans ((W1_of_ne m ρ c main_arg1 (by decide)).trans rfl)

/-- The first batch as the first launch finds it: as launched. -/
theorem V0_arg0 (c : Dev nD) : V0 m ρ c main_arg0 = m ((c : Thread nD τ).loc main_arg0) := rfl

/-- The row of column sums, as the first launch's write-backs leave it. -/
theorem V1_v0_0 (c : Dev nD) : V1 m ρ c main_v0_0 = (dat0 (V0 m ρ) c).arrAt 1 cfg0.N :=
  W1_arr m ρ c 1

/-- The row of column sums of squares, as the first launch's write-backs leave it. -/
theorem V1_v0_1 (c : Dev nD) : V1 m ρ c main_v0_1 = (dat0 (V0 m ρ) c).arrAt 2 cfg0.N :=
  W1_arr m ρ c 2

/-! ## The closing reshapes -/

/-- The first result: the 2048 x 8192 array of the fourth launch laid out as one column. -/
theorem W6_v15 (c : Dev nD) : W6 m ρ c (Proc.devRef .tc main_v15)
    = shapeCast S16777216x1 (W5 m ρ c (Proc.devRef .tc main_v14)) shapeCasts_S2048x8192_S16777216x1 := by
  show StableHlo.after hostOps4 (W5 m ρ c) (Proc.devRef .tc main_v15) = _
  after_results; rfl

/-- The second result: the column of cosines repeated along 8192 columns, laid out as one column. -/
theorem W6_v19 (c : Dev nD) : W6 m ρ c (Proc.devRef .tc main_v19)
    = shapeCast S16777216x1 (shapeCast S16777216 (broadcastInDim S2048x8192 ![0] bcast_S2048_S2048x8192_0
        (shapeCast S2048 (W5 m ρ c (Proc.devRef .tc main_v12_1)) shapeCasts_S2048x1_S2048)) shapeCasts_S2048x8192_S16777216) shapeCasts_S16777216_S16777216x1 := by
  show StableHlo.after hostOps4 (W5 m ρ c) (Proc.devRef .tc main_v19) = _
  after_results; rfl

/-! ## The host arithmetic between the first and the second launch -/

/-- The row of means: the column sums divided by 2048. -/
theorem V2_v2 (c : Dev nD) : V2 m ρ c main_v2
    = Host.divf (V1 m ρ c main_v0_0) (broadcastInDim S1x4096 ![] bcast_S_S1x4096 (constant S_ .f32 0x45000000#32)) := by
  show StableHlo.after hostOps1 (W1 m ρ c) (Proc.devRef .tc main_v2) = _
  after_results

/-- The row of variances: the sums of squares divided by 2048, less the squared means. -/
theorem V2_v6 (c : Dev nD) : V2 m ρ c main_v6
    = subf (Host.divf (V1 m ρ c main_v0_1) (broadcastInDim S1x4096 ![] bcast_S_S1x4096 (constant S_ .f32 0x45000000#32)))
        (mulf (V2 m ρ c main_v2) (V2 m ρ c main_v2)) := by
  rw [V2_v2]
  show StableHlo.after hostOps1 (W1 m ρ c) (Proc.devRef .tc main_v6) = _
  after_results

/-- The scale coefficients as a row. -/
theorem V2_v7 (c : Dev nD) : V2 m ρ c main_v7 = shapeCast S1x4096 (m ((c : Thread nD τ).loc main_arg3)) shapeCasts_S4096_S1x4096 := by
  show StableHlo.after hostOps1 (W1 m ρ c) (Proc.devRef .tc main_v7) = _
  after_results
  rw [W1_of_ne m ρ c main_arg3 (by decide)]; rfl

/-- The shift coefficients as a row. -/
theorem V2_v8 (c : Dev nD) : V2 m ρ c main_v8 = shapeCast S1x4096 (m ((c : Thread nD τ).loc main_arg4)) shapeCasts_S4096_S1x4096 := by
  show StableHlo.after hostOps1 (W1 m ρ c) (Proc.devRef .tc main_v8) = _
  after_results
  rw [W1_of_ne m ρ c main_arg4 (by decide)]; rfl

/-- The bias as a row. -/
theorem V2_v9 (c : Dev nD) : V2 m ρ c main_v9 = shapeCast S1x512 (m ((c : Thread nD τ).loc main_arg6)) shapeCasts_S512_S1x512 := by
  show StableHlo.after hostOps1 (W1 m ρ c) (Proc.devRef .tc main_v9) = _
  after_results
  rw [W1_of_ne m ρ c main_arg6 (by decide)]; rfl

/-- The weight matrix transposed to 4096 x 512 and rounded to the 16-bit format. -/
theorem V2_v11 (c : Dev nD) : V2 m ρ c main_v11
    = truncf .bf16 (transpose S4096x512 [1, 0] (m ((c : Thread nD τ).loc main_arg5)) transposes_S512x4096_S4096x512_1_0) bitsLt_bf16_f32 := by
  show StableHlo.after hostOps1 (W1 m ρ c) (Proc.devRef .tc main_v11) = _
  after_results
  rw [W1_of_ne m ρ c main_arg5 (by decide)]

end Cert.Kernel.Hand

end
-- ==== Proof.KI.Reg0.lean ====
/-
  The first launch: per-feature sums over a batch of 2048 rows of 4096 features, 512 rows at a grid point, four points.
  Two scratch rows carry the running sum and the running sum of squares from point to point: the first point zeroes
  them, every point adds its block's lane sums (of the entries, of their squares) into them and copies the two rows into
  the two output blocks, which are written back after the last point. Stated at any contents `V` of the core's buffers at
  the launch's entry: the block of each window at a point, the running sums by recursion on the point, the body's run in
  its two cases (first point, later point), the invariant that names the scratch rows' contents between points, and the
  record the launch theorem takes (the input array as found, the input block kept, the output blocks at the running sums,
  nothing owed).
-/
import proofs.«111281_j10213432230334_1_alg».proof.Proof.Gen.KernelIdeal.Launch
import proofs.«111281_j10213432230334_1_alg».proof.Proof.Gen.KernelIdeal.Skeleton
import proofs.«111281_j10213432230334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Whole-shape rectangles -/

/-- The whole 512 x 4096 block as one rectangle, and a whole row of 4096 features. -/
abbrev rAll0 : Rect S512x4096 := Rect.unit (s := S512x4096) ![0, 0] S512x4096.size inb_S512x4096_S512x4096_0_0
abbrev rRow0 : Rect S1x4096 := Rect.unit (s := S1x4096) ![0, 0] S1x4096.size inb_S1x4096_S1x4096_0_0

theorem zeros2 (a : Fin 2) : (![0, 0] : Fin 2 → Nat) a = 0 :=
  match a with | ⟨0, _⟩ => rfl | ⟨1, _⟩ => rfl

/-- An index pushed through the unit-stride rectangle that starts at the origin and has the shape's own extents is itself. -/
theorem idx_origin {S : Shape} {off : Fin S.rank → Nat} (h : ∀ a, off a = 0) (inb : ∀ a, off a + S.size a ≤ S.size a)
    (x : S.Idx) : (Rect.unit off S.size inb).idx x = x := by
  funext a; apply Fin.ext
  show off a + 1 * (x a : Nat) = x a
  rw [h a]; omega

/-- So a load through it reads the contents, -/
theorem ld_origin {S : Shape} {e : EltTy} {off : Fin S.rank → Nat} (h : ∀ a, off a = 0) (inb : ∀ a, off a + S.size a ≤ S.size a)
    (X : S.Idx → Elt F e) : View.ld X (Rect.unit off S.size inb) = X :=
  funext fun x => congrArg X (idx_origin h inb x)

/-- it holds every index, -/
theorem mem_origin {S : Shape} {off : Fin S.rank → Nat} (h : ∀ a, off a = 0) (inb : ∀ a, off a + S.size a ≤ S.size a)
    (y : S.Idx) : y ∈ (Rect.unit off S.size inb).set :=
  Rect.mem_set_unit.mpr fun a => by rw [h a]; exact ⟨Nat.zero_le _, by have := (y a).isLt; omega⟩

/-- and a store through it, made last, leaves the stored vector whatever was stored before. -/
theorem canon_origin {S : Shape} {e : EltTy} {off : Fin S.rank → Nat} (h : ∀ a, off a = 0) (inb : ∀ a, off a + S.size a ≤ S.size a)
    (w : S.Idx → Elt F e) (L : List (View.Piece (Elt F) S e)) :
    View.canon ((⟨Rect.unit off S.size inb, w⟩ : View.Piece (Elt F) S e) :: L) = w := by
  funext y
  have e := View.canon_cons_emb (Val := Elt F) (Rect.unit off S.size inb) w L y
  rw [show (Rect.unit off S.size inb).emb y = y from idx_origin h inb y] at e
  exact e

/-- What a buffer reads after stores the last of which put `w` through the whole-shape rectangle: `w`. -/
theorem read_store_origin {κ : Kind} {sp : Space} {S : Shape} {e : EltTy} (v : View sig κ sp S e) (f : v.ty.Contents (Elt F))
    {off : Fin S.rank → Nat} (h : ∀ a, off a = 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons_self, mem_origin h inb y⟩).trans (canon_origin h inb w L)

/-- What a load through the whole-shape rectangle reads after such stores: `w`. -/
theorem readCov_origin {κ : Kind} {sp : Space} {S : Shape} {e : EltTy} (v : View sig κ sp S e)
    {off : Fin S.rank → Nat} (h : ∀ a, off a = 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld v _ (Rect.unit off S.size inb) fun y => ⟨_, List.mem_cons_self, mem_origin h inb y⟩).trans
    ((congrArg (fun X => View.ld X (Rect.unit off S.size inb)) (canon_origin h inb w L)).trans (ld_origin h inb w))

/-! ## The body on whole buffers -/

/-- The branch's condition: the first grid coordinate is zero. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At a later point: the scratch rows hold the running sums `s`, `q`; the body adds the block's lane sums into them and
    copies the two rows into the output blocks. -/
theorem sound_kernel0_B (c : Dev nD) (E : Set ℕ) (i : grid0.Coords) (hc : ¬ cond0 i)
    (arg1 : Memref sig .tc .vmem S512x4096 .f32) (harg1 : arg1.IsWhole)
    (arg2 : Memref sig .tc .vmem S1x4096 .f32) (harg2 : arg2.IsWhole)
    (arg3 : Memref sig .tc .vmem S1x4096 .f32) (harg3 : arg3.IsWhole)
    (arg4 : Memref sig .tc .vmem S1x4096 .f32) (harg4 : arg4.IsWhole)
    (arg5 : Memref sig .tc .vmem S1x4096 .f32) (harg5 : arg5.IsWhole)
    (x0 : Vec F S512x4096 .f32) (s q : Vec F S1x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s ∗ owns (c : Thread nD τ) arg5 fullShare q
        ∗ (iprop(owns (c : Thread nD τ) arg1 fullShare x0 ∗ owns (c : Thread nD τ) arg2 fullShare (k0_pay3 x0 s) ∗ owns (c : Thread nD τ) arg3 fullShare (k0_pay4 x0 q)
            ∗ owns (c : Thread nD τ) arg4 fullShare (k0_pay3 x0 s) ∗ owns (c : Thread nD τ) arg5 fullShare (k0_pay4 x0 q)) -∗ K ⟨⟩))
      ⊢ wp frame (wpE (defs₀ (F := F)) Variants.none c none) E (cc0__bn_reduce_kernel i arg1 harg1 arg2 harg2 arg3 harg3 arg4 harg4 arg5 harg5) K := by
  simp only [cc0__bn_reduce_kernel_eq_skeleton]; unfold cc0__bn_reduce_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0; subst hf3; subst hf4
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_store_origin _ _ zeros2, readCov_origin _ zeros2, View.readAt_eq_ld, View.readAt_eq_ld, ld_origin zeros2, ld_origin zeros2]
  isplitl [H2]
  · iexists _; isplitr
    swap; · iexact H2
    ipureintro
    sl_unfold_run_names
    rw [read_store_origin _ _ zeros2, readCov_origin _ zeros2, View.readAt_eq_ld, View.readAt_eq_ld, ld_origin zeros2, ld_origin zeros2]
  isplitl [H3]
  · iexists _; isplitr
    swap; · iexact H3
    ipureintro
    sl_unfold_run_names
    rw [read_store_origin _ _ zeros2, View.readAt_eq_ld, View.readAt_eq_ld, ld_origin zeros2, ld_origin zeros2]
  · iexists _; isplitr
    swap; · iexact H4
    ipureintro
    sl_unfold_run_names
    rw [read_store_origin _ _ zeros2, View.readAt_eq_ld, View.readAt_eq_ld, ld_origin zeros2, ld_origin zeros2]

set_option maxHeartbeats 1000000 in
/-- At the first point: whatever the scratch rows hold, the body first stores the zero rows into them, then proceeds as
    at a later point. -/
theorem sound_kernel0_A (c : Dev nD) (E : Set ℕ) (i : grid0.Coords) (hc : cond0 i)
    (arg1 : Memref sig .tc .vmem S512x4096 .f32) (harg1 : arg1.IsWhole)
    (arg2 : Memref sig .tc .vmem S1x4096 .f32) (harg2 : arg2.IsWhole)
    (arg3 : Memref sig .tc .vmem S1x4096 .f32) (harg3 : arg3.IsWhole)
    (arg4 : Memref sig .tc .vmem S1x4096 .f32) (harg4 : arg4.IsWhole)
    (arg5 : Memref sig .tc .vmem S1x4096 .f32) (harg5 : arg5.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (k0_pay3 x0 k0_pay1) ∗ owns (c : Thread nD τ) arg3 fullShare (k0_pay4 x0 k0_pay2)
            ∗ owns (c : Thread nD τ) arg4 fullShare (k0_pay3 x0 k0_pay1) ∗ owns (c : Thread nD τ) arg5 fullShare (k0_pay4 x0 k0_pay2)) -∗ K ⟨⟩))
      ⊢ wp frame (wpE (defs₀ (F := F)) Variants.none c none) E (cc0__bn_reduce_kernel i arg1 harg1 arg2 harg2 arg3 harg3 arg4 harg4 arg5 harg5) K := by
  simp only [cc0__bn_reduce_kernel_eq_skeleton]; unfold cc0__bn_reduce_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_store_origin _ _ zeros2, readCov_origin _ zeros2, readCov_origin _ zeros2, View.readAt_eq_ld, ld_origin zeros2]
  isplitl [H2]
  · iexists _; isplitr
    swap; · iexact H2
    ipureintro
    sl_unfold_run_names
    rw [read_store_origin _ _ zeros2, readCov_origin _ zeros2, readCov_origin _ zeros2, View.readAt_eq_ld, ld_origin zeros2]
  isplitl [H3]
  · iexists _; isplitr
    swap; · iexact H3
    ipureintro
    sl_unfold_run_names
    rw [read_store_origin _ _ zeros2, readCov_origin _ zeros2, View.readAt_eq_ld, ld_origin zeros2]
  · iexists _; isplitr
    swap; · iexact H4
    ipureintro
    sl_unfold_run_names
    rw [read_store_origin _ _ zeros2, readCov_origin _ zeros2, View.readAt_eq_ld, ld_origin zeros2]

/-! ## The running sums, point by point -/

/-- The running per-feature sum after the first `n` points: the zero row, then each point's block added lane by lane. -/
def accS (c : Dev nD) : Nat → Vec F S1x4096 .f32
  | 0 => k0_pay1
  | n + 1 => if h : n < cfg0.N then k0_pay3 (iblk0 V c 0 ⟨n, h⟩) (accS c n) else accS c n

/-- The running per-feature sum of squares after the first `n` points. -/
def accQ (c : Dev nD) : Nat → Vec F S1x4096 .f32
  | 0 => k0_pay2
  | n + 1 => if h : n < cfg0.N then k0_pay4 (iblk0 V c 0 ⟨n, h⟩) (accQ c n) else accQ c n

theorem accS_zero (c : Dev nD) : accS V c 0 = k0_pay1 := rfl
theorem accQ_zero (c : Dev nD) : accQ V c 0 = k0_pay2 := rfl

theorem accS_succ (c : Dev nD) (t : Fin cfg0.N) : accS V c (t.val + 1) = k0_pay3 (iblk0 V c 0 t) (accS V c t.val) := by
  rw [accS, dif_pos t.isLt]

theorem accQ_succ (c : Dev nD) (t : Fin cfg0.N) : accQ V c (t.val + 1) = k0_pay4 (iblk0 V c 0 t) (accQ V c t.val) := by
  rw [accQ, dif_pos t.isLt]

/-! ## The invariant -/

/-- The two scratch rows the body carries from point to point. -/
abbrev scr0_0 : Memref sig .tc .vmem S1x4096 .f32 := Memref.whole cc0_scratch0
abbrev scr0_1 : Memref sig .tc .vmem S1x4096 .f32 := Memref.whole cc0_scratch1

/-- Before the first point: what the launch hands over (the generator register, every scoped buffer at anything).
    Before a later point `n`: the two scratch rows at the running sums after `n` points, the other scoped buffers and
    the generator register as they come. -/
def Phi0 (c : Dev nD) : Nat → sProp 𝕄
  | 0 => iprop((∃ r, prngReg c r) ∗ Pipeline.scopedRest (Ix := Unit) (Name := ℕ) (U := UR sig nD τ) (Lvl := ℕ) spec0 c)
  | n + 1 => iprop(owns (c : Thread nD τ) scr0_0 fullShare (accS V c (n + 1)) ∗ owns (c : Thread nD τ) scr0_1 fullShare (accQ V c (n + 1))
      ∗ Pipeline.scopedRestBut (Ix := Unit) (Name := ℕ) (U := UR sig nD τ) (Lvl := ℕ) spec0 c [cc0_scratch0, cc0_scratch1]
      ∗ (∃ r, prngReg c r))

theorem Phi0_zero (c : Dev nD) :
    Phi0 V c 0 = iprop((∃ r, prngReg c r) ∗ Pipeline.scopedRest (Ix := Unit) (Name := ℕ) (U := UR sig nD τ) (Lvl := ℕ) spec0 c) := rfl

theorem Phi0_pos (c : Dev nD) (n : ℕ) (hn : n ≠ 0) :
    Phi0 V c n = iprop(owns (c : Thread nD τ) scr0_0 fullShare (accS V c n) ∗ owns (c : Thread nD τ) scr0_1 fullShare (accQ V c n)
      ∗ Pipeline.scopedRestBut (Ix := Unit) (Name := ℕ) (U := UR sig nD τ) (Lvl := ℕ) spec0 c [cc0_scratch0, cc0_scratch1]
      ∗ (∃ r, prngReg c r)) := by
  cases n with
  | zero => exact absurd rfl hn
  | succ n => rfl

/-- What the launch hands over, with the two scratch rows set apart as memrefs owned at some contents. -/
theorem entry0_eq (c : Dev nD) :
    (iprop((∃ r, prngReg c r) ∗ Pipeline.scopedRest (Ix := Unit) (Name := ℕ) (U := UR sig nD τ) (Lvl := ℕ) spec0 c) : sProp 𝕄)
      = iprop((∃ r, prngReg c r) ∗ ((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) spec0 c [cc0_scratch0, cc0_scratch1]) := by
  rw [scopedRest0_split]; simp only [scr0_0, scr0_1, owns_whole]; try rfl

/-! ## The record -/

/-- The launch's record on core `c`: the arrays as found; after the body at point `t` the input block in place and the
    two output blocks at the running sums after `t + 1` points; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accS V c (t.val + 1)
    | ⟨2, _⟩ => accQ V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accS V c (t.val + 1) := by dsimp only [dat0]
theorem after0_2 (c : Dev nD) (t : Fin cfg0.N) : (dat0 V c).after 2 t = accQ V c (t.val + 1) := by dsimp only [dat0]

theorem Phi0_castSucc (c : Dev nD) (t : Fin cfg0.N) : (dat0 V c).Φ t.castSucc = Phi0 V c t.val := by
  dsimp only [dat0]; simp only [Fin.coe_castSucc]

/-- The input window is fetched at every point, so its current buffer holds its block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

theorem hin0 (c : Dev nD) :
    (iprop((∃ r, prngReg c r) ∗ Pipeline.scopedRest (Ix := Unit) (Name := ℕ) (U := UR sig nD τ) (Lvl := ℕ) spec0 c) : sProp 𝕄)
      ⊢ (dat0 V c).Φ 0 := by
  rw [show (dat0 V c).Φ 0 = Phi0 V c 0 from rfl]
  exact Idealize.SL.BI.Entails.refl _

theorem hout0 (c : Dev nD) :
    (dat0 V c).Φ (Fin.last cfg0.N)
      ⊢ (iprop((∃ r, prngReg c r) ∗ Pipeline.scopedRest (Ix := Unit) (Name := ℕ) (U := UR sig nD τ) (Lvl := ℕ) spec0 c) : sProp 𝕄) := by
  rw [show (dat0 V c).Φ (Fin.last cfg0.N) = Phi0 V c cfg0.N from rfl,
    Phi0_pos V c _ (by rw [show cfg0.N = 4 from N_0]; decide), entry0_eq]
  iintro ⟨HS, HQ, HR, Hg⟩
  isplitl [Hg]; · iexact Hg
  isplitl [HS HQ]
  · isplitl [HS]
    · iexists _; iexact HS
    · iexists _; iexact HQ
  iexact HR

/-! ## The body's obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first point the invariant hands the scratch rows over at anything and the body zeroes
    them; at a later point it hands them over at the running sums. Either way they come back at the sums one point on,
    and the output blocks hold copies of them; what the output blocks held before is never read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = Phi0 V c (t.val + 1) from rfl,
    show (dat0 V c).owesAt () t.succ = (dat0 V c).owesAt () t.castSucc from rfl,
    after0_0, after0_1, after0_2, Phi0_castSucc, Phi0_pos V c (t.val + 1) (Nat.succ_ne_zero _), accS_succ, accQ_succ]
  by_cases hz : t.val = 0
  · rw [show Phi0 V c t.val = Phi0 V c 0 from by rw [hz], show accS V c t.val = k0_pay1 from by rw [hz]; rfl,
      show accQ V c t.val = k0_pay2 from by rw [hz]; rfl, Phi0_zero, entry0_eq]
    iintro ⟨⟨Hg, ⟨⟨%s, HS⟩, ⟨%q, HQ⟩⟩, HR⟩, Ho, ⟨%d0, H0⟩, ⟨%d1, H1⟩, ⟨%d2, H2⟩⟩
    iapply (sound_kernel0_A c Set.univ _ ((hcond0 t).mpr hz) _ _ _ _ _ _ _ _ _ _ (iblk0 V c 0 t) _)
    isplitl [H0]; · iexact H0
    isplitl [H1]; · iexists _; iexact H1
    isplitl [H2]; · iexists _; iexact H2
    isplitl [HS]; · iexists _; iexact HS
    isplitl [HQ]; · iexists _; iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2
  · rw [Phi0_pos V c t.val hz]
    iintro ⟨⟨HS, HQ, HR, Hg⟩, Ho, ⟨%d0, H0⟩, ⟨%d1, H1⟩, ⟨%d2, H2⟩⟩
    iapply (sound_kernel0_B c Set.univ _ (fun h => hz ((hcond0 t).mp h)) _ _ _ _ _ _ _ _ _ _ (iblk0 V c 0 t) (accS V c t.val) (accQ V c t.val) _)
    isplitl [H0]; · iexact H0
    isplitl [H1]; · iexists _; iexact H1
    isplitl [H2]; · iexists _; iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    iexact H2

/-- The body's obligation to the launch theorem, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second launch: 256 rows of the batch at a grid point, eight points. At a point the body normalises the block of
  the first batch with the four rows of statistics and affine coefficients, multiplies by the 4096 x 512 weight matrix,
  adds the bias row, clips at zero and divides each row by its floored length (the 256 x 512 output block); and takes,
  row by row, the cosine of the normalised block with the block of the second batch (the 256 x 1 output block). Stated
  at any contents `V` of the core's buffers at the launch's entry: the block of each window at a point, what the body
  leaves in the two output blocks (one whole-block store each), the body's run, and the record the launch theorem takes
  (the arrays as found, the eight input blocks kept, the two output blocks written, nothing owed).
-/
import proofs.«111281_j10213432230334_1_alg».proof.Proof.Gen.KernelIdeal.Launch
import proofs.«111281_j10213432230334_1_alg».proof.Proof.Gen.KernelIdeal.Skeleton
import proofs.«111281_j10213432230334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first batch's window holds its block at every point, for any record whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second batch's window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row of means is brought in at the first point only and its block index never moves: at every point the window still holds the whole row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The row of variances likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The row of scale coefficients likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The row of shift coefficients likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, brought in once, is the whole matrix at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row, brought in once, is the whole row at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole 256 x 4096 block as one rectangle. -/
abbrev rA1 : Rect S256x4096 := Rect.unit (s := S256x4096) ![0, 0] S256x4096.size inb_S256x4096_S256x4096_0_0
/-- A whole row of 4096. -/
abbrev rR1 : Rect S1x4096 := Rect.unit (s := S1x4096) ![0, 0] S1x4096.size inb_S1x4096_S1x4096_0_0
/-- The whole 4096 x 512 matrix. -/
abbrev rW1 : Rect S4096x512 := Rect.unit (s := S4096x512) ![0, 0] S4096x512.size inb_S4096x512_S4096x512_0_0
/-- The whole row of 512. -/
abbrev rB1 : Rect S1x512 := Rect.unit (s := S1x512) ![0, 0] S1x512.size inb_S1x512_S1x512_0_0
/-- The whole 256 x 512 output block. -/
abbrev rE1 : Rect S256x512 := Rect.unit (s := S256x512) ![0, 0] S256x512.size inb_S256x512_S256x512_0_0
/-- The whole 256 x 1 output block. -/
abbrev rC1 : Rect S256x1 := Rect.unit (s := S256x1) ![0, 0] S256x1.size inb_S256x1_S256x1_0_0

/-- The 256 x 512 output block after the body: one store, of the unit rows computed from the first batch's block,
    the four rows, the matrix and the bias. -/
def out1_8 (x0 : Vec F S256x4096 .f32) (x2 x3 x4 x5 : Vec F S1x4096 .f32) (x6 : Vec F S4096x512 .bf16) (x7 : Vec F S1x512 .f32) : Vec F S256x512 .f32 :=
  View.canon [⟨rE1, k1_pay3 (View.ld x0 rA1) (View.ld x2 rR1) (View.ld x3 rR1) (View.ld x4 rR1) (View.ld x5 rR1) (View.ld x6 rW1) (View.ld x7 rB1)⟩]

/-- The 256 x 1 output block after the body: one store, of the row cosines of the normalised first block with the
    second batch's block. -/
def out1_9 (x0 x1 : Vec F S256x4096 .f32) (x2 x3 x4 x5 : Vec F S1x4096 .f32) : Vec F S256x1 .f32 :=
  View.canon [⟨rC1, k1_pay1 (k1_pay2 (View.ld x0 rA1) (View.ld x2 rR1) (View.ld x3 rR1) (View.ld x4 rR1) (View.ld x5 rR1)) (View.ld x1 rA1)⟩]

/-- The one store covers the 256 x 512 block. -/
theorem cover1_8 (p0 : Vec F S256x512 .f32) (y : S256x512.Idx) :
    ∃ pc ∈ ([⟨rE1, p0⟩] : List (View.Piece (Elt F) S256x512 .f32)), y ∈ pc.1.set :=
  View.cover_of_tiled [⟨rE1, p0⟩] S256x512.size (by rfl) y

/-- The one store covers the 256 x 1 block. -/
theorem cover1_9 (p0 : Vec F S256x1 .f32) (y : S256x1.Idx) :
    ∃ pc ∈ ([⟨rC1, p0⟩] : List (View.Piece (Elt F) S256x1 .f32)), y ∈ pc.1.set :=
  View.cover_of_tiled [⟨rC1, p0⟩] S256x1.size (by rfl) y

set_option maxHeartbeats 1000000 in
/-- The body on whole buffers: the eight inputs' contents stay, the two outputs' become `out1_8` and `out1_9` of them. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S4096x512 .bf16) (harg7 : arg7.IsWhole) (arg8 : Memref sig .tc .vmem S1x512 .f32) (harg8 : arg8.IsWhole)
    (arg9 : Memref sig .tc .vmem S256x512 .f32) (harg9 : arg9.IsWhole) (arg10 : Memref sig .tc .vmem S256x1 .f32) (harg10 : arg10.IsWhole)
    (x0 x1 : Vec F S256x4096 .f32) (x2 x3 x4 x5 : Vec F S1x4096 .f32) (x6 : Vec F S4096x512 .bf16) (x7 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x2 x3 x4 x5 x6 x7)
            ∗ owns (c : Thread nD τ) arg10 fullShare (out1_9 x0 x1 x2 x3 x4 x5)) -∗ K ⟨⟩))
      ⊢ wp frame (wpE (defs₀ (F := F)) Variants.none c none) E
          (cc1__linear_relu_pe_kernel i arg1 harg1 arg2 harg2 arg3 harg3 arg4 harg4 arg5 harg5 arg6 harg6 arg7 harg7 arg8 harg8 arg9 harg9 arg10 harg10) K := by
  simp only [cc1__linear_relu_pe_kernel_eq_skeleton]; unfold cc1__linear_relu_pe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-- The launch's record on core `c`: the arrays as found; after the body the eight input blocks in place and the two
    output blocks at `out1_8` and `out1_9` of them; the scoped buffers and the generator register ride along untouched;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the eight input windows hold their blocks, so the run on whole buffers applies; the scoped
    buffers, the generator register and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation to the launch theorem, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third launch: every row of a bank of 8192 vectors of 512 coordinates divided by its floored length, 1024 rows at a
  grid point, eight points. Stated at any contents `V` of the core's buffers at the launch's entry: the block of each
  window at a point, what the body leaves in the output block (one whole-block store of the scaled rows of the input
  block), the body's run, and the record the launch theorem takes (the input array as found, the input block kept, the
  output block written, nothing owed).
-/
import proofs.«111281_j10213432230334_1_alg».proof.Proof.Gen.KernelIdeal.Launch
import proofs.«111281_j10213432230334_1_alg».proof.Proof.Gen.KernelIdeal.Skeleton
import proofs.«111281_j10213432230334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, for any record whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole 1024 x 512 block as one rectangle. -/
abbrev rAll2 : Rect S1024x512 := Rect.unit (s := S1024x512) ![0, 0] S1024x512.size inb_S1024x512_S1024x512_0_0

/-- The output block after the body: one store of the scaled rows of the input block. -/
def out2_1 (x0 : Vec F S1024x512 .f32) : Vec F S1024x512 .bf16 :=
  View.canon [⟨rAll2, k2_pay1 (View.ld x0 rAll2)⟩]

/-- The one store covers the block. -/
theorem cover2_1 (p0 : Vec F S1024x512 .bf16) (y : S1024x512.Idx) :
    ∃ pc ∈ ([⟨rAll2, p0⟩] : List (View.Piece (Elt F) S1024x512 .bf16)), y ∈ pc.1.set :=
  View.cover_of_tiled [⟨rAll2, p0⟩] S1024x512.size (by rfl) y

set_option maxHeartbeats 1000000 in
/-- The body on whole buffers: the input's contents stay, the output's become `out2_1` of them. -/
theorem sound_kernel2 (c : Dev nD) (E : Set ℕ) (i : grid2.Coords) (arg1 : Memref sig .tc .vmem S1024x512 .f32) (harg1 : arg1.IsWhole) (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__norm_kernel i arg1 harg1 arg2 harg2) K := by
  simp only [cc2__norm_kernel_eq_skeleton]; unfold cc2__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The launch's record on core `c`: the arrays as found; after the body the input block in place and the output
    block at `out2_1` of it; the scoped buffers and the generator register ride along untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's obligation to the launch theorem, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  The fourth launch: a 2048 x 8192 array of inner products, filled block by block over a grid of eight row blocks by
  eight column blocks. At a point the body holds a block of 256 rows of the left array and a block of 1024 rows of the
  right array (both with 512 coordinates) and writes the 256 x 1024 block of their inner products in one whole-block
  store. Stated at any contents `V` of the core's buffers at the launch's entry: the block of each window at a point,
  what the body leaves in the output block, the body's run, and the record the launch theorem takes (the arrays as
  found, the two input blocks kept, the output block written, nothing owed).
-/
import proofs.«111281_j10213432230334_1_alg».proof.Proof.Gen.KernelIdeal.Launch
import proofs.«111281_j10213432230334_1_alg».proof.Proof.Gen.KernelIdeal.Skeleton
import proofs.«111281_j10213432230334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left window's current buffer holds its block at every point (also at the points where the row block did not
    move and nothing was fetched), for any record whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right window's current buffer holds its block at every point, under the same two hypotheses. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 256 x 512 block as one rectangle. -/
abbrev rAll3_0 : Rect S256x512 := Rect.unit (s := S256x512) ![0, 0] S256x512.size inb_S256x512_S256x512_0_0

/-- The whole 1024 x 512 block as one rectangle. -/
abbrev rAll3_1 : Rect S1024x512 := Rect.unit (s := S1024x512) ![0, 0] S1024x512.size inb_S1024x512_S1024x512_0_0

/-- The whole 256 x 1024 block as one rectangle. -/
abbrev rAll3_2 : Rect S256x1024 := Rect.unit (s := S256x1024) ![0, 0] S256x1024.size inb_S256x1024_S256x1024_0_0

/-- The output block after the body: one store of the inner products of the rows of the two input blocks. -/
def out3_2 (x0 : Vec F S256x512 .f32) (x1 : Vec F S1024x512 .bf16) : Vec F S256x1024 .f32 :=
  View.canon [⟨rAll3_2, k3_pay1 (View.ld x0 rAll3_0) (View.ld x1 rAll3_1)⟩]

/-- The one store covers the block. -/
theorem cover3_2 (p0 : Vec F S256x1024 .f32) (y : S256x1024.Idx) :
    ∃ pc ∈ ([⟨rAll3_2, p0⟩] : List (View.Piece (Elt F) S256x1024 .f32)), y ∈ pc.1.set :=
  View.cover_of_tiled [⟨rAll3_2, p0⟩] S256x1024.size (by rfl) y

set_option maxHeartbeats 1000000 in
/-- The body on whole buffers: the inputs' contents stay, the output's become `out3_2` of them. -/
theorem sound_kernel3 (c : Dev nD) (E : Set ℕ) (i : grid3.Coords) (arg2 : Memref sig .tc .vmem S256x512 .f32) (harg2 : arg2.IsWhole)
    (arg3 : Memref sig .tc .vmem S1024x512 .bf16) (harg3 : arg3.IsWhole) (arg4 : Memref sig .tc .vmem S256x1024 .f32) (harg4 : arg4.IsWhole)
    (x0 : Vec F S256x512 .f32) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__cosine_kernel i arg2 harg2 arg3 harg3 arg4 harg4) K := by
  simp only [cc3__cosine_kernel_eq_skeleton]; unfold cc3__cosine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The launch's record on core `c`: the arrays as found; after the body the two input blocks in place and the
    output block at `out3_2` of them; the scoped buffers and the generator register ride along untouched; nothing
    owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the launch theorem, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program as one run. Between two items of the program the core's unscoped buffers hold known contents: the
  launch memory; after the first launch its two output rows at what its write-back leaves; after the host arithmetic
  those operations' results; after each later launch its output array at what its write-backs leave; after the closing
  reshapes their results. Each launch enters from the contents before it and leaves the contents after it, and the
  launch theorem for a list of host stretches and kernel launches gives: every weakly fair execution terminates, and
  at the end every unscoped buffer holds the last of these contents.
-/
import proofs.«111281_j10213432230334_1_alg».proof.Proof.KI.Reg0
import proofs.«111281_j10213432230334_1_alg».proof.Proof.KI.Reg1
import proofs.«111281_j10213432230334_1_alg».proof.Proof.KI.Reg2
import proofs.«111281_j10213432230334_1_alg».proof.Proof.KI.Reg3
import proofs.«111281_j10213432230334_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At launch 0's exit: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host arithmetic between the first and the second launch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At launch 1's exit: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At launch 2's exit: its windows' arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At launch 3's exit: its windows' arrays at what the write-backs leave, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the core's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the closing reshapes. -/
abbrev W6 : Dev nD → Valuation τ sig (Elt F) := fun c => StableHlo.after hostOps4 (W5 m ρ c)

/-! ## The records' family and what rides beside the buffers -/

abbrev adm : (p : Fin 4) → (pcfgs (F := F) p).Adm := fun p => (cfgs p).toPCfg_adm
/-- Every launch's record, each at its own entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- LAUNCH 0 as a segment: entered with every unscoped buffer at `W0`, left with them at `W1`. Its windows' arrays
    are split out of the unscoped buffers at entry and put back at what the write-backs leave at exit; the generator
    register goes into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (hin0 (V0 m ρ) c)
    isplitl [Hp]; · iexact Hp
    iexact Hr
  hout c := by
    rw [Pipeline.ownSems0_none, show (pdats m ρ 0 c).Φ (Fin.last _) = (dat0 (V0 m ρ) c).Φ (Fin.last cfg0.N) from rfl]
    iintro Hphi
    ihave H := (hout0 (V0 m ρ) c) $$ Hphi
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered with every unscoped buffer at `W2`, left with them at `W3`. Its windows' arrays
    are split out of the unscoped buffers at entry and put back at what the write-backs leave at exit; the generator
    register goes into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered with every unscoped buffer at `W3`, left with them at `W4`. Its windows' arrays
    are split out of the unscoped buffers at entry and put back at what the write-backs leave at exit; the generator
    register goes into the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 3 as a segment: entered with every unscoped buffer at `W4`, left with them at `W5`. Its windows' arrays
    are split out of the unscoped buffers at entry and put back at what the write-backs leave at exit; the generator
    register goes into the launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, and at the end every
    unscoped buffer of every core holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show (iprop(StableHlo.held (c : Thread nD τ) (Pipeline.ucRefs τ sig) (StableHlo.after hostOps4 (W5 m ρ c)) ∗ R c) : sProp 𝕄)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Fold.lean ====
/-
  Walks back through the contents between the program's items. Each of the seven argument arrays ends as launched: no
  host operation writes one, and a launch that reads one through an input window leaves the array as it found it; so
  the run's post, read at the arguments, is the launch memory. The two result arrays, the intermediate arrays the
  launches exchange and the rows the host arithmetic makes are named as terms of the contents before them.
-/
import proofs.«111281_j10213432230334_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step back, for a reference the item does not write -/

/-- The closing reshapes write none of the references outside their five results. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
/-- The host arithmetic writes none of the references outside its thirteen results. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

/-! ## The arguments end as launched -/

/-- The first batch: read through an input window by the first and the second launch, written by nothing. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_of m ρ c main_arg0 (by decide))
    _ = W4 m ρ c (Proc.devRef .tc main_arg0) := (W5_of_ne m ρ c main_arg0 (by decide))
    _ = W3 m ρ c (Proc.devRef .tc main_arg0) := (W4_of_ne m ρ c main_arg0 (by decide))
    _ = W2 m ρ c (Proc.devRef .tc main_arg0) := ((W3_arr m ρ c 0).trans (((dat1 (V2 m ρ) c).arrAt_in 0 rfl _).trans (A_eq1 (V2 m ρ) c 0)))
    _ = W1 m ρ c (Proc.devRef .tc main_arg0) := (W2_of m ρ c main_arg0 (by decide))
    _ = W0 m ρ c (Proc.devRef .tc main_arg0) := ((W1_arr m ρ c 0).trans (((dat0 (V0 m ρ) c).arrAt_in 0 rfl _).trans (A_eq0 (V0 m ρ) c 0)))
    _ = m ((c : Thread nD τ).loc main_arg0) := rfl

/-- The second batch: read through an input window by the second launch, written by nothing. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_of m ρ c main_arg1 (by decide))
    _ = W4 m ρ c (Proc.devRef .tc main_arg1) := (W5_of_ne m ρ c main_arg1 (by decide))
    _ = W3 m ρ c (Proc.devRef .tc main_arg1) := (W4_of_ne m ρ c main_arg1 (by decide))
    _ = W2 m ρ c (Proc.devRef .tc main_arg1) := ((W3_arr m ρ c 1).trans (((dat1 (V2 m ρ) c).arrAt_in 1 rfl _).trans (A_eq1 (V2 m ρ) c 1)))
    _ = W1 m ρ c (Proc.devRef .tc main_arg1) := (W2_of m ρ c main_arg1 (by decide))
    _ = W0 m ρ c (Proc.devRef .tc main_arg1) := (W1_of_ne m ρ c main_arg1 (by decide))
    _ = m ((c : Thread nD τ).loc main_arg1) := rfl

/-- The bank: read through an input window by the third launch, written by nothing. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := (W6_of m ρ c main_arg2 (by decide))
    _ = W4 m ρ c (Proc.devRef .tc main_arg2) := (W5_of_ne m ρ c main_arg2 (by decide))
    _ = W3 m ρ c (Proc.devRef .tc main_arg2) := ((W4_arr m ρ c 0).trans (((dat2 (V3 m ρ) c).arrAt_in 0 rfl _).trans (A_eq2 (V3 m ρ) c 0)))
    _ = W2 m ρ c (Proc.devRef .tc main_arg2) := (W3_of_ne m ρ c main_arg2 (by decide))
    _ = W1 m ρ c (Proc.devRef .tc main_arg2) := (W2_of m ρ c main_arg2 (by decide))
    _ = W0 m ρ c (Proc.devRef .tc main_arg2) := (W1_of_ne m ρ c main_arg2 (by decide))
    _ = m ((c : Thread nD τ).loc main_arg2) := rfl

/-- The scale coefficients: no window's array, written by nothing. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_of m ρ c main_arg3 (by decide))
    _ = W4 m ρ c (Proc.devRef .tc main_arg3) := (W5_of_ne m ρ c main_arg3 (by decide))
    _ = W3 m ρ c (Proc.devRef .tc main_arg3) := (W4_of_ne m ρ c main_arg3 (by decide))
    _ = W2 m ρ c (Proc.devRef .tc main_arg3) := (W3_of_ne m ρ c main_arg3 (by decide))
    _ = W1 m ρ c (Proc.devRef .tc main_arg3) := (W2_of m ρ c main_arg3 (by decide))
    _ = W0 m ρ c (Proc.devRef .tc main_arg3) := (W1_of_ne m ρ c main_arg3 (by decide))
    _ = m ((c : Thread nD τ).loc main_arg3) := rfl

/-- The shift coefficients: no window's array, written by nothing. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_of m ρ c main_arg4 (by decide))
    _ = W4 m ρ c (Proc.devRef .tc main_arg4) := (W5_of_ne m ρ c main_arg4 (by decide))
    _ = W3 m ρ c (Proc.devRef .tc main_arg4) := (W4_of_ne m ρ c main_arg4 (by decide))
    _ = W2 m ρ c (Proc.devRef .tc main_arg4) := (W3_of_ne m ρ c main_arg4 (by decide))
    _ = W1 m ρ c (Proc.devRef .tc main_arg4) := (W2_of m ρ c main_arg4 (by decide))
    _ = W0 m ρ c (Proc.devRef .tc main_arg4) := (W1_of_ne m ρ c main_arg4 (by decide))
    _ = m ((c : Thread nD τ).loc main_arg4) := rfl

/-- The weight matrix: no window's array, written by nothing. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_of m ρ c main_arg5 (by decide))
    _ = W4 m ρ c (Proc.devRef .tc main_arg5) := (W5_of_ne m ρ c main_arg5 (by decide))
    _ = W3 m ρ c (Proc.devRef .tc main_arg5) := (W4_of_ne m ρ c main_arg5 (by decide))
    _ = W2 m ρ c (Proc.devRef .tc main_arg5) := (W3_of_ne m ρ c main_arg5 (by decide))
    _ = W1 m ρ c (Proc.devRef .tc main_arg5) := (W2_of m ρ c main_arg5 (by decide))
    _ = W0 m ρ c (Proc.devRef .tc main_arg5) := (W1_of_ne m ρ c main_arg5 (by decide))
    _ = m ((c : Thread nD τ).loc main_arg5) := rfl

/-- The bias: no window's array, written by nothing. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_of m ρ c main_arg6 (by decide))
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (W3_of_ne m ρ c main_arg6 (by decide))
    _ = W1 m ρ c (Proc.devRef .tc main_arg6) := (W2_of m ρ c main_arg6 (by decide))
    _ = W0 m ρ c (Proc.devRef .tc main_arg6) := (W1_of_ne m ρ c main_arg6 (by decide))
    _ = m ((c : Thread nD τ).loc main_arg6) := rfl

/-! ## The frame -/

/-- Every weakly fair execution of the program from memory `m` with zero counters terminates, and at the end each of
    the seven argument arrays of every core holds what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-! ## The results and the arrays the launches exchange -/

/-- The fourth launch's output array, as its write-backs leave it. -/
theorem W5_v14 (c : Dev nD) : W5 m ρ c (Proc.devRef .tc main_v14) = (dat3 (V4 m ρ) c).arrAt 2 cfg3.N :=
  W5_arr m ρ c 2

/-- The column of cosines, as the second launch's write-backs leave it: the later launches do not touch it. -/
theorem W5_v12_1 (c : Dev nD) : W5 m ρ c (Proc.devRef .tc main_v12_1) = (dat1 (V2 m ρ) c).arrAt 9 cfg1.N :=
  (W5_of_ne m ρ c main_v12_1 (by decide)).trans ((W4_of_ne m ρ c main_v12_1 (by decide)).trans (W3_arr m ρ c 9))

/-- The unit embeddings the fourth launch reads: what the second launch's write-backs leave. -/
theorem V4_v12_0 (c : Dev nD) : V4 m ρ c main_v12_0 = (dat1 (V2 m ρ) c).arrAt 8 cfg1.N :=
  (W4_of_ne m ρ c main_v12_0 (by decide)).trans (W3_arr m ρ c 8)

/-- The unit bank the fourth launch reads: what the third launch's write-backs leave. -/
theorem V4_v13 (c : Dev nD) : V4 m ρ c main_v13 = (dat2 (V3 m ρ) c).arrAt 1 cfg2.N :=
  W4_arr m ρ c 1

/-- The bank as the third launch finds it: as launched. -/
theorem V3_arg2 (c : Dev nD) : V3 m ρ c main_arg2 = m ((c : Thread nD τ).loc main_arg2) :=
  (W3_of_ne m ρ c main_arg2 (by decide)).trans ((W2_of m ρ c main_arg2 (by decide)).trans ((W1_of_ne m ρ c main_arg2 (by decide)).trans rfl))

/-- The first batch as the second launch finds it: as launched. -/
theorem V2_arg0 (c : Dev nD) : V2 m ρ c main_arg0 = m ((c : Thread nD τ).loc main_arg0) :=
  (W2_of m ρ c main_arg0 (by decide)).trans (((W1_arr m ρ c 0).trans (((dat0 (V0 m ρ) c).arrAt_in 0 rfl _).trans (A_eq0 (V0 m ρ) c 0))).trans rfl)

/-- The second batch as the second launch finds it: as launched. -/
theorem V2_arg1 (c : Dev nD) : V2 m ρ c main_arg1 = m ((c : Thread nD τ).loc main_arg1) :=
  (W2_of m ρ c main_arg1 (by decide)).trans ((W1_of_ne m ρ c main_arg1 (by decide)).trans rfl)

/-- The first batch as the first launch finds it: as launched. -/
theorem V0_arg0 (c : Dev nD) : V0 m ρ c main_arg0 = m ((c : Thread nD τ).loc main_arg0) := rfl

/-- The row of column sums, as the first launch's write-backs leave it. -/
theorem V1_v0_0 (c : Dev nD) : V1 m ρ c main_v0_0 = (dat0 (V0 m ρ) c).arrAt 1 cfg0.N :=
  W1_arr m ρ c 1

/-- The row of column sums of squares, as the first launch's write-backs leave it. -/
theorem V1_v0_1 (c : Dev nD) : V1 m ρ c main_v0_1 = (dat0 (V0 m ρ) c).arrAt 2 cfg0.N :=
  W1_arr m ρ c 2

/-! ## The closing reshapes -/

/-- The first result: the 2048 x 8192 array of the fourth launch laid out as one column. -/
theorem W6_v15 (c : Dev nD) : W6 m ρ c (Proc.devRef .tc main_v15)
    = shapeCast S16777216x1 (W5 m ρ c (Proc.devRef .tc main_v14)) shapeCasts_S2048x8192_S16777216x1 := by
  show StableHlo.after hostOps4 (W5 m ρ c) (Proc.devRef .tc main_v15) = _
  after_results; rfl

/-- The second result: the column of cosines repeated along 8192 columns, laid out as one column. -/
theorem W6_v19 (c : Dev nD) : W6 m ρ c (Proc.devRef .tc main_v19)
    = shapeCast S16777216x1 (shapeCast S16777216 (broadcastInDim S2048x8192 ![0] bcast_S2048_S2048x8192_0
        (shapeCast S2048 (W5 m ρ c (Proc.devRef .tc main_v12_1)) shapeCasts_S2048x1_S2048)) shapeCasts_S2048x8192_S16777216) shapeCasts_S16777216_S16777216x1 := by
  show StableHlo.after hostOps4 (W5 m ρ c) (Proc.devRef .tc main_v19) = _
  after_results; rfl

/-! ## The host arithmetic between the first and the second launch -/

/-- The row of means: the column sums divided by 2048. -/
theorem V2_v2 (c : Dev nD) : V2 m ρ c main_v2
    = Host.divf (V1 m ρ c main_v0_0) (broadcastInDim S1x4096 ![] bcast_S_S1x4096 (constant S_ .f32 0x45000000#32)) := by
  show StableHlo.after hostOps1 (W1 m ρ c) (Proc.devRef .tc main_v2) = _
  after_results

/-- The row of variances: the sums of squares divided by 2048, less the squared means. -/
theorem V2_v6 (c : Dev nD) : V2 m ρ c main_v6
    = subf (Host.divf (V1 m ρ c main_v0_1) (broadcastInDim S1x4096 ![] bcast_S_S1x4096 (constant S_ .f32 0x45000000#32)))
        (mulf (V2 m ρ c main_v2) (V2 m ρ c main_v2)) := by
  rw [V2_v2]
  show StableHlo.after hostOps1 (W1 m ρ c) (Proc.devRef .tc main_v6) = _
  after_results

/-- The scale coefficients as a row. -/
theorem V2_v7 (c : Dev nD) : V2 m ρ c main_v7 = shapeCast S1x4096 (m ((c : Thread nD τ).loc main_arg3)) shapeCasts_S4096_S1x4096 := by
  show StableHlo.after hostOps1 (W1 m ρ c) (Proc.devRef .tc main_v7) = _
  after_results
  rw [W1_of_ne m ρ c main_arg3 (by decide)]; rfl

/-- The shift coefficients as a row. -/
theorem V2_v8 (c : Dev nD) : V2 m ρ c main_v8 = shapeCast S1x4096 (m ((c : Thread nD τ).loc main_arg4)) shapeCasts_S4096_S1x4096 := by
  show StableHlo.after hostOps1 (W1 m ρ c) (Proc.devRef .tc main_v8) = _
  after_results
  rw [W1_of_ne m ρ c main_arg4 (by decide)]; rfl

/-- The bias as a row. -/
theorem V2_v9 (c : Dev nD) : V2 m ρ c main_v9 = shapeCast S1x512 (m ((c : Thread nD τ).loc main_arg6)) shapeCasts_S512_S1x512 := by
  show StableHlo.after hostOps1 (W1 m ρ c) (Proc.devRef .tc main_v9) = _
  after_results
  rw [W1_of_ne m ρ c main_arg6 (by decide)]; rfl

/-- The weight matrix transposed to 4096 x 512 and rounded to the 16-bit format. -/
theorem V2_v11 (c : Dev nD) : V2 m ρ c main_v11
    = truncf .bf16 (transpose S4096x512 [1, 0] (m ((c : Thread nD τ).loc main_arg5)) transposes_S512x4096_S4096x512_1_0) bitsLt_bf16_f32 := by
  show StableHlo.after hostOps1 (W1 m ρ c) (Proc.devRef .tc main_v11) = _
  after_results
  rw [W1_of_ne m ρ c main_arg5 (by decide)]

end Cert.KernelIdeal.Hand

end
-- ==== Proof.Spec.lean ====
/-
  The functions the two programs compute, as plain families of extended reals indexed by rows and columns.

  A batch of 2048 rows of 4096 features is normalised per feature (subtract a per-feature mean, scale by a per-feature
  factor, add a per-feature shift), sent through an affine map to 512 coordinates and clipped below at zero. Each row of
  the result, each row of the normalised batch, each row of a second batch and each row of a bank of 8192 vectors of
  512 coordinates is divided by the larger of its Euclidean length and a small positive constant. The results are the
  products of every clipped-and-scaled row with every scaled bank row, and per row the product of the scaled normalised
  row with the scaled row of the second batch.

  The per-feature mean and scale enter as PARAMETERS: the two programs obtain the scale in two ways (a product with a
  reciprocal square root of a one-pass variance; a quotient by a square root of a two-pass variance), and everything
  after it is one function of it.
-/
import Idealize.ShloMosaic.PureOps.Ideal

noncomputable section

namespace Cert.Spec

open Idealize.ShloMosaic

/-- The constant added under the square root of the variance. -/
abbrev epsVar : EReal := Ideal.ofBits .f32 0x3727C5AC#32
/-- The floor under a row's length. -/
abbrev epsLen : EReal := Ideal.ofBits .f32 0x322BCC77#32
/-- The batch size as a float. -/
abbrev batch : EReal := Ideal.ofBits .f32 0x45000000#32

/-- A row's length, floored. -/
def len {n : Nat} (x : Fin n → EReal) : EReal := max (Ideal.sqrt (∑ k, x k * x k)) epsLen

/-- A row divided by its floored length. -/
def unit {n : Nat} (x : Fin n → EReal) (k : Fin n) : EReal := Ideal.div (x k) (len x)

/-- The per-feature sum over the batch. -/
def colSum (x : Fin 2048 → Fin 4096 → EReal) (d : Fin 4096) : EReal := ∑ b, x b d

/-- The per-feature sum of squares over the batch. -/
def colSumSq (x : Fin 2048 → Fin 4096 → EReal) (d : Fin 4096) : EReal := ∑ b, x b d * x b d

/-- The per-feature mean. -/
def mean (x : Fin 2048 → Fin 4096 → EReal) (d : Fin 4096) : EReal := Ideal.div (colSum x d) batch

/-- The one-pass variance: the mean of the squares less the square of the mean. -/
def varOne (x : Fin 2048 → Fin 4096 → EReal) (d : Fin 4096) : EReal :=
  Ideal.div (colSumSq x d) batch - mean x d * mean x d

/-- The two-pass variance: the mean of the squared deviations from the mean. -/
def varTwo (x : Fin 2048 → Fin 4096 → EReal) (d : Fin 4096) : EReal :=
  Ideal.div (∑ b, (x b d - mean x d) * (x b d - mean x d)) batch

/-- The scale as the first program has it: the weight times the reciprocal square root. -/
def scaleOne (x : Fin 2048 → Fin 4096 → EReal) (g : Fin 4096 → EReal) (d : Fin 4096) : EReal :=
  g d * Ideal.rsqrt (varOne x d + epsVar)

/-- The scale as the second program has it: the weight over the square root. -/
def scaleTwo (x : Fin 2048 → Fin 4096 → EReal) (g : Fin 4096 → EReal) (d : Fin 4096) : EReal :=
  Ideal.div (g d) (Ideal.sqrt (varTwo x d + epsVar))

/-- The normalised batch, from a mean, a scale and a shift per feature. -/
def normed (x : Fin 2048 → Fin 4096 → EReal) (mu sc sh : Fin 4096 → EReal) (b : Fin 2048) (d : Fin 4096) : EReal :=
  (x b d - mu d) * sc d + sh d

/-- The affine map (weights given with the feature index first) followed by the clip at zero. -/
def emb (y : Fin 2048 → Fin 4096 → EReal) (wt : Fin 4096 → Fin 512 → EReal) (bias : Fin 512 → EReal)
    (b : Fin 2048) (e : Fin 512) : EReal :=
  max ((∑ d, y b d * wt d e) + bias e) (Ideal.ofBits .f32 0x00000000#32)

/-- The clipped rows, each divided by its floored length. -/
def embUnit (y : Fin 2048 → Fin 4096 → EReal) (wt : Fin 4096 → Fin 512 → EReal) (bias : Fin 512 → EReal)
    (b : Fin 2048) (e : Fin 512) : EReal :=
  unit (emb y wt bias b) e

/-- Per row, the product of the scaled normalised row with the scaled row of the second batch. -/
def rowCos (y p : Fin 2048 → Fin 4096 → EReal) (b : Fin 2048) : EReal :=
  ∑ d, unit (y b) d * unit (p b) d

/-- Every row of the first family against every row of the second. -/
def cross (a : Fin 2048 → Fin 512 → EReal) (n : Fin 8192 → Fin 512 → EReal) (b : Fin 2048) (j : Fin 8192) : EReal :=
  ∑ e, a b e * n j e

/-- The first result before it is laid out as a column: row `b` of the clipped-and-scaled rows against bank row `j`,
    as a function of the per-feature scale `sc` (the weights `w` given with the coordinate index first). -/
def resNE (x : Fin 2048 → Fin 4096 → EReal) (nw : Fin 8192 → Fin 512 → EReal) (sc sh : Fin 4096 → EReal)
    (w : Fin 512 → Fin 4096 → EReal) (bias : Fin 512 → EReal) (b : Fin 2048) (j : Fin 8192) : EReal :=
  cross (embUnit (normed x (mean x) sc sh) (fun d e => w e d) bias) (fun j => unit (nw j)) b j

/-- The second result before it is repeated and laid out as a column: row `b`'s cosine with the second batch, as a
    function of the per-feature scale `sc`. -/
def resPE (x p : Fin 2048 → Fin 4096 → EReal) (sc sh : Fin 4096 → EReal) (b : Fin 2048) : EReal :=
  rowCos (normed x (mean x) sc sh) p b

end Cert.Spec

end
-- ==== Proof.KI.Val0.lean ====
/-
  What the first launch leaves in its two output arrays, read at an index at the ideal values: the per-feature sum of
  the batch and the per-feature sum of squares. The running sums after `n` points are the sums over the first `512 n`
  rows (by induction on the point: each point adds its block's lane sums, and a block's row `r` is row `512 t + r` of
  the batch); the one write-back, after the last point, puts the sums after four points into the arrays; and the sum over
  2048 rows is the sum over four blocks of 512.
-/
import proofs.«111281_j10213432230334_1_alg».proof.Proof.KI.Reg0
import proofs.«111281_j10213432230334_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the contents of the core's buffers when the region is entered
variable (V : (c : Dev nD) → (b : Ref sig .tc) → Buf (Elt Ideal) ((c : Thread nD τ).loc b))

/-! ## The payloads at an index -/

/-- The zero row is zero everywhere. -/
theorem pay1_apply (d : Fin 4096) : (k0_pay1 (F := Ideal) : S1x4096.Idx → EReal) (ix2 0 d) = 0 := by
  unfold k0_pay1
  rw [shapeCast_self]
  exact Ideal.ofBits_zero_f32

theorem pay2_apply (d : Fin 4096) : (k0_pay2 (F := Ideal) : S1x4096.Idx → EReal) (ix2 0 d) = 0 := by
  unfold k0_pay2
  rw [shapeCast_self]
  exact Ideal.ofBits_zero_f32

/-- The lane sum over the 512 rows of a block, as the row the body adds: feature `d` of it is the sum down column `d`. -/
theorem laneSum_apply (y : FVec Ideal S512x4096 .f32) (acc : BitVec (FTy.bits .f32)) (hφ : FKind.Formats FTy.f32)
    (hacc : acc = FKind.add.neutral .f32 hφ) (d : Fin 4096) :
    (shapeCast S1x4096 (multiReduction (F := Ideal) (φ := .f32) .add [0] S4096 y acc reduces_S512x4096_S4096 hφ hacc) shapeCasts_S4096_S1x4096 (ix2 0 d) : EReal)
      = ∑ r : Fin 512, (y (ix2 r d) : EReal) := by
  refine (shapeCast_apply _ _ (ix2 0 d) (ix1 d) (by rw [Shape.rowMajor_val_one, Shape.rowMajor_val_two]; show d.val = 0 * _ + d.val; omega)).trans ?_
  refine (Ideal.multiReduction_add_single y acc reduces_S512x4096_S4096 hφ hacc (ix1 d)).trans ?_
  refine Finset.sum_congr rfl fun r _ => congrArg y ?_
  funext a
  match a with
  | ⟨0, _⟩ => rfl
  | ⟨1, _⟩ => rfl

/-- One point's update of the running sum: the lane sum of the block's 512 rows is added. -/
theorem pay3_apply (x : Vec Ideal S512x4096 .f32) (s : Vec Ideal S1x4096 .f32) (d : Fin 4096) :
    (k0_pay3 x s : S1x4096.Idx → EReal) (ix2 0 d) = (s : S1x4096.Idx → EReal) (ix2 0 d) + ∑ r : Fin 512, (x : S512x4096.Idx → EReal) (ix2 r d) := by
  unfold k0_pay3
  rw [shapeCast_self]
  exact congrArg (fun z => (s : S1x4096.Idx → EReal) (ix2 0 d) + z) (laneSum_apply x _ _ _ d)

/-- One point's update of the running sum of squares: the lane sum of the squared entries is added. -/
theorem pay4_apply (x : Vec Ideal S512x4096 .f32) (q : Vec Ideal S1x4096 .f32) (d : Fin 4096) :
    (k0_pay4 x q : S1x4096.Idx → EReal) (ix2 0 d)
      = (q : S1x4096.Idx → EReal) (ix2 0 d) + ∑ r : Fin 512, (x : S512x4096.Idx → EReal) (ix2 r d) * (x : S512x4096.Idx → EReal) (ix2 r d) := by
  unfold k0_pay4
  rw [shapeCast_self]
  exact congrArg (fun z => (q : S1x4096.Idx → EReal) (ix2 0 d) + z) (laneSum_apply (mulf x x) _ _ _ d)

/-! ## A block's rows are the batch's -/

/-- The input window's block index at point `t`: row block `t`, the one column block. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of the block at point `t` is row `512 t + r` of the batch. -/
theorem iblk0_apply (c : Dev nD) (t : Fin cfg0.N) (r : Fin 512) (d : Fin 4096) (b : Fin 2048) (hb : b.val = 512 * t.val + r.val) :
    (iblk0 V c 0 t : S512x4096.Idx → EReal) (ix2 r d) = (V c main_arg0 : S2048x4096.Idx → EReal) (ix2 b d) := by
  unfold iblk0
  rw [View.read_apply]
  show (V c main_arg0 : S2048x4096.Idx → EReal) _ = (V c main_arg0 : S2048x4096.Idx → EReal) _
  congr 1
  funext a
  apply Fin.ext
  match a with
  | ⟨0, _⟩ => show win0_0.index t 0 * 512 + 1 * r.val = b.val; rw [(index0_0 t).1, hb]; omega
  | ⟨1, _⟩ => show win0_0.index t 1 * 4096 + 1 * d.val = d.val; rw [(index0_0 t).2]; omega

/-! ## The running sums are partial sums over the rows -/

/-- The batch's feature `d` at a natural row number (zero past the last row). -/
def rowAt (c : Dev nD) (d : Fin 4096) (i : ℕ) : EReal :=
  if h : i < 2048 then (V c main_arg0 : S2048x4096.Idx → EReal) (ix2 ⟨i, h⟩ d) else 0

theorem rowAt_fin (c : Dev nD) (d : Fin 4096) (b : Fin 2048) :
    rowAt V c d b.val = (V c main_arg0 : S2048x4096.Idx → EReal) (ix2 b d) := by
  unfold rowAt; rw [dif_pos b.isLt]

/-- A block's entry as the batch's at its natural row number. -/
theorem iblk0_rowAt (c : Dev nD) (t : Fin cfg0.N) (r : Fin 512) (d : Fin 4096) :
    (iblk0 V c 0 t : S512x4096.Idx → EReal) (ix2 r d) = rowAt V c d (512 * t.val + r.val) := by
  have hN : cfg0.N = 4 := N_0
  have hb : 512 * t.val + r.val < 2048 := by have := t.isLt; have := r.isLt; omega
  refine (iblk0_apply V c t r d ⟨512 * t.val + r.val, hb⟩ rfl).trans ?_
  exact (rowAt_fin V c d ⟨512 * t.val + r.val, hb⟩).symm

/-- After `n` points the running sum holds, at feature `d`, the sum of the first `n` blocks' rows. -/
theorem accS_apply (c : Dev nD) (d : Fin 4096) : ∀ n : ℕ, n ≤ 4 →
    (accS V c n : S1x4096.Idx → EReal) (ix2 0 d) = ∑ t : Fin n, ∑ r : Fin 512, rowAt V c d (512 * t.val + r.val)
  | 0, _ => by
    rw [Finset.univ_eq_empty, Finset.sum_empty]
    exact pay1_apply d
  | n + 1, hn => by
    have hN : cfg0.N = 4 := N_0
    have hlt : n < cfg0.N := by omega
    refine (congrFun (accS_succ V c ⟨n, hlt⟩) (ix2 0 d)).trans ?_
    refine (pay3_apply (iblk0 V c 0 ⟨n, hlt⟩) (accS V c n) d).trans ?_
    rw [accS_apply c d n (by omega)]
    refine Eq.trans ?_ (Fin.sum_univ_castSucc (fun t : Fin (n + 1) => ∑ r : Fin 512, rowAt V c d (512 * t.val + r.val))).symm
    refine congrArg (fun z => (∑ t : Fin n, ∑ r : Fin 512, rowAt V c d (512 * t.val + r.val)) + z) ?_
    exact Finset.sum_congr rfl fun r _ => iblk0_rowAt V c ⟨n, hlt⟩ r d

/-- The same for the squares. -/
theorem accQ_apply (c : Dev nD) (d : Fin 4096) : ∀ n : ℕ, n ≤ 4 →
    (accQ V c n : S1x4096.Idx → EReal) (ix2 0 d)
      = ∑ t : Fin n, ∑ r : Fin 512, rowAt V c d (512 * t.val + r.val) * rowAt V c d (512 * t.val + r.val)
  | 0, _ => by
    rw [Finset.univ_eq_empty, Finset.sum_empty]
    exact pay2_apply d
  | n + 1, hn => by
    have hN : cfg0.N = 4 := N_0
    have hlt : n < cfg0.N := by omega
    refine (congrFun (accQ_succ V c ⟨n, hlt⟩) (ix2 0 d)).trans ?_
    refine (pay4_apply (iblk0 V c 0 ⟨n, hlt⟩) (accQ V c n) d).trans ?_
    rw [accQ_apply c d n (by omega)]
    refine Eq.trans ?_ (Fin.sum_univ_castSucc (fun t : Fin (n + 1) => ∑ r : Fin 512, rowAt V c d (512 * t.val + r.val) * rowAt V c d (512 * t.val + r.val))).symm
    refine congrArg (fun z => (∑ t : Fin n, ∑ r : Fin 512, rowAt V c d (512 * t.val + r.val) * rowAt V c d (512 * t.val + r.val)) + z) ?_
    exact Finset.sum_congr rfl fun r _ => congrArg₂ (· * ·) (iblk0_rowAt V c ⟨n, hlt⟩ r d) (iblk0_rowAt V c ⟨n, hlt⟩ r d)

/-- A sum over 2048 rows is the sum over four blocks of 512 rows. -/
theorem sum_rows (f : ℕ → EReal) : ∑ b : Fin 2048, f b.val = ∑ t : Fin 4, ∑ r : Fin 512, f (512 * t.val + r.val) := by
  rw [← Fintype.sum_prod_type']
  refine ((Equiv.sum_comp (finProdFinEquiv : Fin 4 × Fin 512 ≃ Fin 2048) fun b => f b.val).symm).trans ?_
  refine Finset.sum_congr rfl fun p _ => congrArg f ?_
  show p.2.val + 512 * p.1.val = 512 * p.1.val + p.2.val
  omega

/-! ## From the last point's block to the arrays -/

/-- At the last point each output window's block starts at the origin of its array and has the array's extents. -/
theorem lastBlock0_1 : ∀ a : Fin 2, win0_1.index t0_3 a * win0_1.size a = 0 ∧ win0_1.xsize (grid0.coords t0_3) a = S1x4096.size a := by
  decide +kernel

theorem lastBlock0_2 : ∀ a : Fin 2, win0_2.index t0_3 a * win0_2.size a = 0 ∧ win0_2.xsize (grid0.coords t0_3) a = S1x4096.size a := by
  decide +kernel

/-- A point that writes an output back is the last one. -/
theorem last_of_flush (t : Fin cfg0.N) (h : t.val % 4 = 3) : t = t0_3 :=
  Fin.ext (by have hN : cfg0.N = 4 := N_0; have := t.isLt; show t.val = 3; omega)

/-- The one write-back of the first output writes the running sum after four points: read through a block that is the
    whole array, the row is itself. -/
theorem flushed0_1_eq (c : Dev nD) (t : Fin cfg0.N) (hf : (cfg0.win 1).flush t = true) :
    (dat0 V c).flushed 1 t = ((cfg0.win 1).blk t).view.read (Elt Ideal) (accS V c 4) := by
  obtain rfl := last_of_flush t ((flush0_1 t).mp hf)
  rw [show (dat0 V c).flushed 1 t0_3 = (cfg0.win 1).cut (grid0.coords t0_3) ((dat0 V c).after 1 t0_3) from rfl, after0_1]
  exact (Memref.read_access_unit_zero (Elt Ideal) main_v0_0 (funext fun a => (lastBlock0_1 a).1)
    (fun a => by rw [(lastBlock0_1 a).1]; exact (Nat.zero_add _).le) (accS V c 4)).symm

theorem flushed0_2_eq (c : Dev nD) (t : Fin cfg0.N) (hf : (cfg0.win 2).flush t = true) :
    (dat0 V c).flushed 2 t = ((cfg0.win 2).blk t).view.read (Elt Ideal) (accQ V c 4) := by
  obtain rfl := last_of_flush t ((flush0_2 t).mp hf)
  rw [show (dat0 V c).flushed 2 t0_3 = (cfg0.win 2).cut (grid0.coords t0_3) ((dat0 V c).after 2 t0_3) from rfl, after0_2]
  exact (Memref.read_access_unit_zero (Elt Ideal) main_v0_1 (funext fun a => (lastBlock0_2 a).1)
    (fun a => by rw [(lastBlock0_2 a).1]; exact (Nat.zero_add _).le) (accQ V c 4)).symm

/-- The last point's block holds every index of the first output array, so the array ends at the running sum after
    four points. -/
theorem final0_1 (c : Dev nD) : (dat0 V c).arrAt 1 cfg0.N = accS V c 4 :=
  (dat0 V c).arrAt_eq_of_cover 1 (accS V c 4) (flushed0_1_eq V c) fun i =>
    ⟨t0_3, (flush0_1 t0_3).mpr rfl, by
      show i ∈ ((View.whole main_v0_0).slice (win0_1.rect t0_3)).set
      rw [View.set_slice_whole, Rect.mem_set_unit]
      intro a
      show win0_1.index t0_3 a * win0_1.size a ≤ (i a : ℕ) ∧ (i a : ℕ) < win0_1.index t0_3 a * win0_1.size a + win0_1.xsize (grid0.coords t0_3) a
      rw [(lastBlock0_1 a).1, (lastBlock0_1 a).2, Nat.zero_add]
      exact ⟨Nat.zero_le _, (i a).isLt⟩⟩

theorem final0_2 (c : Dev nD) : (dat0 V c).arrAt 2 cfg0.N = accQ V c 4 :=
  (dat0 V c).arrAt_eq_of_cover 2 (accQ V c 4) (flushed0_2_eq V c) fun i =>
    ⟨t0_3, (flush0_2 t0_3).mpr rfl, by
      show i ∈ ((View.whole main_v0_1).slice (win0_2.rect t0_3)).set
      rw [View.set_slice_whole, Rect.mem_set_unit]
      intro a
      show win0_2.index t0_3 a * win0_2.size a ≤ (i a : ℕ) ∧ (i a : ℕ) < win0_2.index t0_3 a * win0_2.size a + win0_2.xsize (grid0.coords t0_3) a
      rw [(lastBlock0_2 a).1, (lastBlock0_2 a).2, Nat.zero_add]
      exact ⟨Nat.zero_le _, (i a).isLt⟩⟩

/-! ## The two arrays at an index -/

/-- The first output array holds, at feature `d`, the sum of the batch's column `d`. -/
theorem val0_1 (c : Dev nD) (d : Fin 4096) :
    ((dat0 (F := Ideal) V c).arrAt 1 cfg0.N : S1x4096.Idx → EReal) (ix2 0 d)
      = Cert.Spec.colSum (fun b d => (V c main_arg0 : S2048x4096.Idx → EReal) (ix2 b d)) d := by
  rw [final0_1]
  refine (accS_apply V c d 4 (le_refl 4)).trans ?_
  refine (sum_rows (rowAt V c d)).symm.trans ?_
  exact Finset.sum_congr rfl fun b _ => rowAt_fin V c d b

/-- The second output array holds, at feature `d`, the sum of the squares of the batch's column `d`. -/
theorem val0_2 (c : Dev nD) (d : Fin 4096) :
    ((dat0 (F := Ideal) V c).arrAt 2 cfg0.N : S1x4096.Idx → EReal) (ix2 0 d)
      = Cert.Spec.colSumSq (fun b d => (V c main_arg0 : S2048x4096.Idx → EReal) (ix2 b d)) d := by
  rw [final0_2]
  refine (accQ_apply V c d 4 (le_refl 4)).trans ?_
  refine (sum_rows fun i => rowAt V c d i * rowAt V c d i).symm.trans ?_
  exact Finset.sum_congr rfl fun b _ => congrArg₂ (· * ·) (rowAt_fin V c d b) (rowAt_fin V c d b)

end Cert.KernelIdeal.HandVal

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KI.Pay1.lean ====
/-
  The three pure values of the second launch's body, read at an index.

  Per block of 256 rows: the normalised block (subtract the per-feature mean, multiply by the per-feature scale
  weight * rsqrt (variance + eps), add the per-feature shift); the clipped affine image of the normalised block with
  every row divided by its floored Euclidean length; and, per row, the sum over the features of the products of the
  normalised row and the row of a second block, each divided by its own floored length.

  First four reads general in the sizes: a sum along the second axis of a rank-two vector, a vector of M entries
  recast as a column, a column repeated along the rows' entries, and (from these) a rank-two vector whose rows are
  each divided by their floored length.
-/
import proofs.«111281_j10213432230334_1_alg».proof.Proof.Gen.KernelIdeal.Skeleton
import proofs.«111281_j10213432230334_1_alg».proof.Proof.Spec
import proofs.«111281_j10213432230334_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Idealize.ShloMosaic Idealize.ShloMosaic.ValueIdx

/-! ## Four reads general in the sizes -/

namespace L1

/-- Row r of an M x N index family with the column k put back: the index (r, k). -/
theorem lift_row {M N : Nat} (h : (⟨2, ![M, N]⟩ : Shape).Reduces [1] (⟨1, ![M]⟩ : Shape)) (r : Fin M)
    (k : Fin ((⟨2, ![M, N]⟩ : Shape).size 1)) : h.lift (ix1 r) k = ix2 r (⟨k.val, k.isLt⟩ : Fin N) := by
  funext c; apply Fin.ext
  fin_cases c <;> rfl

/-- The sum along the second axis of an M x N vector from the zero word, read at r: the sum over k of the entries
    (r, k). -/
theorem rowSum_apply {M N : Nat} (x : FVec Ideal ⟨2, ![M, N]⟩ .f32)
    (h : (⟨2, ![M, N]⟩ : Shape).Reduces [1] (⟨1, ![M]⟩ : Shape)) (hφ : FKind.Formats .f32)
    (hacc : (0x00000000#32 : BitVec (FTy.bits .f32)) = FKind.add.neutral .f32 hφ) (r : Fin M) :
    multiReduction (F := Ideal) .add [1] (⟨1, ![M]⟩ : Shape) x 0x00000000#32 h hφ hacc (ix1 r) = ∑ k : Fin N, x (ix2 r k) := by
  refine (Ideal.multiReduction_add_single x 0x00000000#32 h hφ hacc (ix1 r)).trans ?_
  show ∑ k : Fin N, x (h.lift (ix1 r) k) = ∑ k : Fin N, x (ix2 r k)
  exact Finset.sum_congr rfl fun k _ => congrArg x (lift_row h r k)

/-- A vector of M entries recast as an M x 1 column, read at (r, z): entry r. -/
theorem shapeCast_col_apply {α : Type} {M : Nat} (x : (⟨1, ![M]⟩ : Shape).Idx → α)
    (h : (⟨1, ![M]⟩ : Shape).ShapeCasts ⟨2, ![M, 1]⟩) (r : Fin M) (z : Fin 1) :
    shapeCast ⟨2, ![M, 1]⟩ x h (ix2 r z) = x (ix1 r) :=
  shapeCast_apply x h (ix2 r z) (ix1 r) (by
    rw [Shape.rowMajor_val_one, Shape.rowMajor_val_two]
    have hz : z.val = 0 := by have := z.isLt; omega
    show r.val = r.val * 1 + z.val
    rw [hz, Nat.mul_one, Nat.add_zero])

/-- An M x 1 column repeated along N entries per row, read at (r, c): the column's entry r. -/
theorem bcastCol_apply {α : Type} {M N : Nat} (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r ⟨0, Nat.one_pos⟩) :=
  broadcastTo_apply x h (ix2 r c) (ix2 r ⟨0, Nat.one_pos⟩) (fun a => match a with
    | ⟨0, _⟩ => by
        show r.val = if M = 1 then 0 else r.val
        by_cases hM : M = 1
        · rw [if_pos hM]; have := r.isLt; omega
        · rw [if_neg hM]
    | ⟨1, _⟩ => by show (0 : Nat) = if (1 : Nat) = 1 then 0 else c.val; rw [if_pos rfl])

/-- An M x N vector whose every row is divided by the larger of the row's Euclidean length and the floor, read at
    (r, c): the row r divided by its floored length, at c. -/
theorem rowUnit_apply {M N : Nat} (y : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (r : Fin M) (c : Fin N) :
    divf y (broadcastTo ⟨2, ![M, N]⟩
        (maximumf (sqrt (shapeCast ⟨2, ![M, 1]⟩
            (multiReduction (F := Ideal) .add [1] (⟨1, ![M]⟩ : Shape) (mulf y y) 0x00000000#32 hr hφ hacc) hc))
          (broadcast ⟨2, ![M, 1]⟩ (Scalar.ofBits (F := Ideal) .f32 0x322BCC77#32))) hb) (ix2 r c)
      = Cert.Spec.unit (fun c' => y (ix2 r c')) c := by
  show Ideal.div (y (ix2 r c)) (broadcastTo ⟨2, ![M, N]⟩ _ hb (ix2 r c)) = Ideal.div (y (ix2 r c)) _
  refine congrArg (Ideal.div (y (ix2 r c))) ?_
  refine (bcastCol_apply _ hb r c).trans ?_
  show max (Ideal.sqrt (shapeCast ⟨2, ![M, 1]⟩ _ hc (ix2 r ⟨0, Nat.one_pos⟩))) Cert.Spec.epsLen
    = max (Ideal.sqrt (∑ k, y (ix2 r k) * y (ix2 r k))) Cert.Spec.epsLen
  refine congrArg (fun s => max (Ideal.sqrt s) Cert.Spec.epsLen) ?_
  refine (shapeCast_col_apply _ hc r ⟨0, Nat.one_pos⟩).trans ?_
  exact rowSum_apply (mulf y y) hr hφ hacc r

end L1

open L1

/-! ## The normalised block -/

/-- The normalised block at (r, d): (x (r, d) - mean d) * (weight d * rsqrt (variance d + eps)) + shift d. -/
theorem k1_pay2_apply (v0 : Vec Ideal S256x4096 .f32) (v1 v3 v5 v7 : Vec Ideal S1x4096 .f32) (r : Fin 256) (d : Fin 4096) :
    k1_pay2 (F := Ideal) v0 v1 v3 v5 v7 (ix2 r d)
      = (v0 (ix2 r d) - v1 (ix2 0 d)) * (v5 (ix2 0 d) * Ideal.rsqrt (v3 (ix2 0 d) + Cert.Spec.epsVar)) + v7 (ix2 0 d) := by
  unfold k1_pay2
  simp only [shapeCast_self]
  show (v0 (ix2 r d) - broadcastTo S256x4096 v1 _ (ix2 r d))
      * broadcastTo S256x4096 (mulf (F := Ideal) v5 (rsqrt (addf v3 (broadcast S1x4096 _)))) _ (ix2 r d)
      + broadcastTo S256x4096 v7 _ (ix2 r d) = _
  rw [Cert.LibPlainDot.bcastRow_apply, Cert.LibPlainDot.bcastRow_apply, Cert.LibPlainDot.bcastRow_apply]
  rfl

/-! ## The clipped affine image, rows divided by their floored length -/

/-- The product record of the launch is the plain 256 x 4096 by 4096 x 512 one. -/
theorem dot1_eq_plain : dot_S256x4096_S4096x512_S256x512_1_0_0_1_n_n = DotDims.plain 256 4096 512 := rfl

/-- The stored block at (r, e): row r of the clipped affine image of the normalised block, divided by its floored
    length, at e. -/
theorem k1_pay3_apply (v0 : Vec Ideal S256x4096 .f32) (v1 v3 v5 v7 : Vec Ideal S1x4096 .f32) (v20 : Vec Ideal S4096x512 .bf16)
    (v23 : Vec Ideal S1x512 .f32) (r : Fin 256) (e : Fin 512) :
    k1_pay3 (F := Ideal) v0 v1 v3 v5 v7 v20 v23 (ix2 r e)
      = Cert.Spec.unit (fun e' => max ((∑ d : Fin 4096, k1_pay2 (F := Ideal) v0 v1 v3 v5 v7 (ix2 r d) * v20 (ix2 d e')) + v23 (ix2 0 e'))
          (Ideal.ofBits .f32 0x00000000#32)) e := by
  unfold k1_pay3
  simp only [shapeCast_self]
  refine (rowUnit_apply _ _ _ _ _ _ r e).trans ?_
  refine congrArg (fun f => Cert.Spec.unit f e) (funext fun e' => ?_)
  show max (matmul dot_S256x4096_S4096x512_S256x512_1_0_0_1_n_n none
        (truncf .bf16 (k1_pay2 (F := Ideal) v0 v1 v3 v5 v7) _) v20 (constant S256x512 .f32 0x00000000#32) (ix2 r e')
      + broadcastTo S256x512 v23 _ (ix2 r e')) (Ideal.ofBits .f32 0x00000000#32) = _
  rw [Cert.LibPlainDot.bcastRow_apply, dot1_eq_plain, Cert.LibPlainDot.matmul_plain_apply]
  rfl

/-! ## The per-row product of the two scaled rows -/

/-- The stored column at (r, 0): the sum over the features of the products of the first block's row r and the second
    block's row r, each divided by its own floored length. -/
theorem k1_pay1_apply (y p : Vec Ideal S256x4096 .f32) (r : Fin 256) :
    k1_pay1 (F := Ideal) y p (ix2 r 0)
      = ∑ d : Fin 4096, Cert.Spec.unit (fun d' => y (ix2 r d')) d * Cert.Spec.unit (fun d' => p (ix2 r d')) d := by
  unfold k1_pay1
  refine (shapeCast_col_apply _ _ r 0).trans ?_
  refine (rowSum_apply _ _ _ _ r).trans ?_
  refine Finset.sum_congr rfl fun d _ => ?_
  exact congrArg₂ (· * ·) (rowUnit_apply y _ _ _ _ _ r d) (rowUnit_apply p _ _ _ _ _ r d)

end Cert.KernelIdeal.HandVal

end
-- ==== Proof.KI.Val1.lean ====
/-
  What the second launch leaves in its two output arrays, read at an index.

  Entry (b, e) of the 2048 x 512 array is row b of the clipped affine image of the normalised batch, divided by the
  row's floored length, at e; entry (b, 0) of the 2048 x 1 array is the sum over the features of the products of the
  normalised row b and row b of the second batch, each divided by its own floored length. The normalised batch is
  (x - mean) * (weight * rsqrt (variance + eps)) + shift with the four rows as the launch finds them.

  Each input block read at an index is the array at the block's rows (point t holds rows 256 t .. 256 t + 255; the
  six one-block windows hold their whole arrays); each written block is the restriction of one function of the arrays
  to the block's rows; the eight blocks cover the 2048 rows.
-/
import proofs.«111281_j10213432230334_1_alg».proof.Proof.KI.Reg1
import proofs.«111281_j10213432230334_1_alg».proof.Proof.KI.Pay1
import proofs.«111281_j10213432230334_1_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

-- the contents of the core's buffers when the region is entered
variable (V : (c : Dev nD) → (b : Ref sig .tc) → Buf (Elt Ideal) ((c : Thread nD τ).loc b))

/-! ## The arrays the launch reads, as families of extended reals -/

/-- The first batch. -/
abbrev eX (c : Dev nD) : Fin 2048 → Fin 4096 → EReal := fun b d => (V c main_arg0 : S2048x4096.Idx → EReal) (ix2 b d)
/-- The second batch. -/
abbrev eP (c : Dev nD) : Fin 2048 → Fin 4096 → EReal := fun b d => (V c main_arg1 : S2048x4096.Idx → EReal) (ix2 b d)
/-- The row of means. -/
abbrev eMU (c : Dev nD) : Fin 4096 → EReal := fun d => (V c main_v2 : S1x4096.Idx → EReal) (ix2 0 d)
/-- The row of variances. -/
abbrev eVAR (c : Dev nD) : Fin 4096 → EReal := fun d => (V c main_v6 : S1x4096.Idx → EReal) (ix2 0 d)
/-- The row of weights. -/
abbrev eG (c : Dev nD) : Fin 4096 → EReal := fun d => (V c main_v7 : S1x4096.Idx → EReal) (ix2 0 d)
/-- The row of shifts. -/
abbrev eSH (c : Dev nD) : Fin 4096 → EReal := fun d => (V c main_v8 : S1x4096.Idx → EReal) (ix2 0 d)
/-- The weight matrix, feature index first. -/
abbrev eWT (c : Dev nD) : Fin 4096 → Fin 512 → EReal := fun d e => (V c main_v11 : S4096x512.Idx → EReal) (ix2 d e)
/-- The bias row. -/
abbrev eB (c : Dev nD) : Fin 512 → EReal := fun e => (V c main_v9 : S1x512.Idx → EReal) (ix2 0 e)
/-- The per-feature scale: the weight times the reciprocal square root of the variance plus eps. -/
abbrev eSC (c : Dev nD) : Fin 4096 → EReal := fun d => eG V c d * Ideal.rsqrt (eVAR V c d + Cert.Spec.epsVar)

/-! ## Where a block sits -/

/-- The block indices of the launch's windows at every point: the two batch windows and the two output windows move
    down the rows with the point, the six others stay at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Row r of the block at point t is row 256 t + r of the batch. -/
def row1 (t : Fin cfg1.N) (r : Fin 256) : Fin 2048 :=
  ⟨t.val * 256 + r.val, by have hN : cfg1.N = 8 := N_1; have := t.isLt; have := r.isLt; show t.val * 256 + r.val < 2048; omega⟩

/-- The first batch's block at point t, at (r, d): the batch at (256 t + r, d). -/
theorem iblk1_0_apply (c : Dev nD) (t : Fin cfg1.N) (r : Fin 256) (d : Fin 4096) :
    (iblk1 V c 0 t : S256x4096.Idx → EReal) (ix2 r d) = eX V c (row1 t r) d := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 256 + 1 * r.val = t.val * 256 + r.val; rw [e0]; omega
  | ⟨1, _⟩ => show win1_0.index t (1 : Fin 2) * 4096 + 1 * d.val = d.val; rw [e1]; omega

/-- The second batch's block at point t, at (r, d): the second batch at (256 t + r, d). -/
theorem iblk1_1_apply (c : Dev nD) (t : Fin cfg1.N) (r : Fin 256) (d : Fin 4096) :
    (iblk1 V c 1 t : S256x4096.Idx → EReal) (ix2 r d) = eP V c (row1 t r) d := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 256 + 1 * r.val = t.val * 256 + r.val; rw [e0]; omega
  | ⟨1, _⟩ => show win1_1.index t (1 : Fin 2) * 4096 + 1 * d.val = d.val; rw [e1]; omega

/-- The window on the row of means holds the whole row at every point. -/
theorem iblk1_2_apply (c : Dev nD) (t : Fin cfg1.N) (d : Fin 4096) :
    (iblk1 V c 2 t : S1x4096.Idx → EReal) (ix2 0 d) = eMU V c d := by
  obtain ⟨-, -, -, -, e20, e21, e30, e31, e40, e41, e50, e51, -⟩ := idx_facts1 t
  unfold iblk1
  rw [View.read_apply]
  show V c main_v2 _ = V c main_v2 _
  congr 1
  funext a
  apply Fin.ext
  match a with
  | ⟨0, _⟩ => show win1_2.index t (0 : Fin 2) * 1 + 1 * 0 = 0; rw [e20]
  | ⟨1, _⟩ => show win1_2.index t (1 : Fin 2) * 4096 + 1 * d.val = d.val; rw [e21]; omega

/-- The window on the row of variances holds the whole row at every point. -/
theorem iblk1_3_apply (c : Dev nD) (t : Fin cfg1.N) (d : Fin 4096) :
    (iblk1 V c 3 t : S1x4096.Idx → EReal) (ix2 0 d) = eVAR V c d := by
  obtain ⟨-, -, -, -, e20, e21, e30, e31, e40, e41, e50, e51, -⟩ := idx_facts1 t
  unfold iblk1
  rw [View.read_apply]
  show V c main_v6 _ = V c main_v6 _
  congr 1
  funext a
  apply Fin.ext
  match a with
  | ⟨0, _⟩ => show win1_3.index t (0 : Fin 2) * 1 + 1 * 0 = 0; rw [e30]
  | ⟨1, _⟩ => show win1_3.index t (1 : Fin 2) * 4096 + 1 * d.val = d.val; rw [e31]; omega

/-- The window on the row of weights holds the whole row at every point. -/
theorem iblk1_4_apply (c : Dev nD) (t : Fin cfg1.N) (d : Fin 4096) :
    (iblk1 V c 4 t : S1x4096.Idx → EReal) (ix2 0 d) = eG V c d := by
  obtain ⟨-, -, -, -, e20, e21, e30, e31, e40, e41, e50, e51, -⟩ := idx_facts1 t
  unfold iblk1
  rw [View.read_apply]
  show V c main_v7 _ = V c main_v7 _
  congr 1
  funext a
  apply Fin.ext
  match a with
  | ⟨0, _⟩ => show win1_4.index t (0 : Fin 2) * 1 + 1 * 0 = 0; rw [e40]
  | ⟨1, _⟩ => show win1_4.index t (1 : Fin 2) * 4096 + 1 * d.val = d.val; rw [e41]; omega

/-- The window on the row of shifts holds the whole row at every point. -/
theorem iblk1_5_apply (c : Dev nD) (t : Fin cfg1.N) (d : Fin 4096) :
    (iblk1 V c 5 t : S1x4096.Idx → EReal) (ix2 0 d) = eSH V c d := by
  obtain ⟨-, -, -, -, e20, e21, e30, e31, e40, e41, e50, e51, -⟩ := idx_facts1 t
  unfold iblk1
  rw [View.read_apply]
  show V c main_v8 _ = V c main_v8 _
  congr 1
  funext a
  apply Fin.ext
  match a with
  | ⟨0, _⟩ => show win1_5.index t (0 : Fin 2) * 1 + 1 * 0 = 0; rw [e50]
  | ⟨1, _⟩ => show win1_5.index t (1 : Fin 2) * 4096 + 1 * d.val = d.val; rw [e51]; omega

/-- The window on the weight matrix holds the whole matrix at every point. -/
theorem iblk1_6_apply (c : Dev nD) (t : Fin cfg1.N) (d : Fin 4096) (e : Fin 512) :
    (iblk1 V c 6 t : S4096x512.Idx → EReal) (ix2 d e) = eWT V c d e := by
  obtain ⟨-, -, -, -, -, -, -, -, -, -, -, -, e0, e1, -⟩ := idx_facts1 t
  unfold iblk1
  rw [View.read_apply]
  show V c main_v11 _ = V c main_v11 _
  congr 1
  funext a
  apply Fin.ext
  match a with
  | ⟨0, _⟩ => show win1_6.index t (0 : Fin 2) * 4096 + 1 * d.val = d.val; rw [e0]; omega
  | ⟨1, _⟩ => show win1_6.index t (1 : Fin 2) * 512 + 1 * e.val = e.val; rw [e1]; omega

/-- The window on the bias row holds the whole row at every point. -/
theorem iblk1_7_apply (c : Dev nD) (t : Fin cfg1.N) (e : Fin 512) :
    (iblk1 V c 7 t : S1x512.Idx → EReal) (ix2 0 e) = eB V c e := by
  obtain ⟨-, -, -, -, -, -, -, -, -, -, -, -, -, -, e0, e1, -⟩ := idx_facts1 t
  unfold iblk1
  rw [View.read_apply]
  show V c main_v9 _ = V c main_v9 _
  congr 1
  funext a
  apply Fin.ext
  match a with
  | ⟨0, _⟩ => show win1_7.index t (0 : Fin 2) * 1 + 1 * 0 = 0; rw [e0]
  | ⟨1, _⟩ => show win1_7.index t (1 : Fin 2) * 512 + 1 * e.val = e.val; rw [e1]; omega

/-! ## The normalised block is the normalised batch at the block's rows -/

/-- The normalised block at point t, at (r, d): the normalised batch at (256 t + r, d). -/
theorem norm1_apply (c : Dev nD) (t : Fin cfg1.N) (r : Fin 256) (d : Fin 4096) :
    k1_pay2 (F := Ideal) (iblk1 V c 0 t) (iblk1 V c 2 t) (iblk1 V c 3 t) (iblk1 V c 4 t) (iblk1 V c 5 t) (ix2 r d)
      = Cert.Spec.normed (eX V c) (eMU V c) (eSC V c) (eSH V c) (row1 t r) d := by
  refine (k1_pay2_apply _ _ _ _ _ r d).trans ?_
  rw [iblk1_0_apply, iblk1_2_apply, iblk1_3_apply, iblk1_4_apply, iblk1_5_apply]
  rfl

/-! ## The two arrays the launch leaves, as functions of the arrays it reads -/

/-- The 2048 x 512 array: row b of the clipped affine image of the normalised batch over its floored length. -/
def G1_8 (c : Dev nD) : S2048x512.Idx → EReal := fun i =>
  Cert.Spec.embUnit (Cert.Spec.normed (eX V c) (eMU V c) (eSC V c) (eSH V c)) (eWT V c) (eB V c) (i 0) (i 1)

/-- The 2048 x 1 array: the product of the scaled normalised row b with the scaled row b of the second batch. -/
def G1_9 (c : Dev nD) : S2048x1.Idx → EReal := fun i =>
  Cert.Spec.rowCos (Cert.Spec.normed (eX V c) (eMU V c) (eSC V c) (eSH V c)) (eP V c) (i 0)

theorem hz1 : (![0, 0] : Fin 2 → Nat) = fun _ => 0 := funext fun a => by fin_cases a <;> rfl

/-- What point t writes back to the 2048 x 512 array is the array's function read through the point's block. -/
theorem flushed1_8_eq (c : Dev nD) (t : Fin cfg1.N) :
    (dat1 V c).flushed 8 t = ((cfg1.win 8).blk t).view.read (Elt Ideal) (G1_8 V c) := by
  show (cfg1.win 8).cut (grid1.coords t) ((dat1 V c).after 8 t) = _
  rw [after1_8]
  unfold out1_8
  rw [View.canon_unit_zero hz1]
  simp only [View.ld_unit_zero (S := S256x4096) hz1, View.ld_unit_zero (S := S1x4096) hz1,
    View.ld_unit_zero (S := S4096x512) hz1, View.ld_unit_zero (S := S1x512) hz1]
  funext j
  obtain ⟨r, e, rfl⟩ : ∃ (r : Fin 256) (e : Fin 512), j = ix2 r e := ⟨j 0, j 1, eq_ix2 j⟩
  obtain ⟨-, -, -, -, -, -, -, -, -, -, -, -, -, -, -, -, e0, e1, -⟩ := idx_facts1 t
  have hemb : ((cfg1.win 8).blk t).view.emb (ix2 r e) = ix2 (row1 t r) e := by
    funext a
    apply Fin.ext
    match a with
    | ⟨0, _⟩ => show win1_8.index t (0 : Fin 2) * 256 + 1 * r.val = t.val * 256 + r.val; rw [e0]; omega
    | ⟨1, _⟩ => show win1_8.index t (1 : Fin 2) * 512 + 1 * e.val = e.val; rw [e1]; omega
  show k1_pay3 (F := Ideal) (iblk1 V c 0 t) (iblk1 V c 2 t) (iblk1 V c 3 t) (iblk1 V c 4 t) (iblk1 V c 5 t) (iblk1 V c 6 t) (iblk1 V c 7 t) (ix2 r e)
    = G1_8 V c (((cfg1.win 8).blk t).view.emb (ix2 r e))
  rw [hemb]
  refine (k1_pay3_apply _ _ _ _ _ _ _ r e).trans ?_
  show Cert.Spec.unit _ e = Cert.Spec.unit (Cert.Spec.emb (Cert.Spec.normed (eX V c) (eMU V c) (eSC V c) (eSH V c)) (eWT V c) (eB V c) (row1 t r)) e
  refine congrArg (fun f => Cert.Spec.unit f e) (funext fun e' => ?_)
  have hs : ∀ d : Fin 4096,
      k1_pay2 (F := Ideal) (iblk1 V c 0 t) (iblk1 V c 2 t) (iblk1 V c 3 t) (iblk1 V c 4 t) (iblk1 V c 5 t) (ix2 r d)
          * (iblk1 V c 6 t : S4096x512.Idx → EReal) (ix2 d e')
        = Cert.Spec.normed (eX V c) (eMU V c) (eSC V c) (eSH V c) (row1 t r) d * eWT V c d e' := fun d => by
    rw [norm1_apply, iblk1_6_apply]
  rw [Finset.sum_congr rfl fun d _ => hs d, iblk1_7_apply]
  rfl

/-- What point t writes back to the 2048 x 1 array is the array's function read through the point's block. -/
theorem flushed1_9_eq (c : Dev nD) (t : Fin cfg1.N) :
    (dat1 V c).flushed 9 t = ((cfg1.win 9).blk t).view.read (Elt Ideal) (G1_9 V c) := by
  show (cfg1.win 9).cut (grid1.coords t) ((dat1 V c).after 9 t) = _
  rw [after1_9]
  unfold out1_9
  rw [View.canon_unit_zero hz1]
  simp only [View.ld_unit_zero (S := S256x4096) hz1, View.ld_unit_zero (S := S1x4096) hz1]
  funext j
  obtain ⟨r, z, rfl⟩ : ∃ (r : Fin 256) (z : Fin 1), j = ix2 r z := ⟨j 0, j 1, eq_ix2 j⟩
  obtain rfl : z = 0 := Subsingleton.elim z 0
  obtain ⟨-, -, -, -, -, -, -, -, -, -, -, -, -, -, -, -, -, -, e0, e1⟩ := idx_facts1 t
  have hemb : ((cfg1.win 9).blk t).view.emb (ix2 r (0 : Fin 1)) = ix2 (row1 t r) (0 : Fin 1) := by
    funext a
    apply Fin.ext
    match a with
    | ⟨0, _⟩ => show win1_9.index t (0 : Fin 2) * 256 + 1 * r.val = t.val * 256 + r.val; rw [e0]; omega
    | ⟨1, _⟩ => show win1_9.index t (1 : Fin 2) * 1 + 1 * 0 = 0; rw [e1]
  show k1_pay1 (F := Ideal) (k1_pay2 (F := Ideal) (iblk1 V c 0 t) (iblk1 V c 2 t) (iblk1 V c 3 t) (iblk1 V c 4 t) (iblk1 V c 5 t)) (iblk1 V c 1 t) (ix2 r 0)
    = G1_9 V c (((cfg1.win 9).blk t).view.emb (ix2 r (0 : Fin 1)))
  rw [hemb]
  refine (k1_pay1_apply _ _ r).trans ?_
  show _ = ∑ d : Fin 4096, Cert.Spec.unit (Cert.Spec.normed (eX V c) (eMU V c) (eSC V c) (eSH V c) (row1 t r)) d * Cert.Spec.unit (eP V c (row1 t r)) d
  have hy : (fun d' : Fin 4096 => k1_pay2 (F := Ideal) (iblk1 V c 0 t) (iblk1 V c 2 t) (iblk1 V c 3 t) (iblk1 V c 4 t) (iblk1 V c 5 t) (ix2 r d'))
      = Cert.Spec.normed (eX V c) (eMU V c) (eSC V c) (eSH V c) (row1 t r) := funext fun d' => norm1_apply V c t r d'
  have hp : (fun d' : Fin 4096 => (iblk1 V c 1 t : S256x4096.Idx → EReal) (ix2 r d')) = eP V c (row1 t r) :=
    funext fun d' => iblk1_1_apply V c t r d'
  rw [hy, hp]

/-! ## The blocks cover the rows -/

/-- An index of the 2048 x 512 array is in point t's block iff each coordinate is in the block's range. -/
theorem mem_blk1_8 (t : Fin cfg1.N) (i : S2048x512.Idx) :
    i ∈ ((cfg1.win 8).blk t).view.set ↔ ∀ a : Fin 2, win1_8.index t a * S256x512.size a ≤ (i a).val ∧ (i a).val < win1_8.index t a * S256x512.size a + S256x512.size a := by
  show i ∈ ((View.whole main_v12_0).slice (win1_8.rect t)).set ↔ _
  rw [View.set_slice_whole, Rect.mem_set_unit]
  exact Iff.rfl

/-- An index of the 2048 x 1 array is in point t's block iff each coordinate is in the block's range. -/
theorem mem_blk1_9 (t : Fin cfg1.N) (i : S2048x1.Idx) :
    i ∈ ((cfg1.win 9).blk t).view.set ↔ ∀ a : Fin 2, win1_9.index t a * S256x1.size a ≤ (i a).val ∧ (i a).val < win1_9.index t a * S256x1.size a + S256x1.size a := by
  show i ∈ ((View.whole main_v12_1).slice (win1_9.rect t)).set ↔ _
  rw [View.set_slice_whole, Rect.mem_set_unit]
  exact Iff.rfl

/-- Row b of the 2048 x 512 array is written by point b / 256. -/
theorem cover1_8_rows (i : S2048x512.Idx) :
    ∃ t : Fin cfg1.N, (cfg1.win 8).flush t = true ∧ i ∈ ((cfg1.win 8).blk t).view.set := by
  have hN : cfg1.N = 8 := N_1
  have hi0 : (i 0).val < 2048 := (i 0).isLt
  have hi1 : (i 1).val < 512 := (i 1).isLt
  refine ⟨⟨(i 0).val / 256, by omega⟩, flush1_8 _, ?_⟩
  rw [mem_blk1_8]
  obtain ⟨-, -, -, -, -, -, -, -, -, -, -, -, -, -, -, -, e0, e1, -⟩ := idx_facts1 ⟨(i 0).val / 256, by omega⟩
  intro a
  match a with
  | ⟨0, _⟩ =>
    show win1_8.index ⟨(i 0).val / 256, _⟩ (0 : Fin 2) * 256 ≤ (i 0).val ∧ (i 0).val < win1_8.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_8.index ⟨(i 0).val / 256, _⟩ (1 : Fin 2) * 512 ≤ (i 1).val ∧ (i 1).val < win1_8.index ⟨(i 0).val / 256, _⟩ (1 : Fin 2) * 512 + 512
    rw [e1]; omega

/-- Row b of the 2048 x 1 array is written by point b / 256. -/
theorem cover1_9_rows (i : S2048x1.Idx) :
    ∃ t : Fin cfg1.N, (cfg1.win 9).flush t = true ∧ i ∈ ((cfg1.win 9).blk t).view.set := by
  have hN : cfg1.N = 8 := N_1
  have hi0 : (i 0).val < 2048 := (i 0).isLt
  have hi1 : (i 1).val < 1 := (i 1).isLt
  refine ⟨⟨(i 0).val / 256, by omega⟩, flush1_9 _, ?_⟩
  rw [mem_blk1_9]
  obtain ⟨-, -, -, -, -, -, -, -, -, -, -, -, -, -, -, -, -, -, e0, e1⟩ := idx_facts1 ⟨(i 0).val / 256, by omega⟩
  intro a
  match a with
  | ⟨0, _⟩ =>
    show win1_9.index ⟨(i 0).val / 256, _⟩ (0 : Fin 2) * 256 ≤ (i 0).val ∧ (i 0).val < win1_9.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_9.index ⟨(i 0).val / 256, _⟩ (1 : Fin 2) * 1 ≤ (i 1).val ∧ (i 1).val < win1_9.index ⟨(i 0).val / 256, _⟩ (1 : Fin 2) * 1 + 1
    rw [e1]; omega

/-! ## The arrays after the launch -/

/-- The 2048 x 512 array after the launch is its function of the arrays the launch reads. -/
theorem final1_8 (c : Dev nD) : (dat1 (F := Ideal) V c).arrAt 8 cfg1.N = G1_8 V c :=
  (dat1 V c).arrAt_eq_of_cover 8 (G1_8 V c) (fun t _ => flushed1_8_eq V c t) (cover1_8_rows)

/-- The 2048 x 1 array after the launch is its function of the arrays the launch reads. -/
theorem final1_9 (c : Dev nD) : (dat1 (F := Ideal) V c).arrAt 9 cfg1.N = G1_9 V c :=
  (dat1 V c).arrAt_eq_of_cover 9 (G1_9 V c) (fun t _ => flushed1_9_eq V c t) (cover1_9_rows)

/-- Entry (b, e) of the 2048 x 512 array after the launch. -/
theorem val1_8 (c : Dev nD) (b : Fin 2048) (e : Fin 512) :
    ((dat1 (F := Ideal) V c).arrAt 8 cfg1.N : S2048x512.Idx → EReal) (ix2 b e)
      = Cert.Spec.embUnit (Cert.Spec.normed (eX V c) (eMU V c) (eSC V c) (eSH V c)) (eWT V c) (eB V c) b e := by
  rw [final1_8]
  rfl

/-- Entry (b, 0) of the 2048 x 1 array after the launch. -/
theorem val1_9 (c : Dev nD) (b : Fin 2048) :
    ((dat1 (F := Ideal) V c).arrAt 9 cfg1.N : S2048x1.Idx → EReal) (ix2 b 0)
      = Cert.Spec.rowCos (Cert.Spec.normed (eX V c) (eMU V c) (eSC V c) (eSH V c)) (eP V c) b := by
  rw [final1_9]
  rfl

end Cert.KernelIdeal.HandVal

end
-- ==== Proof.KI.Val2.lean ====
/-
  What the third launch leaves in its output array, read at an index: row n of the 8192 x 512 array is row n of the
  bank as the launch finds it, divided by the larger of its Euclidean length and the floor constant. The body's value
  at an index (the lane sum of squares, its square root kept as a column, the floor, the column spread over the lanes,
  the quotient), each written block as the restriction of that one function of the bank, the blocks' cover of the array.
-/
import proofs.«111281_j10213432230334_1_alg».proof.Proof.KI.Reg2
import proofs.«111281_j10213432230334_1_alg».proof.Proof.Spec
import proofs.«111281_j10213432230334_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

-- the contents of the core's buffers when the region is entered
variable (V : (c : Dev nD) → (b : Ref sig .tc) → Buf (Elt Ideal) ((c : Thread nD τ).loc b))

namespace L2

/-- The lane sum of a 1024 x 512 vector at row r: the sum over the 512 lanes of the row's entries. -/
theorem laneSum2 (v : FVec Ideal S1024x512 .f32) (hφ : FKind.Formats .f32)
    (hacc : (0x00000000#32 : BitVec 32) = FKind.add.neutral .f32 hφ) (r : Fin 1024) :
    multiReduction (F := Ideal) .add [1] S1024 v 0x00000000#32 reduces_S1024x512_S1024 hφ hacc (ix1 r)
      = ∑ k : Fin 512, v (ix2 r k) := by
  refine (Ideal.multiReduction_add_single v 0x00000000#32 reduces_S1024x512_S1024 hφ hacc (ix1 r)).trans ?_
  refine Finset.sum_congr rfl fun k _ => congrArg v ?_
  funext a
  apply Fin.ext
  match a with
  | ⟨0, _⟩ => rfl
  | ⟨1, _⟩ => rfl

/-- A vector of 1024 entries recast as a column reads, at (r, 0), its entry r. -/
theorem castCol2 {α : Type} (x : S1024.Idx → α) (r : Fin 1024) :
    shapeCast S1024x1 x shapeCasts_S1024_S1024x1 (ix2 r (0 : Fin 1)) = x (ix1 r) :=
  shapeCast_apply x shapeCasts_S1024_S1024x1 (ix2 r (0 : Fin 1)) (ix1 r) (by
    rw [Shape.rowMajor_val_one, Shape.rowMajor_val_two]
    show r.val = r.val * 1 + 0
    omega)

/-- A column of 1024 entries spread over 512 lanes reads, at (r, e), its entry (r, 0). -/
theorem bcastCol2 {α : Type} (x : S1024x1.Idx → α) (r : Fin 1024) (e : Fin 512) :
    broadcastTo S1024x512 x broadcasts_S1024x1_S1024x512 (ix2 r e) = x (ix2 r (0 : Fin 1)) :=
  broadcastTo_apply x broadcasts_S1024x1_S1024x512 (ix2 r e) (ix2 r (0 : Fin 1)) (fun a => match a with
    | ⟨0, _⟩ => by show r.val = if (1024 : Nat) = 1 then 0 else r.val; rw [if_neg (by decide)]
    | ⟨1, _⟩ => by show (0 : Nat) = if (1 : Nat) = 1 then 0 else e.val; rw [if_pos rfl])

/-- The column of floored row lengths the body computes from its block. -/
def rowLen2 (x0 : Vec Ideal S1024x512 .f32) : FVec Ideal S1024x1 .f32 :=
  maximumf (sqrt (shapeCast S1024x1 (multiReduction (F := Ideal) .add [1] S1024 (mulf x0 x0) 0x00000000#32 reduces_S1024x512_S1024 (.inl rfl) rfl) shapeCasts_S1024_S1024x1))
    (broadcast S1024x1 (Scalar.ofBits (F := Ideal) .f32 0x322BCC77#32))

/-- It is, at row r, the floored length of the row. -/
theorem rowLen2_apply (x0 : Vec Ideal S1024x512 .f32) (r : Fin 1024) :
    rowLen2 x0 (ix2 r (0 : Fin 1)) = Cert.Spec.len (fun k => x0 (ix2 r k)) := by
  show max (Ideal.sqrt (shapeCast S1024x1 (multiReduction (F := Ideal) .add [1] S1024 (mulf x0 x0) 0x00000000#32 reduces_S1024x512_S1024 (.inl rfl) rfl) shapeCasts_S1024_S1024x1 (ix2 r (0 : Fin 1))))
    (Ideal.ofBits .f32 0x322BCC77#32) = _
  rw [castCol2]
  exact congrArg (fun s => max (Ideal.sqrt s) (Ideal.ofBits .f32 0x322BCC77#32)) (laneSum2 (mulf x0 x0) (.inl rfl) rfl r)

/-- The body's value at (r, e): entry e of row r of the block divided by the row's floored length. -/
theorem pay2_apply (x0 : Vec Ideal S1024x512 .f32) (r : Fin 1024) (e : Fin 512) :
    k2_pay1 (F := Ideal) x0 (ix2 r e) = Cert.Spec.unit (fun k => x0 (ix2 r k)) e := by
  have hlen : broadcastTo S1024x512 (rowLen2 x0) broadcasts_S1024x1_S1024x512 (ix2 r e) = Cert.Spec.len (fun k => x0 (ix2 r k)) :=
    (bcastCol2 (rowLen2 x0) r e).trans (rowLen2_apply x0 r)
  exact congrArg (Ideal.div (x0 (ix2 r e))) hlen

theorem hz2 : (![0, 0] : Fin 2 → Nat) = fun _ => 0 := funext fun a => by fin_cases a <;> rfl

/-- What the output block holds after the body, at (r, e): entry e of row r of the input block over the row's floored
    length. -/
theorem out2_apply (x0 : Vec Ideal S1024x512 .f32) (r : Fin 1024) (e : Fin 512) :
    out2_1 x0 (ix2 r e) = Cert.Spec.unit (fun k => x0 (ix2 r k)) e := by
  unfold out2_1
  rw [View.canon_unit_zero hz2]
  simp only [View.ld_unit_zero (S := S1024x512) hz2]
  exact pay2_apply x0 r e

/-- The whole output array as one function of the bank: every row divided by its floored length. -/
def G2 (A : S8192x512.Idx → EReal) : S8192x512.Idx → EReal :=
  fun i => Cert.Spec.unit (fun k => A (ix2 (i 0) k)) (i 1)

theorem G2_apply (A : S8192x512.Idx → EReal) (n : Fin 8192) (e : Fin 512) :
    G2 A (ix2 n e) = Cert.Spec.unit (fun k => A (ix2 n k)) e := rfl

/-- The two block index maps over the grid: both windows are at row block t at point t. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- An entry of the input block at a point is the bank's, at the block's rows. -/
theorem iblk2_0_apply (c : Dev nD) (t : Fin cfg2.N) (r : Fin 1024) (e : Fin 512) (n : Fin 8192)
    (hn : n.val = t.val * 1024 + r.val) :
    (iblk2 V c 0 t : Vec Ideal S1024x512 .f32) (ix2 r e) = (V c main_arg2 : S8192x512.Idx → EReal) (ix2 n e) := by
  obtain ⟨h0, h1, -⟩ := idx_facts2 t
  unfold iblk2
  rw [View.read_apply]
  show V c main_arg2 _ = V c main_arg2 _
  congr 1
  funext a
  apply Fin.ext
  match a with
  | ⟨0, _⟩ => show win2_0.index t (0 : Fin 2) * 1024 + 1 * r.val = n.val; omega
  | ⟨1, _⟩ => show win2_0.index t (1 : Fin 2) * 512 + 1 * e.val = e.val; omega

/-- The output block a point leaves, at (r, e), is the whole-array function at the block's place. -/
theorem out2_blk (c : Dev nD) (t : Fin cfg2.N) (r : Fin 1024) (e : Fin 512) (n : Fin 8192)
    (hn : n.val = t.val * 1024 + r.val) :
    out2_1 (iblk2 V c 0 t) (ix2 r e) = G2 (V c main_arg2) (ix2 n e) := by
  refine (out2_apply (iblk2 V c 0 t) r e).trans ?_
  rw [G2_apply]
  exact congrArg (fun x : Fin 512 → EReal => Cert.Spec.unit x e) (funext fun k => iblk2_0_apply V c t r k n hn)

/-- What a point writes back is its block of the whole-array function. -/
theorem flushed2_eq (c : Dev nD) (t : Fin cfg2.N) :
    (dat2 (F := Ideal) V c).flushed 1 t
      = ((cfg2.win 1).blk t).view.read (Elt Ideal) (G2 (V c main_arg2)) := by
  show (cfg2.win 1).cut (grid2.coords t) ((dat2 V c).after 1 t) = _
  rw [after2_1]
  obtain ⟨-, -, h0, h1⟩ := idx_facts2 t
  have ht : t.val < 8 := lt_of_lt_of_eq t.isLt N_2
  funext y
  have hy0 : (y 0).val < 1024 := (y 0).isLt
  have hy1 : (y 1).val < 512 := (y 1).isLt
  have hx : (cfg2.win 1).xinj (grid2.coords t) y = ix2 (⟨(y 0).val, hy0⟩ : Fin 1024) (⟨(y 1).val, hy1⟩ : Fin 512) :=
    funext fun a => match a with | ⟨0, _⟩ => rfl | ⟨1, _⟩ => rfl
  have hemb : ((cfg2.win 1).blk t).view.emb y
      = ix2 (⟨t.val * 1024 + (y 0).val, by omega⟩ : Fin 8192) (⟨(y 1).val, hy1⟩ : Fin 512) := by
    funext a
    apply Fin.ext
    match a with
    | ⟨0, _⟩ => show win2_1.index t (0 : Fin 2) * 1024 + 1 * (y 0).val = t.val * 1024 + (y 0).val; omega
    | ⟨1, _⟩ => show win2_1.index t (1 : Fin 2) * 512 + 1 * (y 1).val = (y 1).val; omega
  show out2_1 (iblk2 V c 0 t) ((cfg2.win 1).xinj (grid2.coords t) y) = _
  refine (congrArg (out2_1 (iblk2 V c 0 t)) hx).trans ?_
  refine (out2_blk V c t ⟨(y 0).val, hy0⟩ ⟨(y 1).val, hy1⟩ ⟨t.val * 1024 + (y 0).val, by omega⟩ rfl).trans ?_
  rw [View.read_apply]
  exact congrArg (G2 (V c main_arg2)) hemb.symm

/-- An index of the array is in a point's block iff each coordinate is in the block's range on its axis. -/
theorem mem_blk2 (t : Fin cfg2.N) (i : S8192x512.Idx) :
    i ∈ ((cfg2.win 1).blk t).view.set ↔ ∀ a : Fin 2, win2_1.index t a * S1024x512.size a ≤ (i a).val
      ∧ (i a).val < win2_1.index t a * S1024x512.size a + S1024x512.size a := by
  show i ∈ ((View.whole main_v13).slice (win2_1.rect t)).set ↔ _
  rw [View.set_slice_whole, Rect.mem_set_unit]
  exact Iff.rfl

/-- The blocks cover the array: row n lies in the block of point n / 1024. -/
theorem cover2 (i : S8192x512.Idx) :
    ∃ t : Fin cfg2.N, (cfg2.win 1).flush t = true ∧ i ∈ ((cfg2.win 1).blk t).view.set := by
  have hi0 : (i 0).val < 8192 := (i 0).isLt
  have hi1 : (i 1).val < 512 := (i 1).isLt
  obtain ⟨t, ht⟩ : ∃ t : Fin cfg2.N, t.val = (i 0).val / 1024 :=
    ⟨⟨(i 0).val / 1024, by rw [show cfg2.N = 8 from N_2]; omega⟩, rfl⟩
  obtain ⟨-, -, h0, h1⟩ := idx_facts2 t
  refine ⟨t, flush2_1 t, ?_⟩
  rw [mem_blk2]
  intro a
  match a with
  | ⟨0, _⟩ =>
    show win2_1.index t (0 : Fin 2) * 1024 ≤ (i 0).val ∧ (i 0).val < win2_1.index t (0 : Fin 2) * 1024 + 1024
    omega
  | ⟨1, _⟩ =>
    show win2_1.index t (1 : Fin 2) * 512 ≤ (i 1).val ∧ (i 1).val < win2_1.index t (1 : Fin 2) * 512 + 512
    omega

/-- The output array after the launch is the whole-array function of the bank as found. -/
theorem final2 (c : Dev nD) : (dat2 (F := Ideal) V c).arrAt 1 cfg2.N = G2 (V c main_arg2) :=
  (dat2 V c).arrAt_eq_of_cover 1 (G2 (V c main_arg2)) (fun t _ => flushed2_eq V c t) cover2

end L2

/-- The output array after the launch, at (n, e): entry e of row n of the bank over the row's floored length. -/
theorem val2_1 (c : Dev nD) (n : Fin 8192) (e : Fin 512) :
    ((dat2 (F := Ideal) V c).arrAt 1 cfg2.N : S8192x512.Idx → EReal) (ix2 n e)
      = Cert.Spec.unit (fun e => (V c main_arg2 : S8192x512.Idx → EReal) (ix2 n e)) e :=
  (congrFun (L2.final2 V c) (ix2 n e)).trans (L2.G2_apply (V c main_arg2) n e)

end Cert.KernelIdeal.HandVal

end
-- ==== Proof.KI.Val3.lean ====
/-
  What the fourth launch leaves in its output array, read at an index: entry (b, j) of the 2048 x 8192 array is the
  inner product over the 512 coordinates of row b of the left array and row j of the right array, both as the launch
  finds them. The block product at an index (the right block transposed, the product into the zero accumulator), each
  written block as the restriction of that one function of the two arrays, the blocks' cover of the array.
-/
import proofs.«111281_j10213432230334_1_alg».proof.Proof.KI.Reg3
import proofs.«111281_j10213432230334_1_alg».proof.Proof.Spec
import proofs.«111281_j10213432230334_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

-- the contents of the core's buffers when the region is entered
variable (V : (c : Dev nD) → (b : Ref sig .tc) → Buf (Elt Ideal) ((c : Thread nD τ).loc b))

namespace L3

/-- The product's shape record is the plain rows x contraction by contraction x columns one. -/
theorem dot3_plain : dot_S256x512_S512x1024_S256x1024_1_0_0_1_n_n = DotDims.plain 256 512 1024 := rfl

/-- The block product at (r, q): row r of the left block against row q of the right block. -/
theorem pay3_apply (x0 : Vec Ideal S256x512 .f32) (x1 : Vec Ideal S1024x512 .bf16) (r : Fin 256) (q : Fin 1024) :
    k3_pay1 (F := Ideal) x0 x1 (ix2 r q) = ∑ e : Fin 512, x0 (ix2 r e) * x1 (ix2 q e) := by
  have hl : ∀ e : Fin 512, (truncf .bf16 (shapeCast S256x512 x0 shapeCasts_S256x512_S256x512) bitsLt_bf16_f32 : FVec Ideal S256x512 .bf16) (ix2 r e) = x0 (ix2 r e) := fun e => by
    rw [shapeCast_self]; rfl
  have hr : ∀ e : Fin 512, (transpose S512x1024 [1, 0] (shapeCast S1024x512 x1 shapeCasts_S1024x512_S1024x512) transposes_S1024x512_p1_0_S512x1024 : FVec Ideal S512x1024 .bf16) (ix2 e q) = x1 (ix2 q e) := fun e => by
    rw [shapeCast_self]; exact transpose_ix2_apply x1 _ e q
  show matmul dot_S256x512_S512x1024_S256x1024_1_0_0_1_n_n none _ _ (constant S256x1024 .f32 0x00000000#32) (ix2 r q) = _
  rw [dot3_plain]
  refine (Cert.LibPlainDot.matmul_plain_apply 256 512 1024 _ _ r q).trans ?_
  exact Finset.sum_congr rfl fun e _ => by rw [hl e, hr e]

theorem hz3 : (![0, 0] : Fin 2 → Nat) = fun _ => 0 := funext fun a => by fin_cases a <;> rfl

/-- What the output block holds after the body, at (r, q): row r of the left block against row q of the right one. -/
theorem out3_apply (x0 : Vec Ideal S256x512 .f32) (x1 : Vec Ideal S1024x512 .bf16) (r : Fin 256) (q : Fin 1024) :
    out3_2 x0 x1 (ix2 r q) = ∑ e : Fin 512, x0 (ix2 r e) * x1 (ix2 q e) := by
  unfold out3_2
  rw [View.canon_unit_zero hz3]
  simp only [View.ld_unit_zero (S := S256x512) hz3, View.ld_unit_zero (S := S1024x512) hz3]
  exact pay3_apply x0 x1 r q

/-- The whole output array as one function of the two input arrays: every row of the left against every row of the
    right. -/
def G3 (A : S2048x512.Idx → EReal) (B : S8192x512.Idx → EReal) : S2048x8192.Idx → EReal :=
  fun i => Cert.Spec.cross (fun b e => A (ix2 b e)) (fun j e => B (ix2 j e)) (i 0) (i 1)

theorem G3_apply (A : S2048x512.Idx → EReal) (B : S8192x512.Idx → EReal) (b : Fin 2048) (j : Fin 8192) :
    G3 A B (ix2 b j) = Cert.Spec.cross (fun b e => A (ix2 b e)) (fun j e => B (ix2 j e)) b j := rfl

/-- The three block index maps over the grid: the left block follows the output's row block, the right block the
    output's column block, and the output's blocks run through the grid row block first. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-- An entry of the left block at a point is the left array's, at the block's rows. -/
theorem iblk3_0_apply (c : Dev nD) (t : Fin cfg3.N) (r : Fin 256) (e : Fin 512) (b : Fin 2048)
    (hb : b.val = t.val / 8 * 256 + r.val) :
    (iblk3 V c 0 t : Vec Ideal S256x512 .f32) (ix2 r e) = (V c main_v12_0 : S2048x512.Idx → EReal) (ix2 b e) := by
  obtain ⟨h0, h1, -⟩ := idx_facts3 t
  unfold iblk3
  rw [View.read_apply]
  show V c main_v12_0 _ = V c main_v12_0 _
  congr 1
  funext a
  apply Fin.ext
  match a with
  | ⟨0, _⟩ => show win3_0.index t (0 : Fin 2) * 256 + 1 * r.val = b.val; omega
  | ⟨1, _⟩ => show win3_0.index t (1 : Fin 2) * 512 + 1 * e.val = e.val; omega

/-- An entry of the right block at a point is the right array's, at the block's rows. -/
theorem iblk3_1_apply (c : Dev nD) (t : Fin cfg3.N) (q : Fin 1024) (e : Fin 512) (j : Fin 8192)
    (hj : j.val = t.val % 8 * 1024 + q.val) :
    (iblk3 V c 1 t : Vec Ideal S1024x512 .bf16) (ix2 q e) = (V c main_v13 : S8192x512.Idx → EReal) (ix2 j e) := by
  obtain ⟨-, -, h0, h1, -⟩ := idx_facts3 t
  unfold iblk3
  rw [View.read_apply]
  show V c main_v13 _ = V c main_v13 _
  congr 1
  funext a
  apply Fin.ext
  match a with
  | ⟨0, _⟩ => show win3_1.index t (0 : Fin 2) * 1024 + 1 * q.val = j.val; omega
  | ⟨1, _⟩ => show win3_1.index t (1 : Fin 2) * 512 + 1 * e.val = e.val; omega

/-- The output block a point leaves, at (r, q), is the whole-array function at the block's place. -/
theorem out3_blk (c : Dev nD) (t : Fin cfg3.N) (r : Fin 256) (q : Fin 1024) (b : Fin 2048) (j : Fin 8192)
    (hb : b.val = t.val / 8 * 256 + r.val) (hj : j.val = t.val % 8 * 1024 + q.val) :
    out3_2 (iblk3 V c 0 t) (iblk3 V c 1 t) (ix2 r q)
      = G3 (V c main_v12_0) (V c main_v13) (ix2 b j) := by
  refine (out3_apply (iblk3 V c 0 t) (iblk3 V c 1 t) r q).trans ?_
  rw [G3_apply]
  unfold Cert.Spec.cross
  exact Finset.sum_congr rfl fun e _ => by
    rw [iblk3_0_apply V c t r e b hb, iblk3_1_apply V c t q e j hj]

/-- What a point writes back is its block of the whole-array function. -/
theorem flushed3_eq (c : Dev nD) (t : Fin cfg3.N) :
    (dat3 (F := Ideal) V c).flushed 2 t
      = ((cfg3.win 2).blk t).view.read (Elt Ideal) (G3 (V c main_v12_0) (V c main_v13)) := by
  show (cfg3.win 2).cut (grid3.coords t) ((dat3 V c).after 2 t) = _
  rw [after3_2]
  obtain ⟨-, -, -, -, h0, h1⟩ := idx_facts3 t
  have ht : t.val < 64 := lt_of_lt_of_eq t.isLt N_3
  funext y
  have hy0 : (y 0).val < 256 := (y 0).isLt
  have hy1 : (y 1).val < 1024 := (y 1).isLt
  have hx : (cfg3.win 2).xinj (grid3.coords t) y = ix2 (⟨(y 0).val, hy0⟩ : Fin 256) (⟨(y 1).val, hy1⟩ : Fin 1024) :=
    funext fun a => match a with | ⟨0, _⟩ => rfl | ⟨1, _⟩ => rfl
  have hemb : ((cfg3.win 2).blk t).view.emb y
      = ix2 (⟨t.val / 8 * 256 + (y 0).val, by omega⟩ : Fin 2048) (⟨t.val % 8 * 1024 + (y 1).val, by omega⟩ : Fin 8192) := by
    funext a
    apply Fin.ext
    match a with
    | ⟨0, _⟩ => show win3_2.index t (0 : Fin 2) * 256 + 1 * (y 0).val = t.val / 8 * 256 + (y 0).val; omega
    | ⟨1, _⟩ => show win3_2.index t (1 : Fin 2) * 1024 + 1 * (y 1).val = t.val % 8 * 1024 + (y 1).val; omega
  show out3_2 (iblk3 V c 0 t) (iblk3 V c 1 t) ((cfg3.win 2).xinj (grid3.coords t) y) = _
  refine (congrArg (out3_2 (iblk3 V c 0 t) (iblk3 V c 1 t)) hx).trans ?_
  refine (out3_blk V c t ⟨(y 0).val, hy0⟩ ⟨(y 1).val, hy1⟩ ⟨t.val / 8 * 256 + (y 0).val, by omega⟩
    ⟨t.val % 8 * 1024 + (y 1).val, by omega⟩ rfl rfl).trans ?_
  rw [View.read_apply]
  exact congrArg (G3 (V c main_v12_0) (V c main_v13)) hemb.symm

/-- An index of the array is in a point's block iff each coordinate is in the block's range on its axis. -/
theorem mem_blk3 (t : Fin cfg3.N) (i : S2048x8192.Idx) :
    i ∈ ((cfg3.win 2).blk t).view.set ↔ ∀ a : Fin 2, win3_2.index t a * S256x1024.size a ≤ (i a).val
      ∧ (i a).val < win3_2.index t a * S256x1024.size a + S256x1024.size a := by
  show i ∈ ((View.whole main_v14).slice (win3_2.rect t)).set ↔ _
  rw [View.set_slice_whole, Rect.mem_set_unit]
  exact Iff.rfl

/-- The blocks cover the array: entry (b, j) lies in the block of row block b / 256 and column block j / 1024. -/
theorem cover3 (i : S2048x8192.Idx) :
    ∃ t : Fin cfg3.N, (cfg3.win 2).flush t = true ∧ i ∈ ((cfg3.win 2).blk t).view.set := by
  have hi0 : (i 0).val < 2048 := (i 0).isLt
  have hi1 : (i 1).val < 8192 := (i 1).isLt
  obtain ⟨t, ht⟩ : ∃ t : Fin cfg3.N, t.val = (i 0).val / 256 * 8 + (i 1).val / 1024 :=
    ⟨⟨(i 0).val / 256 * 8 + (i 1).val / 1024, by rw [show cfg3.N = 64 from N_3]; omega⟩, rfl⟩
  obtain ⟨-, -, -, -, h0, h1⟩ := idx_facts3 t
  refine ⟨t, flush3_2 t, ?_⟩
  rw [mem_blk3]
  intro a
  match a with
  | ⟨0, _⟩ =>
    show win3_2.index t (0 : Fin 2) * 256 ≤ (i 0).val ∧ (i 0).val < win3_2.index t (0 : Fin 2) * 256 + 256
    omega
  | ⟨1, _⟩ =>
    show win3_2.index t (1 : Fin 2) * 1024 ≤ (i 1).val ∧ (i 1).val < win3_2.index t (1 : Fin 2) * 1024 + 1024
    omega

/-- The output array after the launch is the whole-array function of the two input arrays as found. -/
theorem final3 (c : Dev nD) : (dat3 (F := Ideal) V c).arrAt 2 cfg3.N = G3 (V c main_v12_0) (V c main_v13) :=
  (dat3 V c).arrAt_eq_of_cover 2 (G3 (V c main_v12_0) (V c main_v13)) (fun t _ => flushed3_eq V c t) cover3

end L3

/-- The output array after the launch, at (b, j): row b of the left array against row j of the right array. -/
theorem val3_2 (c : Dev nD) (b : Fin 2048) (j : Fin 8192) :
    ((dat3 (F := Ideal) V c).arrAt 2 cfg3.N : S2048x8192.Idx → EReal) (ix2 b j)
      = Cert.Spec.cross (fun b e => (V c main_v12_0 : S2048x512.Idx → EReal) (ix2 b e))
          (fun j e => (V c main_v13 : S8192x512.Idx → EReal) (ix2 j e)) b j :=
  (congrFun (L3.final3 V c) (ix2 b j)).trans (L3.G3_apply (V c main_v12_0) (V c main_v13) b j)

end Cert.KernelIdeal.HandVal

end
-- ==== Proof.KI.Glue.lean ====
/-
  The two results of the first program in terms of its argument arrays. Each launch's output array was read at an
  index as a function of the arrays the launch finds; the host operations between the launches were read off the
  program's text. Here these are chained: the second launch finds the batch, the per-feature mean and one-pass variance
  of the batch (the first launch's two rows divided by the batch size), the weight, shift and bias as single rows, and
  the weight matrix transposed; so its scale is the weight times the reciprocal square root of the one-pass variance
  plus the constant, its first output the clipped-and-scaled rows, its second output each row's cosine with the second
  batch. The third launch scales the bank's rows, the fourth multiplies every clipped-and-scaled row with every scaled
  bank row, and the closing reshapes lay the two outputs out as columns.
-/
import proofs.«111281_j10213432230334_1_alg».proof.Proof.KI.Fold
import proofs.«111281_j10213432230334_1_alg».proof.Proof.KI.Val0
import proofs.«111281_j10213432230334_1_alg».proof.Proof.KI.Val1
import proofs.«111281_j10213432230334_1_alg».proof.Proof.KI.Val2
import proofs.«111281_j10213432230334_1_alg».proof.Proof.KI.Val3
import proofs.«111281_j10213432230334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The argument arrays as plain families -/

/-- The batch. -/
abbrev kX (c : Dev nD) : Fin 2048 → Fin 4096 → EReal :=
  fun b d => (m ((c.tc : Thread nD τ).loc main_arg0) : S2048x4096.Idx → EReal) (ix2 b d)
/-- The second batch. -/
abbrev kP (c : Dev nD) : Fin 2048 → Fin 4096 → EReal :=
  fun b d => (m ((c.tc : Thread nD τ).loc main_arg1) : S2048x4096.Idx → EReal) (ix2 b d)
/-- The bank. -/
abbrev kNW (c : Dev nD) : Fin 8192 → Fin 512 → EReal :=
  fun j e => (m ((c.tc : Thread nD τ).loc main_arg2) : S8192x512.Idx → EReal) (ix2 j e)
/-- The per-feature weight. -/
abbrev kG (c : Dev nD) : Fin 4096 → EReal :=
  fun d => (m ((c.tc : Thread nD τ).loc main_arg3) : S4096.Idx → EReal) (ix1 d)
/-- The per-feature shift. -/
abbrev kSH (c : Dev nD) : Fin 4096 → EReal :=
  fun d => (m ((c.tc : Thread nD τ).loc main_arg4) : S4096.Idx → EReal) (ix1 d)
/-- The weight matrix, coordinate index first. -/
abbrev kW (c : Dev nD) : Fin 512 → Fin 4096 → EReal :=
  fun e d => (m ((c.tc : Thread nD τ).loc main_arg5) : S512x4096.Idx → EReal) (ix2 e d)
/-- The bias. -/
abbrev kB (c : Dev nD) : Fin 512 → EReal :=
  fun e => (m ((c.tc : Thread nD τ).loc main_arg6) : S512.Idx → EReal) (ix1 e)

namespace LG

/-! ## What the second launch finds, in terms of the argument arrays -/

/-- The first launch finds the batch in its input array. -/
theorem eX_V0 (c : Dev nD) : eX (Hand.V0 m ρ) c = kX m c := by
  funext b d
  show (Hand.V0 m ρ c main_arg0 : S2048x4096.Idx → EReal) (ix2 b d) = _
  rw [V0_arg0]

/-- The second launch finds the batch in its first input array. -/
theorem eX_V2 (c : Dev nD) : eX (Hand.V2 m ρ) c = kX m c := by
  funext b d
  show (Hand.V2 m ρ c main_arg0 : S2048x4096.Idx → EReal) (ix2 b d) = _
  rw [V2_arg0]

/-- The second launch finds the second batch in its second input array. -/
theorem eP_V2 (c : Dev nD) : eP (Hand.V2 m ρ) c = kP m c := by
  funext b d
  show (Hand.V2 m ρ c main_arg1 : S2048x4096.Idx → EReal) (ix2 b d) = _
  rw [V2_arg1]

/-- The row of batch sizes, at any index. -/
theorem batch_row (j : S1x4096.Idx) :
    (broadcastInDim S1x4096 ![] bcast_S_S1x4096 (constant (F := Ideal) S_ .f32 0x45000000#32) : S1x4096.Idx → EReal) j
      = Cert.Spec.batch := rfl

/-- The mean row at feature d is the batch's mean. -/
theorem eMU_V2 (c : Dev nD) (d : Fin 4096) : eMU (Hand.V2 m ρ) c d = Cert.Spec.mean (kX m c) d := by
  show (Hand.V2 m ρ c main_v2 : S1x4096.Idx → EReal) (ix2 0 d) = _
  rw [V2_v2]
  show Ideal.div ((Hand.V1 m ρ c main_v0_0 : S1x4096.Idx → EReal) (ix2 0 d)) Cert.Spec.batch = _
  rw [V1_v0_0, val0_1 (Hand.V0 m ρ) c d]
  show Ideal.div (Cert.Spec.colSum (eX (Hand.V0 m ρ) c) d) Cert.Spec.batch = _
  rw [eX_V0]
  rfl

/-- The variance row at feature d is the batch's one-pass variance. -/
theorem eVAR_V2 (c : Dev nD) (d : Fin 4096) : eVAR (Hand.V2 m ρ) c d = Cert.Spec.varOne (kX m c) d := by
  show (Hand.V2 m ρ c main_v6 : S1x4096.Idx → EReal) (ix2 0 d) = _
  rw [V2_v6]
  show Ideal.div ((Hand.V1 m ρ c main_v0_1 : S1x4096.Idx → EReal) (ix2 0 d)) Cert.Spec.batch
      - eMU (Hand.V2 m ρ) c d * eMU (Hand.V2 m ρ) c d = _
  rw [V1_v0_1, val0_2 (Hand.V0 m ρ) c d, eMU_V2]
  show Ideal.div (Cert.Spec.colSumSq (eX (Hand.V0 m ρ) c) d) Cert.Spec.batch - _ = _
  rw [eX_V0]
  rfl

/-- The weight row at feature d. -/
theorem eG_V2 (c : Dev nD) (d : Fin 4096) : eG (Hand.V2 m ρ) c d = kG m c d := by
  show (Hand.V2 m ρ c main_v7 : S1x4096.Idx → EReal) (ix2 0 d) = _
  rw [V2_v7]
  exact shapeCast_a_1a_apply _ _ 0 d

/-- The shift row at feature d. -/
theorem eSH_V2 (c : Dev nD) (d : Fin 4096) : eSH (Hand.V2 m ρ) c d = kSH m c d := by
  show (Hand.V2 m ρ c main_v8 : S1x4096.Idx → EReal) (ix2 0 d) = _
  rw [V2_v8]
  exact shapeCast_a_1a_apply _ _ 0 d

/-- The bias row at coordinate e. -/
theorem eB_V2 (c : Dev nD) (e : Fin 512) : eB (Hand.V2 m ρ) c e = kB m c e := by
  show (Hand.V2 m ρ c main_v9 : S1x512.Idx → EReal) (ix2 0 e) = _
  rw [V2_v9]
  exact shapeCast_a_1a_apply _ _ 0 e

/-- The transposed weight matrix at (d, e). -/
theorem eWT_V2 (c : Dev nD) (d : Fin 4096) (e : Fin 512) : eWT (Hand.V2 m ρ) c d e = kW m c e d := by
  show (Hand.V2 m ρ c main_v11 : S4096x512.Idx → EReal) (ix2 d e) = _
  rw [V2_v11]
  show (transpose S4096x512 [1, 0] (m ((c : Thread nD τ).loc main_arg5)) transposes_S512x4096_S4096x512_1_0 : S4096x512.Idx → EReal) (ix2 d e) = _
  exact transpose_ix2_apply _ _ d e

/-- The scale the second launch computes is the first program's scale of the batch. -/
theorem eSC_V2 (c : Dev nD) : eSC (Hand.V2 m ρ) c = Cert.Spec.scaleOne (kX m c) (kG m c) := by
  funext d
  show eG (Hand.V2 m ρ) c d * Ideal.rsqrt (eVAR (Hand.V2 m ρ) c d + Cert.Spec.epsVar) = _
  rw [eG_V2, eVAR_V2]
  rfl

/-- The normalised batch the second launch forms. -/
theorem normed_V2 (c : Dev nD) :
    Cert.Spec.normed (eX (Hand.V2 m ρ) c) (eMU (Hand.V2 m ρ) c) (eSC (Hand.V2 m ρ) c) (eSH (Hand.V2 m ρ) c)
      = Cert.Spec.normed (kX m c) (Cert.Spec.mean (kX m c)) (Cert.Spec.scaleOne (kX m c) (kG m c)) (kSH m c) := by
  rw [eX_V2, eSC_V2, show eMU (Hand.V2 m ρ) c = Cert.Spec.mean (kX m c) from funext (eMU_V2 m ρ c),
    show eSH (Hand.V2 m ρ) c = kSH m c from funext (eSH_V2 m ρ c)]

/-! ## The launches' outputs in terms of the argument arrays -/

/-- The clipped-and-scaled rows the second launch writes, at (b, e). -/
theorem v12_0_apply (c : Dev nD) (b : Fin 2048) (e : Fin 512) :
    (Hand.V4 m ρ c main_v12_0 : S2048x512.Idx → EReal) (ix2 b e)
      = Cert.Spec.embUnit (Cert.Spec.normed (kX m c) (Cert.Spec.mean (kX m c)) (Cert.Spec.scaleOne (kX m c) (kG m c)) (kSH m c))
          (fun d e => kW m c e d) (kB m c) b e := by
  rw [V4_v12_0, val1_8 (Hand.V2 m ρ) c b e, normed_V2,
    show eWT (Hand.V2 m ρ) c = (fun d e => kW m c e d) from funext fun d => funext fun e => eWT_V2 m ρ c d e,
    show eB (Hand.V2 m ρ) c = kB m c from funext (eB_V2 m ρ c)]

/-- The scaled bank rows the third launch writes, at (j, e). -/
theorem v13_apply (c : Dev nD) (j : Fin 8192) (e : Fin 512) :
    (Hand.V4 m ρ c main_v13 : S8192x512.Idx → EReal) (ix2 j e) = Cert.Spec.unit (kNW m c j) e := by
  rw [V4_v13, val2_1 (Hand.V3 m ρ) c j e]
  show Cert.Spec.unit (fun e => (Hand.V3 m ρ c main_arg2 : S8192x512.Idx → EReal) (ix2 j e)) e = _
  rw [V3_arg2]

/-- The products the fourth launch writes, at (b, j): the first result before it is laid out as a column. -/
theorem v14_apply (c : Dev nD) (b : Fin 2048) (j : Fin 8192) :
    (W5 m ρ c (Proc.devRef .tc main_v14) : S2048x8192.Idx → EReal) (ix2 b j)
      = Cert.Spec.resNE (kX m c) (kNW m c) (Cert.Spec.scaleOne (kX m c) (kG m c)) (kSH m c) (kW m c) (kB m c) b j := by
  rw [W5_v14, val3_2 (Hand.V4 m ρ) c b j]
  unfold Cert.Spec.resNE
  congr 1
  · funext b e; exact v12_0_apply m ρ c b e
  · funext j e; exact v13_apply m ρ c j e

/-- The cosines the second launch writes, at row b: the second result before it is repeated and laid out as a column. -/
theorem v12_1_apply (c : Dev nD) (b : Fin 2048) :
    (W5 m ρ c (Proc.devRef .tc main_v12_1) : S2048x1.Idx → EReal) (ix2 b 0)
      = Cert.Spec.resPE (kX m c) (kP m c) (Cert.Spec.scaleOne (kX m c) (kG m c)) (kSH m c) b := by
  rw [W5_v12_1, val1_9 (Hand.V2 m ρ) c b, normed_V2, eP_V2]
  rfl

/-- A one-column array laid out as a vector reads, at b, the array at (b, 0). -/
theorem shapeCast_n1_n_apply {n : ℕ} {α : Type} (x : (⟨2, ![n, 1]⟩ : Shape).Idx → α)
    (h : (⟨2, ![n, 1]⟩ : Shape).ShapeCasts ⟨1, ![n]⟩) (b : Fin n) :
    shapeCast ⟨1, ![n]⟩ x h (ix1 b) = x (ix2 b (0 : Fin 1)) :=
  shapeCast_apply x h _ _ (by
    rw [Shape.rowMajor_val_two, Shape.rowMajor_val_one]
    show b.val * 1 + 0 = b.val
    omega)

end LG

/-! ## The two results -/

/-- The first result: the products of every clipped-and-scaled row with every scaled bank row, laid out as a column. -/
theorem out0_eq (c : Dev nD) :
    W6 m ρ c (Proc.devRef .tc main_v15)
      = shapeCast S16777216x1 (fun i : S2048x8192.Idx => Cert.Spec.resNE (kX m c) (kNW m c)
          (Cert.Spec.scaleOne (kX m c) (kG m c)) (kSH m c) (kW m c) (kB m c) (i 0) (i 1)) shapeCasts_S2048x8192_S16777216x1 := by
  rw [W6_v15]
  congr 1
  funext i
  rw [eq_ix2 i]
  exact LG.v14_apply m ρ c (i 0) (i 1)

/-- The second result: each row's cosine, repeated along the bank and laid out as a column. -/
theorem out1_eq (c : Dev nD) :
    W6 m ρ c (Proc.devRef .tc main_v19)
      = shapeCast S16777216x1 (shapeCast S16777216 (broadcastInDim (s := S2048) S2048x8192 ![0] bcast_S2048_S2048x8192_0
          (fun i : S2048.Idx => Cert.Spec.resPE (kX m c) (kP m c) (Cert.Spec.scaleOne (kX m c) (kG m c)) (kSH m c) (i 0)))
          shapeCasts_S2048x8192_S16777216) shapeCasts_S16777216_S16777216x1 := by
  rw [W6_v19]
  congr 3
  funext i
  rw [eq_ix1 i]
  exact (LG.shapeCast_n1_n_apply _ _ (i 0)).trans (LG.v12_1_apply m ρ c (i 0))

end Cert.KernelIdeal.HandVal

end
-- ==== Proof.RefVal.lean ====
/-
  What the second program's two results hold, read index by index as the specification's functions of the argument
  arrays.

  Each intermediate array of the program is read at an index: the per-feature mean (the column sum over the batch size),
  the centred batch, the mean of the squared deviations, the per-feature scale (the weight over the square root of that
  variance plus a constant), the normalised batch, its image under the affine map clipped at zero, the floored row
  lengths, the rows divided by them, and the bank rows divided by theirs. The first result is every clipped-and-scaled
  row against every scaled bank row, laid out as a column; the second is each row's cosine with the second batch,
  repeated along a new axis and laid out as a column. Every sum stands in the order and grouping the specification has
  it; beyond dropping the zero each sum starts from, no law of arithmetic is used.
-/
import proofs.«111281_j10213432230334_1_alg».proof.Proof.Gen.ReferenceIdeal.Read
import proofs.«111281_j10213432230334_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## Arrays as plain families -/

/-- A rank-two array as a family over its two coordinates. -/
abbrev fam2 {n0 n1 : Nat} (x : (⟨2, ![n0, n1]⟩ : Shape).Idx → EReal) : Fin n0 → Fin n1 → EReal := fun a b => x (ix2 a b)
/-- A rank-one array as a family over its coordinate. -/
abbrev fam1 {n : Nat} (x : (⟨1, ![n]⟩ : Shape).Idx → EReal) : Fin n → EReal := fun a => x (ix1 a)

/-! ## The batch statistics -/

section stages

variable (x0 x1 : (⟨S2048x4096, .f32⟩ : BufTy).Contents (Elt Ideal)) (x2 : (⟨S8192x512, .f32⟩ : BufTy).Contents (Elt Ideal))
  (x3 x4 : (⟨S4096, .f32⟩ : BufTy).Contents (Elt Ideal)) (x5 : (⟨S512x4096, .f32⟩ : BufTy).Contents (Elt Ideal))
  (x6 : (⟨S512, .f32⟩ : BufTy).Contents (Elt Ideal))

/-- The per-feature mean: the column sum, started from zero, over the batch size. -/
theorem mean_at (d : Fin 4096) : val_main_v2 (F := Ideal) x0 (ix1 d) = Cert.Spec.mean (fam2 x0) d := by
  rw [val_main_v2_apply, val_main_v0_apply, val_main_v1_apply]
  simp only [val_main_cst_apply, val_main_cst_0_apply, Ideal.ofBits_def, Ideal.hostDivf_def, Ideal.ofBits_zero_f32, zero_add]
  unfold Cert.Spec.mean Cert.Spec.colSum
  refine congrArg (fun s => Ideal.div s _) (Finset.sum_congr rfl fun k _ => congrArg x0 ?_)
  funext a; match a with | ⟨0, _⟩ => rfl | ⟨1, _⟩ => rfl

/-- The mean repeated down the batch reads the feature's mean in every row (its first use). -/
theorem meanRow_at (b : Fin 2048) (d : Fin 4096) : val_main_v4 (F := Ideal) x0 (ix2 b d) = Cert.Spec.mean (fam2 x0) d := by
  rw [val_main_v4_apply, val_main_v3_apply]
  exact (congrArg (val_main_v2 (F := Ideal) x0) (by funext a; match a with | ⟨0, _⟩ => rfl)).trans (mean_at x0 d)

/-- The same for its second use. -/
theorem meanRow'_at (b : Fin 2048) (d : Fin 4096) : val_main_v11 (F := Ideal) x0 (ix2 b d) = Cert.Spec.mean (fam2 x0) d := by
  rw [val_main_v11_apply, val_main_v10_apply]
  exact (congrArg (val_main_v2 (F := Ideal) x0) (by funext a; match a with | ⟨0, _⟩ => rfl)).trans (mean_at x0 d)

/-- The centred batch under the variance. -/
theorem centred_at (b : Fin 2048) (d : Fin 4096) :
    val_main_v5 (F := Ideal) x0 (ix2 b d) = x0 (ix2 b d) - Cert.Spec.mean (fam2 x0) d := by
  rw [val_main_v5_apply, meanRow_at, Ideal.subf_def]

/-- The centred batch under the scale. -/
theorem centred'_at (b : Fin 2048) (d : Fin 4096) :
    val_main_v12 (F := Ideal) x0 (ix2 b d) = x0 (ix2 b d) - Cert.Spec.mean (fam2 x0) d := by
  rw [val_main_v12_apply, meanRow'_at, Ideal.subf_def]

/-- The variance: the sum of the squared deviations, started from zero, over the batch size. -/
theorem var_at (d : Fin 4096) : val_main_v9 (F := Ideal) x0 (ix1 d) = Cert.Spec.varTwo (fam2 x0) d := by
  rw [val_main_v9_apply, val_main_v7_apply, val_main_v8_apply]
  simp only [val_main_cst_1_apply, val_main_cst_2_apply, Ideal.ofBits_def, Ideal.hostDivf_def, Ideal.ofBits_zero_f32, zero_add]
  unfold Cert.Spec.varTwo
  refine congrArg (fun s => Ideal.div s _) (Finset.sum_congr rfl fun k _ => ?_)
  have e : idx_main_v7 (ix1 d) k = ix2 k d := by funext a; match a with | ⟨0, _⟩ => rfl | ⟨1, _⟩ => rfl
  rw [e, val_main_v6_apply, centred_at, Ideal.mulf_def]

/-- The per-feature scale: the weight over the square root of the variance plus the constant. -/
theorem scale_at (d : Fin 4096) :
    val_main_v16 (F := Ideal) x0 x3 (ix1 d) = Cert.Spec.scaleTwo (fam2 x0) (fam1 x3) d := by
  rw [val_main_v16_apply, val_main_v15_apply, val_main_v14_apply, var_at, val_main_v13_apply]
  simp only [val_main_cst_3_apply, Ideal.ofBits_def, Ideal.hostDivf_def, Ideal.hostUnary_sqrt_def, Ideal.addf_def]
  rfl

/-- The scale repeated down the batch. -/
theorem scaleRow_at (b : Fin 2048) (d : Fin 4096) :
    val_main_v18 (F := Ideal) x0 x3 (ix2 b d) = Cert.Spec.scaleTwo (fam2 x0) (fam1 x3) d := by
  rw [val_main_v18_apply, val_main_v17_apply]
  exact (congrArg (val_main_v16 (F := Ideal) x0 x3) (by funext a; match a with | ⟨0, _⟩ => rfl)).trans (scale_at x0 x3 d)

/-- The shift repeated down the batch. -/
theorem shiftRow_at (b : Fin 2048) (d : Fin 4096) : val_main_v21 (F := Ideal) x4 (ix2 b d) = x4 (ix1 d) := by
  rw [val_main_v21_apply, val_main_v20_apply]
  exact congrArg x4 (by funext a; match a with | ⟨0, _⟩ => rfl)

/-- The normalised batch as the specification has it, from the arrays. -/
abbrev nrm : Fin 2048 → Fin 4096 → EReal :=
  Cert.Spec.normed (fam2 x0) (Cert.Spec.mean (fam2 x0)) (Cert.Spec.scaleTwo (fam2 x0) (fam1 x3)) (fam1 x4)

/-- The normalised batch: centred, scaled, shifted. -/
theorem normed_at (b : Fin 2048) (d : Fin 4096) : val_main_v22 (F := Ideal) x0 x3 x4 (ix2 b d) = nrm x0 x3 x4 b d := by
  rw [val_main_v22_apply, val_main_v19_apply, centred'_at, scaleRow_at, shiftRow_at]
  simp only [Ideal.addf_def, Ideal.mulf_def]
  rfl

/-! ## The affine map, the clip, and the floored lengths -/

/-- The transposed weight matrix at (d, e) is the matrix at (e, d). -/
theorem weightT_at (d : Fin 4096) (e : Fin 512) : val_main_v23 (F := Ideal) x5 (ix2 d e) = x5 (ix2 e d) := by
  rw [val_main_v23_apply]
  exact congrArg x5 (by funext a; match a with | ⟨0, _⟩ => rfl | ⟨1, _⟩ => rfl)

/-- The bias repeated down the batch. -/
theorem biasRow_at (b : Fin 2048) (e : Fin 512) : val_main_v26 (F := Ideal) x6 (ix2 b e) = x6 (ix1 e) := by
  rw [val_main_v26_apply, val_main_v25_apply]
  exact congrArg x6 (by funext a; match a with | ⟨0, _⟩ => rfl)

/-- The product of the normalised batch with the transposed weights: the sum over the features. -/
theorem affine_at (b : Fin 2048) (e : Fin 512) :
    val_main_v24 (F := Ideal) x0 x3 x4 x5 (ix2 b e) = ∑ d, nrm x0 x3 x4 b d * x5 (ix2 e d) := by
  rw [val_main_v24_apply]
  refine Finset.sum_congr rfl fun k _ => ?_
  have el : lidx_main_v24 (ix2 b e) k = ix2 b k := by funext a; match a with | ⟨0, _⟩ => rfl | ⟨1, _⟩ => rfl
  have er : ridx_main_v24 (ix2 b e) k = ix2 k e := by funext a; match a with | ⟨0, _⟩ => rfl | ⟨1, _⟩ => rfl
  rw [el, er, normed_at, weightT_at]

/-- The clipped rows as the specification has them, from the arrays. -/
abbrev embd : Fin 2048 → Fin 512 → EReal :=
  Cert.Spec.emb (nrm x0 x3 x4) (fun d e => fam2 x5 e d) (fam1 x6)

/-- The affine map plus the bias, clipped at zero. -/
theorem emb_at (b : Fin 2048) (e : Fin 512) :
    val_main_v28 (F := Ideal) x0 x3 x4 x5 x6 (ix2 b e) = embd x0 x3 x4 x5 x6 b e := by
  rw [val_main_v28_apply, val_main_v27_apply, affine_at, biasRow_at, val_main_call0_v0_apply]
  simp only [val_main_call0_cst_apply, Ideal.ofBits_def, Ideal.maximumf_def, Ideal.addf_def]
  rfl

/-- A clipped row's floored length. -/
theorem embLen_at (b : Fin 2048) (z : Fin 1) :
    val_main_v52 (F := Ideal) x0 x3 x4 x5 x6 (ix2 b z) = Cert.Spec.len (embd x0 x3 x4 x5 x6 b) := by
  rw [val_main_v52_apply, val_main_v50_apply, val_main_v49_apply, val_main_v51_apply]
  have e : idx_main_v49 (ix2 b z) = ix1 b := by funext a; match a with | ⟨0, _⟩ => rfl
  rw [e, val_main_v48_apply]
  simp only [val_main_cst_9_apply, val_main_cst_10_apply, Ideal.ofBits_def, Ideal.maximumf_def, Ideal.hostUnary_sqrt_def,
    Ideal.ofBits_zero_f32, zero_add]
  unfold Cert.Spec.len
  refine congrArg (fun s => max (Ideal.sqrt s) _) (Finset.sum_congr rfl fun k _ => ?_)
  have ek : idx_main_v48 (ix1 b) k = ix2 b k := by funext a; match a with | ⟨0, _⟩ => rfl | ⟨1, _⟩ => rfl
  rw [ek, val_main_v47_apply, emb_at, Ideal.mulf_def]

/-- The clipped rows divided by their floored lengths. -/
theorem embUnit_at (b : Fin 2048) (e : Fin 512) :
    val_main_v54 (F := Ideal) x0 x3 x4 x5 x6 (ix2 b e)
      = Cert.Spec.embUnit (nrm x0 x3 x4) (fun d e => fam2 x5 e d) (fam1 x6) b e := by
  rw [val_main_v54_apply, val_main_v53_apply, emb_at]
  have e0 : idx_main_v53 (ix2 b e) = ix2 b (⟨0, Nat.one_pos⟩ : Fin 1) := by
    funext a; match a with | ⟨0, _⟩ => rfl | ⟨1, _⟩ => rfl
  rw [e0, embLen_at, Ideal.hostDivf_def]
  rfl

/-! ## The bank -/

/-- A bank row's floored length. -/
theorem bankLen_at (j : Fin 8192) (z : Fin 1) : val_main_v60 (F := Ideal) x2 (ix2 j z) = Cert.Spec.len (fam2 x2 j) := by
  rw [val_main_v60_apply, val_main_v58_apply, val_main_v57_apply, val_main_v59_apply]
  have e : idx_main_v57 (ix2 j z) = ix1 j := by funext a; match a with | ⟨0, _⟩ => rfl
  rw [e, val_main_v56_apply]
  simp only [val_main_cst_11_apply, val_main_cst_12_apply, Ideal.ofBits_def, Ideal.maximumf_def, Ideal.hostUnary_sqrt_def,
    Ideal.ofBits_zero_f32, zero_add]
  unfold Cert.Spec.len
  refine congrArg (fun s => max (Ideal.sqrt s) _) (Finset.sum_congr rfl fun k _ => ?_)
  have ek : idx_main_v56 (ix1 j) k = ix2 j k := by funext a; match a with | ⟨0, _⟩ => rfl | ⟨1, _⟩ => rfl
  rw [ek, val_main_v55_apply, Ideal.mulf_def]

/-- The bank rows divided by their floored lengths. -/
theorem bankUnit_at (j : Fin 8192) (e : Fin 512) :
    val_main_v62 (F := Ideal) x2 (ix2 j e) = Cert.Spec.unit (fam2 x2 j) e := by
  rw [val_main_v62_apply, val_main_v61_apply]
  have e0 : idx_main_v61 (ix2 j e) = ix2 j (⟨0, Nat.one_pos⟩ : Fin 1) := by
    funext a; match a with | ⟨0, _⟩ => rfl | ⟨1, _⟩ => rfl
  rw [e0, bankLen_at, Ideal.hostDivf_def]
  rfl

/-- The transposed scaled bank at (e, j) is the scaled bank at (j, e). -/
theorem bankT_at (e : Fin 512) (j : Fin 8192) : val_main_v63 (F := Ideal) x2 (ix2 e j) = Cert.Spec.unit (fam2 x2 j) e := by
  rw [val_main_v63_apply]
  have e0 : idx_main_v63 (ix2 e j) = ix2 j e := by funext a; match a with | ⟨0, _⟩ => rfl | ⟨1, _⟩ => rfl
  rw [e0, bankUnit_at]

/-! ## The first result before its layout -/

/-- Every clipped-and-scaled row against every scaled bank row. -/
theorem cross_at (b : Fin 2048) (j : Fin 8192) :
    val_main_v64 (F := Ideal) x0 x2 x3 x4 x5 x6 (ix2 b j)
      = Cert.Spec.resNE (fam2 x0) (fam2 x2) (Cert.Spec.scaleTwo (fam2 x0) (fam1 x3)) (fam1 x4) (fam2 x5) (fam1 x6) b j := by
  rw [val_main_v64_apply]
  unfold Cert.Spec.resNE Cert.Spec.cross
  refine Finset.sum_congr rfl fun k _ => ?_
  have el : lidx_main_v64 (ix2 b j) k = ix2 b k := by funext a; match a with | ⟨0, _⟩ => rfl | ⟨1, _⟩ => rfl
  have er : ridx_main_v64 (ix2 b j) k = ix2 k j := by funext a; match a with | ⟨0, _⟩ => rfl | ⟨1, _⟩ => rfl
  rw [el, er, embUnit_at, bankT_at]

/-! ## The second result before its layout -/

/-- A normalised row's floored length. -/
theorem normLen_at (b : Fin 2048) (z : Fin 1) :
    val_main_v34 (F := Ideal) x0 x3 x4 (ix2 b z) = Cert.Spec.len (nrm x0 x3 x4 b) := by
  rw [val_main_v34_apply, val_main_v32_apply, val_main_v31_apply, val_main_v33_apply]
  have e : idx_main_v31 (ix2 b z) = ix1 b := by funext a; match a with | ⟨0, _⟩ => rfl
  rw [e, val_main_v30_apply]
  simp only [val_main_cst_4_apply, val_main_cst_5_apply, Ideal.ofBits_def, Ideal.maximumf_def, Ideal.hostUnary_sqrt_def,
    Ideal.ofBits_zero_f32, zero_add]
  unfold Cert.Spec.len
  refine congrArg (fun s => max (Ideal.sqrt s) _) (Finset.sum_congr rfl fun k _ => ?_)
  have ek : idx_main_v30 (ix1 b) k = ix2 b k := by funext a; match a with | ⟨0, _⟩ => rfl | ⟨1, _⟩ => rfl
  rw [ek, val_main_v29_apply, normed_at, Ideal.mulf_def]

/-- The normalised rows divided by their floored lengths. -/
theorem normUnit_at (b : Fin 2048) (d : Fin 4096) :
    val_main_v36 (F := Ideal) x0 x3 x4 (ix2 b d) = Cert.Spec.unit (nrm x0 x3 x4 b) d := by
  rw [val_main_v36_apply, val_main_v35_apply, normed_at]
  have e0 : idx_main_v35 (ix2 b d) = ix2 b (⟨0, Nat.one_pos⟩ : Fin 1) := by
    funext a; match a with | ⟨0, _⟩ => rfl | ⟨1, _⟩ => rfl
  rw [e0, normLen_at, Ideal.hostDivf_def]
  rfl

/-- A row of the second batch: its floored length. -/
theorem pairLen_at (b : Fin 2048) (z : Fin 1) : val_main_v42 (F := Ideal) x1 (ix2 b z) = Cert.Spec.len (fam2 x1 b) := by
  rw [val_main_v42_apply, val_main_v40_apply, val_main_v39_apply, val_main_v41_apply]
  have e : idx_main_v39 (ix2 b z) = ix1 b := by funext a; match a with | ⟨0, _⟩ => rfl
  rw [e, val_main_v38_apply]
  simp only [val_main_cst_6_apply, val_main_cst_7_apply, Ideal.ofBits_def, Ideal.maximumf_def, Ideal.hostUnary_sqrt_def,
    Ideal.ofBits_zero_f32, zero_add]
  unfold Cert.Spec.len
  refine congrArg (fun s => max (Ideal.sqrt s) _) (Finset.sum_congr rfl fun k _ => ?_)
  have ek : idx_main_v38 (ix1 b) k = ix2 b k := by funext a; match a with | ⟨0, _⟩ => rfl | ⟨1, _⟩ => rfl
  rw [ek, val_main_v37_apply, Ideal.mulf_def]

/-- The rows of the second batch divided by their floored lengths. -/
theorem pairUnit_at (b : Fin 2048) (d : Fin 4096) :
    val_main_v44 (F := Ideal) x1 (ix2 b d) = Cert.Spec.unit (fam2 x1 b) d := by
  rw [val_main_v44_apply, val_main_v43_apply]
  have e0 : idx_main_v43 (ix2 b d) = ix2 b (⟨0, Nat.one_pos⟩ : Fin 1) := by
    funext a; match a with | ⟨0, _⟩ => rfl | ⟨1, _⟩ => rfl
  rw [e0, pairLen_at, Ideal.hostDivf_def]
  rfl

/-- Per row, the scaled normalised row against the scaled row of the second batch, summed from zero. -/
theorem cos_at (b : Fin 2048) :
    val_main_v46 (F := Ideal) x0 x1 x3 x4 (ix1 b)
      = Cert.Spec.resPE (fam2 x0) (fam2 x1) (Cert.Spec.scaleTwo (fam2 x0) (fam1 x3)) (fam1 x4) b := by
  rw [val_main_v46_apply]
  simp only [val_main_cst_8_apply, Ideal.ofBits_def, Ideal.ofBits_zero_f32, zero_add]
  unfold Cert.Spec.resPE Cert.Spec.rowCos
  refine Finset.sum_congr rfl fun k _ => ?_
  have ek : idx_main_v46 (ix1 b) k = ix2 b k := by funext a; match a with | ⟨0, _⟩ => rfl | ⟨1, _⟩ => rfl
  rw [ek, val_main_v45_apply, normUnit_at, pairUnit_at, Ideal.mulf_def]

end stages

/-! ## The argument arrays as plain families, and the two results -/

variable (m : (ℓ : Loc nD τ sig) → Buf (Elt Ideal) ℓ)

/-- The batch. -/
abbrev aX (c : Dev nD) : Fin 2048 → Fin 4096 → EReal :=
  fun b d => (m ((c.tc : Thread nD τ).loc main_arg0) : S2048x4096.Idx → EReal) (ix2 b d)
/-- The second batch. -/
abbrev aP (c : Dev nD) : Fin 2048 → Fin 4096 → EReal :=
  fun b d => (m ((c.tc : Thread nD τ).loc main_arg1) : S2048x4096.Idx → EReal) (ix2 b d)
/-- The bank. -/
abbrev aNW (c : Dev nD) : Fin 8192 → Fin 512 → EReal :=
  fun j e => (m ((c.tc : Thread nD τ).loc main_arg2) : S8192x512.Idx → EReal) (ix2 j e)
/-- The per-feature weight. -/
abbrev aG (c : Dev nD) : Fin 4096 → EReal :=
  fun d => (m ((c.tc : Thread nD τ).loc main_arg3) : S4096.Idx → EReal) (ix1 d)
/-- The per-feature shift. -/
abbrev aSH (c : Dev nD) : Fin 4096 → EReal :=
  fun d => (m ((c.tc : Thread nD τ).loc main_arg4) : S4096.Idx → EReal) (ix1 d)
/-- The weight matrix, coordinate index first. -/
abbrev aW (c : Dev nD) : Fin 512 → Fin 4096 → EReal :=
  fun e d => (m ((c.tc : Thread nD τ).loc main_arg5) : S512x4096.Idx → EReal) (ix2 e d)
/-- The bias. -/
abbrev aB (c : Dev nD) : Fin 512 → EReal :=
  fun e => (m ((c.tc : Thread nD τ).loc main_arg6) : S512.Idx → EReal) (ix1 e)

/-- The first result: the rows against the bank, laid out as a column. -/
theorem out0_eq (c : Dev nD) :
    Cert.ReferenceIdeal.Value.res_out0 (F := Ideal) m c
      = shapeCast S16777216x1 (fun i : S2048x8192.Idx =>
          Cert.Spec.resNE (aX m c) (aNW m c) (Cert.Spec.scaleTwo (aX m c) (aG m c)) (aSH m c) (aW m c) (aB m c) (i 0) (i 1))
          shapeCasts_S2048x8192_S16777216x1 := by
  refine (val_main_v65_eq (F := Ideal) m c).trans ?_
  unfold val_main_v65
  refine congrArg (fun f => shapeCast S16777216x1 f shapeCasts_S2048x8192_S16777216x1) (funext fun i => ?_)
  rw [eq_ix2 i]
  exact cross_at _ _ _ _ _ _ (i 0) (i 1)

/-- The second result: each row's cosine, repeated along the bank axis and laid out as a column. -/
theorem out1_eq (c : Dev nD) :
    Cert.ReferenceIdeal.Value.res_out1 (F := Ideal) m c
      = shapeCast S16777216x1 (shapeCast S16777216 (broadcastInDim (s := S2048) S2048x8192 ![0] bcast_S2048_S2048x8192_0
          (fun i : S2048.Idx =>
            Cert.Spec.resPE (aX m c) (aP m c) (Cert.Spec.scaleTwo (aX m c) (aG m c)) (aSH m c) (i 0)))
          shapeCasts_S2048x8192_S16777216) shapeCasts_S16777216_S16777216x1 := by
  refine (val_main_v68_eq (F := Ideal) m c).trans ?_
  unfold val_main_v68 val_main_v67 val_main_v66
  refine congrArg (fun f => shapeCast S16777216x1 (shapeCast S16777216
    (broadcastInDim (s := S2048) S2048x8192 ![0] bcast_S2048_S2048x8192_0 f) shapeCasts_S2048x8192_S16777216)
    shapeCasts_S16777216_S16777216x1) (funext fun i => ?_)
  rw [eq_ix1 i]
  exact cos_at _ _ _ _ (i 0)

end Cert.ReferenceIdeal.RefValue

end
-- ==== Proof.Algebra.lean ====
/-
  The one law that joins the two programs: for a batch of real numbers, the weight times the reciprocal square root of
  the one-pass variance (plus a positive constant) is the weight over the square root of the two-pass variance (plus the
  same constant).

  Both variances are the same nonnegative real: with μ the mean of r₁ … r_B, expanding the square gives
  Σ (r - μ)² = Σ r² - 2 μ Σ r + B μ² = Σ r² - B μ², since Σ r = B μ. Adding a positive constant makes the argument of
  the square root a positive real s, and then both the reciprocal square root and the quotient by the square root are
  the product with the real (√s)⁻¹, whatever extended real the weight is.
-/
import proofs.«111281_j10213432230334_1_alg».proof.Proof.Spec
import Mathlib.Data.EReal.Inv
import Mathlib.Analysis.SpecialFunctions.Sqrt
import Mathlib.Algebra.BigOperators.Fin
import Mathlib.Tactic.Ring
import Mathlib.Tactic.FieldSimp
import Mathlib.Tactic.Positivity

noncomputable section

namespace Cert.Algebra

open Idealize.ShloMosaic Cert.Spec

/-- The batch size constant denotes the real 2048. -/
theorem batch_eq : batch = ((2048 : ℝ) : EReal) := by
  simp [Ideal.ofBits, Ideal.ieee, -EReal.coe_mul]; norm_num

/-- The constant under the square root denotes a positive real. -/
theorem eps_pos : ∃ e : ℝ, 0 < e ∧ epsVar = (e : EReal) := by
  refine ⟨10995116 * (2 : ℝ) ^ (-40 : Int), by positivity, ?_⟩
  simp [Ideal.ofBits, Ideal.ieee, -EReal.coe_mul]

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals the two-pass variance is the one-pass variance. -/
theorem var_real (r : Fin 2048 → ℝ) :
    (∑ b, (r b - (∑ b, r b) / 2048) * (r b - (∑ b, r b) / 2048)) / 2048
      = (∑ b, r b * r b) / 2048 - (∑ b, r b) / 2048 * ((∑ b, r b) / 2048) := by
  have h : ∀ b, (r b - (∑ b, r b) / 2048) * (r b - (∑ b, r b) / 2048)
      = r b * r b - 2 * ((∑ b, r b) / 2048) * r b + (∑ b, r b) / 2048 * ((∑ b, r b) / 2048) := by
    intro b; ring
  simp only [h, Finset.sum_add_distrib, Finset.sum_sub_distrib, ← Finset.mul_sum, Finset.sum_const,
    Finset.card_univ, Fintype.card_fin, nsmul_eq_mul]
  push_cast
  ring

/-- The two-pass variance of reals is nonnegative. -/
theorem var_nonneg (r : Fin 2048 → ℝ) :
    0 ≤ (∑ b, (r b - (∑ b, r b) / 2048) * (r b - (∑ b, r b) / 2048)) / 2048 := by
  apply div_nonneg _ (by norm_num)
  exact Finset.sum_nonneg (fun b _ => mul_self_nonneg _)

/-- The quotient of a real by the batch size. -/
theorem div_batch (s : ℝ) : Ideal.div (s : EReal) batch = ((s / 2048 : ℝ) : EReal) := by
  rw [batch_eq, Ideal.div_coe (by norm_num), ← EReal.coe_mul, mul_one_div]

/-- The reciprocal square root of a positive real. -/
theorem rsqrt_of_pos {s : ℝ} (hs : 0 < s) : Ideal.rsqrt (s : EReal) = (((Real.sqrt s)⁻¹ : ℝ) : EReal) := by
  rw [Ideal.rsqrt_coe, if_neg (not_lt.mpr hs.le), if_neg hs.ne']

/-- The quotient of any extended real by the square root of a positive real. -/
theorem div_sqrt_of_pos {s : ℝ} (hs : 0 < s) (g : EReal) :
    Ideal.div g (Ideal.sqrt (s : EReal)) = g * (((Real.sqrt s)⁻¹ : ℝ) : EReal) := by
  rw [Ideal.sqrt_coe, if_neg (not_lt.mpr hs.le), Ideal.div_coe (Real.sqrt_pos.mpr hs).ne', one_div]

section
variable (x : Fin 2048 → Fin 4096 → EReal) (r : Fin 2048 → Fin 4096 → ℝ) (hr : ∀ b d, x b d = (r b d : EReal))
include hr

/-- The mean of a real batch is the real mean. -/
theorem mean_coe (d : Fin 4096) : mean x d = (((∑ b, r b d) / 2048 : ℝ) : EReal) := by
  rw [mean, colSum, ← div_batch, coe_sum]
  simp only [hr]

/-- The one-pass variance of a real batch. -/
theorem varOne_coe (d : Fin 4096) :
    varOne x d = (((∑ b, r b d * r b d) / 2048 - (∑ b, r b d) / 2048 * ((∑ b, r b d) / 2048) : ℝ) : EReal) := by
  have hq : Ideal.div (colSumSq x d) batch = (((∑ b, r b d * r b d) / 2048 : ℝ) : EReal) := by
    rw [colSumSq, ← div_batch, coe_sum]
    simp only [hr, EReal.coe_mul]
  rw [varOne, mean_coe x r hr d, hq, EReal.coe_sub, EReal.coe_mul]

/-- The two-pass variance of a real batch. -/
theorem varTwo_coe (d : Fin 4096) :
    varTwo x d = (((∑ b, (r b d - (∑ b, r b d) / 2048) * (r b d - (∑ b, r b d) / 2048)) / 2048 : ℝ) : EReal) := by
  have hs : (∑ b, (x b d - mean x d) * (x b d - mean x d))
      = ((∑ b, (r b d - (∑ b, r b d) / 2048) * (r b d - (∑ b, r b d) / 2048) : ℝ) : EReal) := by
    rw [coe_sum, mean_coe x r hr d]
    simp only [hr, EReal.coe_mul, EReal.coe_sub]
  rw [varTwo, hs, div_batch]

end

/-- For a batch of reals the two per-feature scales agree. -/
theorem scale_eq (x : Fin 2048 → Fin 4096 → EReal) (hx : ∀ b d, ∃ r : ℝ, x b d = (r : EReal))
    (g : Fin 4096 → EReal) : Cert.Spec.scaleOne x g = Cert.Spec.scaleTwo x g := by
  choose r hr using hx
  obtain ⟨e, he, hee⟩ := eps_pos
  funext d
  have hv := var_nonneg (fun b => r b d)
  rw [scaleOne, scaleTwo, varOne_coe x r hr, varTwo_coe x r hr, ← var_real (fun b => r b d), hee, ← EReal.coe_add,
    rsqrt_of_pos (by positivity), div_sqrt_of_pos (by positivity)]

end Cert.Algebra

end
-- ==== Proof.Finite.lean ====
/-
  From the precondition to the reals: the precondition says that every entry of every argument array has an absolute
  value below +∞; an extended real with that property is neither infinity, so it is a real number. Only the first
  argument array is read here.
-/
import proofs.«111281_j10213432230334_1_alg».proof.Defs
import proofs.«111281_j10213432230334_1_alg».proof.Proof.Gen.Pre_finite_inputs
import Idealize.ShloMosaic.Lib.ReduceAll
import Idealize.ShloMosaic.Lib.ValueIdx

noncomputable section

namespace Cert.Finite

open Idealize.ShloMosaic Idealize.SL.Sem Idealize.ShloMosaic.ValueIdx

/-- The shape without axes has one index. -/
instance : Subsingleton Cert.Pre_finite_inputs.S_.Idx := ⟨fun a b => funext fun d => d.elim0⟩

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the first argument array is a real. -/
theorem x_real (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) (b : Fin 2048) (d : Fin 4096) :
    ∃ r : ℝ, (m ((c.tc : Thread Cert.KernelIdeal.nD Cert.KernelIdeal.τ).loc Cert.KernelIdeal.main_arg0) :
      Cert.KernelIdeal.S2048x4096.Idx → EReal) (ix2 b d) = (r : EReal) := by
  have h0 := congrFun (h c) ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := Host.reduce_andi_all _ _ _ _ _ h6 (ix2 b d)
  exact real_of_abs_lt _ h7

end Cert.Finite

end
-- ==== Proof.lean ====
/-
  The certificate's five claims.

  The kernel program is four launches with host arithmetic between them: per-feature sums and sums of squares of a batch
  of 2048 rows of 4096 features (accumulated over four blocks of rows); the mean and the one-pass variance; the batch
  normalised with the weight times the reciprocal square root of the variance plus a constant, mapped to 512
  coordinates, clipped at zero and divided row by row by its floored length, with per row the cosine against a second
  batch; a bank of 8192 rows divided row by row by its floored length; and every row of the first against every row of
  the bank. The reference computes the same with the two-pass variance and a quotient by the square root.

  Frames: each program runs to its end from any memory and leaves its arguments as launched (for the two kernel
  programs, the run of the whole program read at the argument buffers; for the reference, its run with the results
  dropped). The idealization rewrote nothing. Equality of results over the extended reals: the kernel's two results are
  the closing reshapes of one function of the argument arrays and the per-feature scale, the reference's the same
  function at its own scale, and for a batch of real numbers the two scales are one number: the one-pass and the
  two-pass variance agree, the sum under the root is positive, and a product with the reciprocal root is the quotient by
  the root.
-/
import proofs.«111281_j10213432230334_1_alg».proof.Defs
import proofs.«111281_j10213432230334_1_alg».proof.Proof.Gen.Kernel
import proofs.«111281_j10213432230334_1_alg».proof.Proof.Gen.KernelIdeal
import proofs.«111281_j10213432230334_1_alg».proof.Proof.Gen.ReferenceIdeal
import proofs.«111281_j10213432230334_1_alg».proof.Proof.Gen.Pre_finite_inputs
import proofs.«111281_j10213432230334_1_alg».proof.Proof.Gen.ReferenceIdeal.Run
import proofs.«111281_j10213432230334_1_alg».proof.Proof.K.Fold
import proofs.«111281_j10213432230334_1_alg».proof.Proof.KI.Fold
import proofs.«111281_j10213432230334_1_alg».proof.Proof.KI.Glue
import proofs.«111281_j10213432230334_1_alg».proof.Proof.RefVal
import proofs.«111281_j10213432230334_1_alg».proof.Proof.Algebra
import proofs.«111281_j10213432230334_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and keeps its arguments. -/
theorem frame_k : Cert.frame_Kernel := fun m ρ _ => Cert.Kernel.Hand.frame_all (F := Bits) m ρ

/-- The idealized program runs and keeps its arguments. -/
theorem frame_ki : Cert.frame_KernelIdeal := fun m ρ _ => Cert.KernelIdeal.Hand.frame_all (F := Ideal) m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs end with equal results on arguments that agree and are real numbers. -/
theorem algebraic : Cert.algebraic_KernelIdeal_ReferenceIdeal := by
  intro m ρ m' ρ' hpre hagree
  -- the reference's argument families are the kernel's, since the memories agree on the arguments
  have hX : ∀ c, Cert.ReferenceIdeal.RefValue.aX m' c = Cert.KernelIdeal.HandVal.kX m c := fun c => by
    unfold Cert.ReferenceIdeal.RefValue.aX Cert.KernelIdeal.HandVal.kX; rw [(hagree c).1]
  have hP : ∀ c, Cert.ReferenceIdeal.RefValue.aP m' c = Cert.KernelIdeal.HandVal.kP m c := fun c => by
    unfold Cert.ReferenceIdeal.RefValue.aP Cert.KernelIdeal.HandVal.kP; rw [(hagree c).2.1]
  have hNW : ∀ c, Cert.ReferenceIdeal.RefValue.aNW m' c = Cert.KernelIdeal.HandVal.kNW m c := fun c => by
    unfold Cert.ReferenceIdeal.RefValue.aNW Cert.KernelIdeal.HandVal.kNW; rw [(hagree c).2.2.1]
  have hG : ∀ c, Cert.ReferenceIdeal.RefValue.aG m' c = Cert.KernelIdeal.HandVal.kG m c := fun c => by
    unfold Cert.ReferenceIdeal.RefValue.aG Cert.KernelIdeal.HandVal.kG; rw [(hagree c).2.2.2.1]
  have hSH : ∀ c, Cert.ReferenceIdeal.RefValue.aSH m' c = Cert.KernelIdeal.HandVal.kSH m c := fun c => by
    unfold Cert.ReferenceIdeal.RefValue.aSH Cert.KernelIdeal.HandVal.kSH; rw [(hagree c).2.2.2.2.1]
  have hW : ∀ c, Cert.ReferenceIdeal.RefValue.aW m' c = Cert.KernelIdeal.HandVal.kW m c := fun c => by
    unfold Cert.ReferenceIdeal.RefValue.aW Cert.KernelIdeal.HandVal.kW; rw [(hagree c).2.2.2.2.2.1]
  have hB : ∀ c, Cert.ReferenceIdeal.RefValue.aB m' c = Cert.KernelIdeal.HandVal.kB m c := fun c => by
    unfold Cert.ReferenceIdeal.RefValue.aB Cert.KernelIdeal.HandVal.kB; rw [(hagree c).2.2.2.2.2.2]
  -- for a batch of real numbers the two per-feature scales are one
  have hs : ∀ c, Cert.Spec.scaleTwo (Cert.KernelIdeal.HandVal.kX m c) (Cert.KernelIdeal.HandVal.kG m c)
      = Cert.Spec.scaleOne (Cert.KernelIdeal.HandVal.kX m c) (Cert.KernelIdeal.HandVal.kG m c) := fun c =>
    (Cert.Algebra.scale_eq _ (fun b d => Cert.Finite.x_real m hpre c b d) _).symm
  refine ⟨fun c => _, fun c => _,
    (θ_run Cert.KernelIdeal.defs _ _).mono (fun r h c =>
      ⟨(h c _ (Cert.KernelIdeal.Hand.mem_uc Cert.KernelIdeal.main_v15 (by decide))).trans (Cert.KernelIdeal.HandVal.out0_eq m ρ c),
       (h c _ (Cert.KernelIdeal.Hand.mem_uc Cert.KernelIdeal.main_v19 (by decide))).trans (Cert.KernelIdeal.HandVal.out1_eq m ρ c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c)⟩)
      (Cert.KernelIdeal.Hand.run_all (F := Ideal) m ρ),
    (θ_run Cert.ReferenceIdeal.defs _ _).mono (fun r h c => ⟨(h c).1.trans ?_, (h c).2.1.trans ?_, (h c).2.2⟩)
      (Cert.ReferenceIdeal.Value.run (F := Ideal) m' ρ')⟩
  · refine (Cert.ReferenceIdeal.RefValue.out0_eq m' c).trans ?_
    rw [hX c, hNW c, hG c, hSH c, hW c, hB c, hs c]
  · refine (Cert.ReferenceIdeal.RefValue.out1_eq m' c).trans ?_
    rw [hX c, hP c, hG c, hSH c, hs c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
